-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x2048 .f32) (main_arg1 : IVec S16384 32) (main_arg2 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 1024#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_v11 : IVec S16384 1 := andi main_v8 main_v10
  let main_c_3 : IVec S_ 32 := constantI S_ 32 8#32
  let main_v12 : IVec S16384 32 := broadcastInDim S16384 ![] bcast_S_S16384 main_c_3
  let main_v13 : IVec S16384 1 := cmpi .slt main_arg2 main_v12
  let main_v14 : IVec S16384 1 := andi main_v11 main_v13
  let main_c_4 : IVec S_ 1 := constantI S_ 1 1#1
  let main_v15 : IVec S_ 1 := (fun x v => Host.reduce IntOp.andi x v reducesTo_S16384_S_d0 h_S_) main_v14 main_c_4
  let main_v16 : IVec S_ 1 := andi main_v3 main_v15
  main_v16
-- ==== Kernel.lean ====
abbrev S16384x2048 : Shape := ⟨2, ![16384, 2048]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S8192 : Shape := ⟨1, ![8192]⟩
abbrev S8192x1 : Shape := ⟨2, ![8192, 1]⟩
abbrev S8192x2048 : Shape := ⟨2, ![8192, 2048]⟩
abbrev S1x256 : Shape := ⟨2, ![1, 256]⟩
abbrev S256x128 : Shape := ⟨2, ![256, 128]⟩
abbrev S8192x128 : Shape := ⟨2, ![8192, 128]⟩
abbrev S8192x256 : Shape := ⟨2, ![8192, 256]⟩
abbrev S1x1 : Shape := ⟨2, ![1, 1]⟩
abbrev S2048x1 : Shape := ⟨2, ![2048, 1]⟩
abbrev S2048x256 : Shape := ⟨2, ![2048, 256]⟩
abbrev S512x256 : Shape := ⟨2, ![512, 256]⟩
abbrev S2048x512 : Shape := ⟨2, ![2048, 512]⟩
abbrev S256 : Shape := ⟨1, ![256]⟩
abbrev S1 : Shape := ⟨1, ![1]⟩

abbrev nBuf : Space → Nat
  | .hbm => 21
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S1x16384, .i32⟩
  | .hbm, ⟨8, _⟩ => ⟨S16384x1, .i32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S8192, .f32⟩
  | .hbm, ⟨13, _⟩ => ⟨S16384x1, .i32⟩
  | .hbm, ⟨14, _⟩ => ⟨S8192, .f32⟩
  | .hbm, ⟨15, _⟩ => ⟨S8192x1, .f32⟩
  | .hbm, ⟨16, _⟩ => ⟨S8192x2048, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x256, .i32⟩
  | .local _ .vmem, ⟨1, _⟩ => ⟨S1x256, .i32⟩
  | .local _ .vmem, ⟨2, _⟩ => ⟨S256x128, .f32⟩
  | .local _ .vmem, ⟨3, _⟩ => ⟨S256x128, .f32⟩
  | .local _ .vmem, ⟨4, _⟩ => ⟨S8192x1, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S2048x1, .i32⟩
  | .local _ .vmem, ⟨9, _⟩ => ⟨S2048x1, .i32⟩
  | .local _ .vmem, ⟨10, _⟩ => ⟨S2048x256, .f32⟩
  | .local _ .vmem, ⟨11, _⟩ => ⟨S2048x256, .f32⟩
  | .local _ .vmem, ⟨12, _⟩ => ⟨S512x256, .f32⟩
  | .local _ .vmem, ⟨13, _⟩ => ⟨S512x256, .f32⟩
  | .local _ .vmem, ⟨14, _⟩ => ⟨S1x1, .f32⟩
  | .local _ .vmem, ⟨15, _⟩ => ⟨S2048x256, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13

abbrev nD : Nat := 1
abbrev τ : Topo := Topo.v7x

variable {F : FTy → Type} [FloatOps F]

abbrev grid0 : Pipeline.Grid := ⟨2, ![16, 64], ![false, false]⟩

def k0_cond2 (i : grid0.Coords) : BitVec 1 :=
  let arg1 : BitVec 32 := BitVec.ofNat 32 (i 1).val
  let c63_i32 : BitVec 32 := 63#32
  let v20 : BitVec 1 := Scalar.cmpi .eq arg1 c63_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨3, ![8, 8, 16], ![false, false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def k1_cond3 (i : grid1.Coords) : BitVec 1 :=
  let arg2 : BitVec 32 := BitVec.ofNat 32 (i 2).val
  let c15_i32 : BitVec 32 := 15#32
  let v30 : BitVec 1 := Scalar.cmpi .eq arg2 c15_i32
  let v31 : BitVec 32 := Scalar.extui v30
  let c0_i32_12 : BitVec 32 := 0#32
  let v32 : BitVec 1 := Scalar.cmpi .ne v31 c0_i32_12
  v32

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

class Facts₀ : Prop where
  bcast_S_S16384 : S_.BroadcastsInDim S16384 (![] : Fin 0 → Fin S16384.rank)
  shapeCasts_S16384_S1x16384 : S16384.ShapeCasts S1x16384
  shapeCasts_S16384_S16384x1 : S16384.ShapeCasts S16384x1
  bcast_S_S8192 : S_.BroadcastsInDim S8192 (![] : Fin 0 → Fin S8192.rank)
  bcast_S16384_S16384x1_0 : S16384.BroadcastsInDim S16384x1 (![0] : Fin 1 → Fin S16384x1.rank)
  shapeCasts_S8192_S8192x1 : S8192.ShapeCasts S8192x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S8192x256_d0_w32 : S8192x256.Iotas .tc 32 [0]
  broadcasts_S1x256_S8192x256 : S1x256.Broadcasts S8192x256
  natLt_1_32 : 1 < 32
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  inb_S1x1_S1x1_0_0 : ∀ a, (![0, 0] : Fin 2 → Nat) a + S1x1.size a ≤ S1x1.size a
  h_S1x1 : 0 < S1x1.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S2048x256_S256 : S2048x256.Reduces [0] S256
  shapeCasts_S256_S1x256 : S256.ShapeCasts S1x256
  reduces_S1x256_S1 : S1x256.Reduces [1] S1
  shapeCasts_S1_S1x1 : S1.ShapeCasts S1x1
  shapeCasts_S1x1_S1x1 : S1x1.ShapeCasts S1x1
  shapeCasts_S1x1_S_ : S1x1.ShapeCasts S_
  scatter_S8192_S16384x1_S16384_n_0_0_1_wf : ScatterDims.WF S8192 S16384x1 S16384 [] [0] [0] 1
  dot_S8192x256_S256x128_S8192x128_1_0_0_1_n_n_wf : DotDims.WF S8192x256 S256x128 S8192x128 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256.size a ≤ S1x16384.size a
  hwx0_0 : ∀ i : grid0.Coords, EltTy.bits .i32 = 32 ∨ (Rect.block (s := S1x16384) S1x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S16384x2048.size a
  hwx0_1 : ∀ i : grid0.Coords, EltTy.bits .f32 = 32 ∨ (Rect.block (s := S16384x2048) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x2048.size a
  hwx0_3 : ∀ i : grid0.Coords, EltTy.bits .f32 = 32 ∨ (Rect.block (s := S8192x2048) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S16384x1.size a
  hwx1_0 : ∀ i : grid1.Coords, EltTy.bits .i32 = 32 ∨ (Rect.block (s := S16384x1) S2048x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x2048.size a
  hwx1_1 : ∀ i : grid1.Coords, EltTy.bits .f32 = 32 ∨ (Rect.block (s := S16384x2048) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x2048.size a
  hwx1_2 : ∀ i : grid1.Coords, EltTy.bits .f32 = 32 ∨ (Rect.block (s := S8192x2048) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def scatter_S8192_S16384x1_S16384_n_0_0_1 : ScatterDims S8192 S16384x1 S16384 where
  updateWindowDims := []
  insertedWindowDims := [0]
  scatterDimsToOperandDims := [0]
  indexVectorDim := 1
  wf := scatter_S8192_S16384x1_S16384_n_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v3) S1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond3 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S16384 : Shape := ⟨1, ![16384]⟩
abbrev S_ : Shape := ⟨0, ![]⟩
abbrev S8192x2048 : Shape := ⟨2, ![8192, 2048]⟩
abbrev S16384x1 : Shape := ⟨2, ![16384, 1]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S_, .f32⟩
  | .hbm, ⟨8, _⟩ => ⟨S8192x2048, .f32⟩
  | .hbm, ⟨9, _⟩ => ⟨S16384x1, .i32⟩
  | .hbm, ⟨10, _⟩ => ⟨S8192x2048, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S8192, .f32⟩
  | .hbm, ⟨15, _⟩ => ⟨S16384x1, .i32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .i1⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S8192x2048 : S_.BroadcastsInDim S8192x2048 (![] : Fin 0 → Fin S8192x2048.rank)
  bcast_S16384_S16384x1_0 : S16384.BroadcastsInDim S16384x1 (![0] : Fin 1 → Fin S16384x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S16384x2048 : S_.BroadcastsInDim S16384x2048 (![] : Fin 0 → Fin S16384x2048.rank)
  reducesTo_S16384x2048_S_d0_1 : S16384x2048.ReducesTo [0, 1] S_
  h_S_ : 0 < S_.numel
  scatter_S8192x2048_S16384x1_S16384x2048_1_0_0_1_wf : ScatterDims.WF S8192x2048 S16384x1 S16384x2048 [1] [0] [0] 1
  scatter_S8192_S16384x1_S16384_n_0_0_1_wf : ScatterDims.WF S8192 S16384x1 S16384 [] [0] [0] 1
  gather_S8192x2048_S16384x1_S16384x2048_1_0_n_n_0_1_12048_wf : GatherDims.WF S8192x2048 S16384x1 S16384x2048 [1] [0] [] [0] [] 1 ![1, 2048]

variable [Facts₀]

def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf
def scatter_S8192_S16384x1_S16384_n_0_0_1 : ScatterDims S8192 S16384x1 S16384 where
  updateWindowDims := []
  insertedWindowDims := [0]
  scatterDimsToOperandDims := [0]
  indexVectorDim := 1
  wf := scatter_S8192_S16384x1_S16384_n_0_0_1_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf

class Facts : Prop extends Facts₀ where

variable [Facts]
-- ==== Proof.K.Common.lean ====
/-
  Shared by both regions of the kernel program: when each branch of the two kernel bodies is taken, as a
  function of the grid position; at which positions the output windows are idle or written back; the names of the
  staging memrefs a body is called with and of the two scratch accumulators; and each region's class invariant
  opened into its scratch accumulator, the other scoped buffers and the generator register.
-/
import proofs.«429483_j15710990369513_1_alg».proof.Proof.Gen.Kernel.Launch
import proofs.«429483_j15710990369513_1_alg».proof.Proof.Gen.Kernel.Skeleton
import proofs.«429483_j15710990369513_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-! ## Region 0 (segment means): grid (d, n) = 16 × 64, position t = 64·d + n -/

/-- The reset branch of the mean kernel: taken at the first row step of each column block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- The finishing branch of the mean kernel: taken at the last row step of each column block. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a finishing step the means block is idle (nothing is stored into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
/-- The segment-sum accumulator of the mean kernel. -/
abbrev scM0 : Memref sig .tc .vmem S8192x128 .f32 := Memref.whole cc0_scratch0

/-- The scoped buffers region 0 neither stages nor accumulates in, each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- Region 0's class invariant: the accumulator at some contents, the other scoped buffers, the generator register. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; try rfl

/-! ## Region 1 (gather and loss): grid (n, d, s) = 8 × 8 × 16, position t = 128·n + 16·d + s -/

/-- The branch that clears the loss cell: taken at the very first position only. -/
abbrev cond1_0 (i : grid1.Coords) : Prop := k1_cond1 i = 1#1
theorem hcond1_0 : ∀ t : Fin cfg1.N, cond1_0 (grid1.coords t) ↔ t.val = 0 :=
  (by decide +kernel : ∀ t : Fin grid1.N, cond1_0 (grid1.coords t) ↔ t.val = 0)
/-- The branch that clears the gathered-target accumulator: taken at the first segment step of each block. -/
abbrev cond1_1 (i : grid1.Coords) : Prop := (Scalar.cmpi .ne (Scalar.extui (Scalar.cmpi .eq (BitVec.ofNat 32 (i 2).val) 0#32)) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)
/-- The branch that adds a block's loss into the loss cell: taken at the last segment step of each block. -/
abbrev cond1_2 (i : grid1.Coords) : Prop := k1_cond3 i = 1#1
theorem hcond1_2 : ∀ t : Fin cfg1.N, cond1_2 (grid1.coords t) ↔ t.val % 16 = 15 :=
  (by decide +kernel : ∀ t : Fin grid1.N, cond1_2 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where neither the clearing nor the adding branch runs the loss cell is idle; it is written back at the last position only. -/
theorem idleAt1_3 : ∀ t : Fin cfg1.N, ¬cond1_0 (grid1.coords t) → ¬cond1_2 (grid1.coords t) → cfg1.idle 3 (grid1.coords t) = true := by decide +kernel
theorem liveAt1_3_first : ∀ t : Fin cfg1.N, cond1_0 (grid1.coords t) → cfg1.idle 3 (grid1.coords t) = false := by decide +kernel
theorem liveAt1_3_last : ∀ t : Fin cfg1.N, cond1_2 (grid1.coords t) → cfg1.idle 3 (grid1.coords t) = false := by decide +kernel
theorem noFlush1_3 : ∀ t : Fin cfg1.N, t.val ≠ 1023 → (cfg1.win 3).flush t = false := by decide +kernel

abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The gathered-target accumulator of the loss kernel. -/
abbrev scM1 : Memref sig .tc .vmem S2048x256 .f32 := Memref.whole cc1_scratch0

/-- The scoped buffers region 1 neither stages nor accumulates in, each whole at some contents, around the accumulator's
    own resource `X` (which comes last among the core's scoped buffers). -/
def withScoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- Region 1's class invariant: the other scoped buffers around the accumulator at some contents, and the generator register. -/
theorem PhiA1_eq (c : Dev nD) :
    (Pipeline.ΦA spec1 c : sProp 𝕄)
      = iprop(withScoped1 (F := F) c (iprop(∃ d, owns (c : Thread nD τ) scM1 fullShare d)) ∗ (∃ r, prngReg c r)) := by
  unfold Pipeline.ΦA withScoped1; rw [scopedRest1_eq]; simp only [scM1, owns_whole]; try rfl

end Cert.Kernel.Hand

end
-- ==== Proof.K.Defs0.lean ====
/-
  Region 0, the segment means. At grid position t = 64·d + n the body adds, into an accumulator of 8192 × 128 sums kept
  across positions, the product of the indicator matrix [s = seg j] (s a segment, j one of the 256 rows of step n) with the
  128 feature columns of block d; the accumulator restarts from zero whenever n = 0, and at n = 63 the sums divided by
  max(count, 1) are stored as the means block of columns 128·d … 128·d + 127. Here: the blocks the body reads, the
  accumulator after each position as a recursion, and the pipeline's proof data and invariant over them.
-/
import proofs.«429483_j15710990369513_1_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The segment-sum accumulator after the body at position `n`: the update of the body (indicator matrix of the
    position's segment ids times the position's feature block, added in) applied to zero when `n` starts a column block
    and to what the position before left otherwise. -/
def acc0 (c : Dev nD) : (n : ℕ) → n < cfg0.N → Vec F S8192x128 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 64 = 0 then k0_pay1 else acc0 c n (Nat.lt_of_succ_lt hn))

theorem acc0_zero (c : Dev nD) (hn : 0 < cfg0.N) :
    acc0 V c 0 hn = k0_pay2 (iblk0 V c 0 ⟨0, hn⟩) (iblk0 V c 1 ⟨0, hn⟩) k0_pay1 := rfl
theorem acc0_succ (c : Dev nD) (n : ℕ) (hn : n + 1 < cfg0.N) :
    acc0 V c (n + 1) hn = k0_pay2 (iblk0 V c 0 ⟨n + 1, hn⟩) (iblk0 V c 1 ⟨n + 1, hn⟩)
      (if (n + 1) % 64 = 0 then k0_pay1 else acc0 V c n (Nat.lt_of_succ_lt hn)) := rfl

/-- What a finishing step stores as the means block: the accumulated sums over max(count, 1). -/
def means0 (c : Dev nD) (t : Fin cfg0.N) : Vec F S8192x128 .f32 :=
  k0_pay3 (iblk0 V c 2 t) (acc0 V c t.val t.isLt)

/-- The region's invariant before position `n`: before the first position the class's own (the accumulator at anything);
    afterwards the accumulator at what the position before left, the other scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ otherScoped0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ otherScoped0 (F := F) c) ∗ (∃ r, prngReg c r)) := by
  cases n with
  | zero => exact absurd rfl hz
  | succ n => rfl

/-- The proof data of pipeline 0 on core `c`: the arrays as the region finds them; after the body each input's buffer at
    its block and the means buffer at what a finishing step stores (consulted only where the step is one); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => means0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = means0 V c t := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.K.Defs1.lean ====
/-
  Region 1, the gather and the loss. At grid position t = 128·n + 16·d + s the body adds, into an accumulator of 2048 × 256
  targets kept across positions, the product of the indicator matrix [seg i = 512·s + k] (i one of the 2048 rows of block
  n, k one of the 512 segments of step s) with the 512 × 256 block of means at (s, d); the accumulator restarts from zero
  whenever s = 0. At s = 15 the smooth-L1 terms of (features − targets) over the 2048 × 256 block are summed and added
  into a single loss cell, which is cleared at the very first position and written back once, after the last.
  Here: the blocks the body reads, the accumulator and the loss cell after each position as recursions, and the
  pipeline's proof data and invariant over them.
-/
import proofs.«429483_j15710990369513_1_alg».proof.Proof.K.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered-target accumulator after the body at position `n`: the body's update (indicator matrix of the block's
    segment ids against the step's 512 segments, times the step's block of means, added in) applied to zero when `n`
    starts a block and to what the position before left otherwise. -/
def tgt1 (c : Dev nD) : (n : ℕ) → n < cfg1.N → Vec F S2048x256 .f32
  | 0, hn => k1_pay3 (grid1.coords ⟨0, hn⟩) (iblk1 V c 0 ⟨0, hn⟩) (iblk1 V c 2 ⟨0, hn⟩) k1_pay2
  | n + 1, hn => k1_pay3 (grid1.coords ⟨n + 1, hn⟩) (iblk1 V c 0 ⟨n + 1, hn⟩) (iblk1 V c 2 ⟨n + 1, hn⟩)
      (if (n + 1) % 16 = 0 then k1_pay2 else tgt1 c n (Nat.lt_of_succ_lt hn))

theorem tgt1_zero (c : Dev nD) (hn : 0 < cfg1.N) :
    tgt1 V c 0 hn = k1_pay3 (grid1.coords ⟨0, hn⟩) (iblk1 V c 0 ⟨0, hn⟩) (iblk1 V c 2 ⟨0, hn⟩) k1_pay2 := rfl
theorem tgt1_succ (c : Dev nD) (n : ℕ) (hn : n + 1 < cfg1.N) :
    tgt1 V c (n + 1) hn = k1_pay3 (grid1.coords ⟨n + 1, hn⟩) (iblk1 V c 0 ⟨n + 1, hn⟩) (iblk1 V c 2 ⟨n + 1, hn⟩)
      (if (n + 1) % 16 = 0 then k1_pay2 else tgt1 V c n (Nat.lt_of_succ_lt hn)) := rfl

/-- The loss cell's buffer after the body at position `n`: zero after the first position; after a position that ends a
    block, the block's loss (over the position's feature block and the finished targets) added to what the cell held;
    unchanged otherwise. -/
def loss1 (c : Dev nD) : (n : ℕ) → n < cfg1.N → Vec F S1x1 .f32
  | 0, _ => k1_pay1
  | n + 1, hn =>
      if (n + 1) % 16 = 15 then k1_pay4 (iblk1 V c 1 ⟨n + 1, hn⟩) (tgt1 V c (n + 1) hn) (loss1 c n (Nat.lt_of_succ_lt hn))
      else loss1 c n (Nat.lt_of_succ_lt hn)

theorem loss1_zero (c : Dev nD) (hn : 0 < cfg1.N) : loss1 V c 0 hn = k1_pay1 := rfl
theorem loss1_succ (c : Dev nD) (n : ℕ) (hn : n + 1 < cfg1.N) :
    loss1 V c (n + 1) hn =
      if (n + 1) % 16 = 15 then k1_pay4 (iblk1 V c 1 ⟨n + 1, hn⟩) (tgt1 V c (n + 1) hn) (loss1 V c n (Nat.lt_of_succ_lt hn))
      else loss1 V c n (Nat.lt_of_succ_lt hn) := rfl

/-- The region's invariant before position `n`: before the first position the class's own (the accumulator at anything);
    afterwards the accumulator at what the position before left, the other scoped buffers, the generator register. -/
def PhiS1 (c : Dev nD) : (n : ℕ) → n ≤ cfg1.N → sProp 𝕄
  | 0, _ => Pipeline.ΦA spec1 c
  | n + 1, hn => iprop(withScoped1 (F := F) c (owns (c : Thread nD τ) scM1 fullShare (tgt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(withScoped1 (F := F) c (owns (c : Thread nD τ) scM1 fullShare (tgt1 V c n hn)) ∗ (∃ r, prngReg c r)) := rfl
theorem PhiS1_pos (c : Dev nD) (n : ℕ) (h : n ≤ cfg1.N) (hz : n ≠ 0) :
    PhiS1 V c n h = iprop(withScoped1 (F := F) c (owns (c : Thread nD τ) scM1 fullShare (tgt1 V c (n - 1) (by omega))) ∗ (∃ r, prngReg c r)) := by
  cases n with
  | zero => exact absurd rfl hz
  | succ n => rfl

/-- The proof data of pipeline 1 on core `c`: the arrays as the region finds them; after the body each input's buffer at
    its block and the loss cell's buffer at `loss1` (consulted only where the body stores into it); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => loss1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = loss1 V c t.val t.isLt := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.RunDefs.lean ====
/-
  The contents of the core's unscoped buffers at each boundary of the program: at launch; after the host operations that
  build the segment ids and the counts; after region 0, whose arrays hold what its write-backs leave (the means); after
  region 1 (the loss cell); after the closing host operations (the reshape and the division by the number of entries).
-/
import proofs.«429483_j15710990369513_1_alg».proof.Proof.K.Defs0
import proofs.«429483_j15710990369513_1_alg».proof.Proof.K.Defs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the opening host operations (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the closing host operations: the contents at the program's end. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

end Cert.Kernel.Hand

end
-- ==== Proof.K.Body0.lean ====
/-
  The mean kernel's body as a triple, one per way its two branches can go. Its inputs' buffers (segment ids of the step,
  feature block, counts) are read and left as they were; the accumulator goes from its contents `s` to the update
  `k0_pay2 ids feats s` (from zero, `k0_pay1`, when the reset branch runs first); the means buffer is untouched unless
  the finishing branch runs, which stores `k0_pay3 counts (updated accumulator)` into it.
-/
import proofs.«429483_j15710990369513_1_alg».proof.Proof.K.Common
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-- The zero offsets of a rank-two access, as the constant function. -/
private theorem hz2 : (![0, 0] : Fin 2 → Nat) = fun _ => 0 := by
  funext a; fin_cases a <;> rfl

/-- A load through the whole-shape rectangle at zero offsets reads what the buffer's contents read. -/
private theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- The one piece of a whole-shape store covers every index. -/
private theorem cover_whole {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-- After a store of the whole shape (made last), the buffer reads that store's payload, whatever was stored
    before it and whatever the buffer held. -/
private theorem read_store_whole {sg : RefSig} {κ : Kind} {sp : Space} {S : Shape} {e : EltTy} {Val : EltTy → Type}
    [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (cover_whole h inb w L)).trans (View.canon_cons_unit_zero h inb w L)

/-- First step of a column block (reset, no finish). -/
theorem body0_first (c : Dev nD) (E : Set ℕ) (i : grid0.Coords) (h0 : cond0_0 i) (h1 : ¬cond0_1 i) (arg2 : Memref sig .tc .vmem S1x256 .i32) (harg2 : arg2.IsWhole) (arg3 : Memref sig .tc .vmem S256x128 .f32) (harg3 : arg3.IsWhole) (arg4 : Memref sig .tc .vmem S8192x1 .f32) (harg4 : arg4.IsWhole) (arg5 : Memref sig .tc .vmem S8192x128 .f32) (harg5 : arg5.IsWhole) (arg6 : Memref sig .tc .vmem S8192x128 .f32) (harg6 : arg6.IsWhole)
    (x2 : Vec F S1x256 .i32) (x3 : Vec F S256x128 .f32) (x4 : Vec F S8192x1 .f32) (x5 : Vec F S8192x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay2 x2 x3 k0_pay1)) -∗ K ⟨⟩))
      ⊢ wp frame (wpE (defs₀ (F := F)) Variants.none c none) E (cc0__mean_kernel i arg2 harg2 arg3 harg3 arg4 harg4 arg5 harg5 arg6 harg6) K := by
  simp only [cc0__mean_kernel_eq_skeleton]; unfold cc0__mean_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact h0 | exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- the accumulator reads the payload stored last; its load of the accumulator read the zero fill stored first
  sl_unfold_run_names
  refine (read_store_whole _ _ hz2 _ _ _).trans ?_
  rw [readAt_whole _ f2 hz2, readAt_whole _ f3 hz2, View.readCov_unit_zero _ hz2]

/-- A middle step (no reset, no finish). -/
theorem body0_mid (c : Dev nD) (E : Set ℕ) (i : grid0.Coords) (h0 : ¬cond0_0 i) (h1 : ¬cond0_1 i) (arg2 : Memref sig .tc .vmem S1x256 .i32) (harg2 : arg2.IsWhole) (arg3 : Memref sig .tc .vmem S256x128 .f32) (harg3 : arg3.IsWhole) (arg4 : Memref sig .tc .vmem S8192x1 .f32) (harg4 : arg4.IsWhole) (arg5 : Memref sig .tc .vmem S8192x128 .f32) (harg5 : arg5.IsWhole) (arg6 : Memref sig .tc .vmem S8192x128 .f32) (harg6 : arg6.IsWhole)
    (x2 : Vec F S1x256 .i32) (x3 : Vec F S256x128 .f32) (x4 : Vec F S8192x1 .f32) (x5 : Vec F S8192x128 .f32) (s : Vec F S8192x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay2 x2 x3 s)) -∗ K ⟨⟩))
      ⊢ wp frame (wpE (defs₀ (F := F)) Variants.none c none) E (cc0__mean_kernel i arg2 harg2 arg3 harg3 arg4 harg4 arg5 harg5 arg6 harg6) K := by
  simp only [cc0__mean_kernel_eq_skeleton]; unfold cc0__mean_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact h0 | exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- the accumulator reads the one payload stored into it, whose three loads read the buffers' contents
  refine (read_store_whole _ _ hz2 _ _ _).trans ?_
  rw [readAt_whole _ f2 hz2, readAt_whole _ f3 hz2, readAt_whole _ f6 hz2]

/-- Last step of a column block (no reset, finish): the means are stored. -/
theorem body0_last (c : Dev nD) (E : Set ℕ) (i : grid0.Coords) (h0 : ¬cond0_0 i) (h1 : cond0_1 i) (arg2 : Memref sig .tc .vmem S1x256 .i32) (harg2 : arg2.IsWhole) (arg3 : Memref sig .tc .vmem S256x128 .f32) (harg3 : arg3.IsWhole) (arg4 : Memref sig .tc .vmem S8192x1 .f32) (harg4 : arg4.IsWhole) (arg5 : Memref sig .tc .vmem S8192x128 .f32) (harg5 : arg5.IsWhole) (arg6 : Memref sig .tc .vmem S8192x128 .f32) (harg6 : arg6.IsWhole)
    (x2 : Vec F S1x256 .i32) (x3 : Vec F S256x128 .f32) (x4 : Vec F S8192x1 .f32) (s : Vec F S8192x128 .f32) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare s
        ∗ (iprop(owns (c : Thread nD τ) arg2 fullShare x2 ∗ owns (c : Thread nD τ) arg3 fullShare x3 ∗ owns (c : Thread nD τ) arg4 fullShare x4 ∗ owns (c : Thread nD τ) arg5 fullShare (k0_pay3 x4 (k0_pay2 x2 x3 s)) ∗ owns (c : Thread nD τ) arg6 fullShare (k0_pay2 x2 x3 s)) -∗ K ⟨⟩))
      ⊢ wp frame (wpE (defs₀ (F := F)) Variants.none c none) E (cc0__mean_kernel i arg2 harg2 arg3 harg3 arg4 harg4 arg5 harg5 arg6 harg6) K := by
  simp only [cc0__mean_kernel_eq_skeleton]; unfold cc0__mean_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact h0 | exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    -- the means buffer reads the quotient stored into it, whose load of the accumulator read the update just stored
    sl_unfold_run_names
    refine (read_store_whole _ _ hz2 _ _ _).trans ?_
    rw [readAt_whole _ f4 hz2, View.readCov_unit_zero _ hz2, readAt_whole _ f2 hz2, readAt_whole _ f3 hz2,
      readAt_whole _ f6 hz2]
  iexists _; isplitr
  swap; · iexact H6
  ipureintro
  -- the accumulator reads the one payload stored into it
  sl_unfold_run_names
  refine (read_store_whole _ _ hz2 _ _ _).trans ?_
  rw [readAt_whole _ f2 hz2, readAt_whole _ f3 hz2, readAt_whole _ f6 hz2]

end Cert.Kernel.Hand

end
-- ==== Proof.K.Dat0.lean ====
/-
  Region 0's body obligation: at every grid position the mean kernel's body, called with the invariant and the windows'
  current buffers as the pipeline's proof data describe them before the position, returns them as the proof data describe
  them after it; and the invariant at the region's two ends is the class's own.
-/
import proofs.«429483_j15710990369513_1_alg».proof.Proof.K.Defs0
import proofs.«429483_j15710990369513_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-! ## What the body finds in the three inputs' buffers

None of the three input windows is ever cut or idle, and the body only reads them, so each holds its array's block
at every position: right after a fetch by the fetch itself, and otherwise because the block index has not moved since
the position before (the counts column, whose index map is constant, is fetched once and stays). -/

theorem before0_0 (c : Dev nD) (t : Fin cfg0.N) (d) : (dat0 V c).before 0 t d = iblk0 V c 0 t := by
  have hkeep : ∀ u, (cfg0.win 0).cut (cfg0.grid.coords u) ((dat0 V c).after 0 u) = (dat0 V c).blockOf 0 u := fun u => by
    rw [after0_0]; unfold Dat.blockOf iblk0; rw [A_eq0]
  refine ((dat0 V c).before_in_eq_fetched 0 rfl (fun _ => rfl) (fun _ _ _ => rfl) hkeep t d).trans ?_
  unfold Dat.fetched Dat.blockOf iblk0; rw [A_eq0]; rfl

theorem before0_1 (c : Dev nD) (t : Fin cfg0.N) (d) : (dat0 V c).before 1 t d = iblk0 V c 1 t := by
  have hkeep : ∀ u, (cfg0.win 1).cut (cfg0.grid.coords u) ((dat0 V c).after 1 u) = (dat0 V c).blockOf 1 u := fun u => by
    rw [after0_1]; unfold Dat.blockOf iblk0; rw [A_eq0]
  refine ((dat0 V c).before_in_eq_fetched 1 rfl (fun _ => rfl) (fun _ _ _ => rfl) hkeep t d).trans ?_
  unfold Dat.fetched Dat.blockOf iblk0; rw [A_eq0]; rfl

theorem before0_2 (c : Dev nD) (t : Fin cfg0.N) (d) : (dat0 V c).before 2 t d = iblk0 V c 2 t := by
  have hkeep : ∀ u, (cfg0.win 2).cut (cfg0.grid.coords u) ((dat0 V c).after 2 u) = (dat0 V c).blockOf 2 u := fun u => by
    rw [after0_2]; unfold Dat.blockOf iblk0; rw [A_eq0]
  refine ((dat0 V c).before_in_eq_fetched 2 rfl (fun _ => rfl) (fun _ _ _ => rfl) hkeep t d).trans ?_
  unfold Dat.fetched Dat.blockOf iblk0; rw [A_eq0]; rfl

/-! ## The accumulator's recursion, read at a grid position -/

/-- At the first row step of a column block the accumulator restarts: the update applied to zero. -/
theorem acc0_first (c : Dev nD) (t : Fin cfg0.N) (h : t.val % 64 = 0) :
    acc0 V c t.val t.isLt = k0_pay2 (iblk0 V c 0 t) (iblk0 V c 1 t) k0_pay1 := by
  obtain ⟨n, hn⟩ := t
  cases n with
  | zero => rfl
  | succ n => exact (acc0_succ V c n hn).trans (by rw [if_pos h])

/-- At any other row step it is the update applied to what the position before left. -/
theorem acc0_next (c : Dev nD) (t : Fin cfg0.N) (h : ¬t.val % 64 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact (acc0_succ V c n hn).trans (by rw [if_neg h]; rfl)

/-- Whatever the position, the invariant there yields the accumulator at some contents, the other scoped buffers and
    the generator register. -/
theorem PhiS0_forget (c : Dev nD) (n : ℕ) (h : n ≤ cfg0.N) :
    PhiS0 V c n h ⊢ iprop(iprop((∃ d, owns (c : Thread nD τ) scM0 fullShare d) ∗ otherScoped0 (F := F) c) ∗ (∃ r, prngReg c r)) := by
  by_cases hz : n = 0
  · rw [PhiS0_zero V c n h hz, PhiA0_eq]
  · rw [PhiS0_pos V c n h hz]
    iintro ⟨⟨HS, Hr⟩, Hg⟩
    isplitr [Hg]
    · isplitl [HS]
      · iexists _; iexact HS
      · iexact Hr
    · iexact Hg

/-! ## The body obligation at one position -/

/-- What the body is called with at position \`t\`: the invariant, nothing owed, and each window's current buffer at what
    the proof data say it holds then. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it returns: the invariant at the next position, nothing owed, each buffer as the proof data say it is left. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc]
  rw [show (dat0 V c).leavesExact 0 t = owns (c : Thread nD τ) (ms0_0 t) fullShare (iblk0 V c 0 t) from by
        unfold Dat.leavesExact; rw [liveAt0_0 t, after0_0],
      show (dat0 V c).leavesExact 1 t = owns (c : Thread nD τ) (ms0_1 t) fullShare (iblk0 V c 1 t) from by
        unfold Dat.leavesExact; rw [liveAt0_1 t, after0_1],
      show (dat0 V c).leavesExact 2 t = owns (c : Thread nD τ) (ms0_2 t) fullShare (iblk0 V c 2 t) from by
        unfold Dat.leavesExact; rw [liveAt0_2 t, after0_2]]
  by_cases h0 : t.val % 64 = 0
  · -- a column block starts: the accumulator is reset, whatever it held, and the means buffer is not touched
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1), acc0_first V c t h0]
    refine (sep_mono (PhiS0_forget V c t.val _) .rfl).trans ?_
    iintro ⟨⟨⟨HS, Hr⟩, Hg⟩, Ho, ⟨%d0, H0⟩, ⟨%d1, H1⟩, ⟨%d2, H2⟩, ⟨%d3, H3⟩⟩
    iapply (body0_first c Set.univ (grid0.coords t) hc0 hc1 (ms0_0 t) (hs0_0 t) (ms0_1 t) (hs0_1 t) (ms0_2 t) (hs0_2 t)
      (ms0_3 t) (hs0_3 t) scM0 (Memref.isWhole_whole _) (iblk0 V c 0 t) (iblk0 V c 1 t) (iblk0 V c 2 t)
      ((dat0 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitr [Hg]
      · isplitl [HS]
        · iexact HS
        · iexact Hr
      · iexact Hg
    isplitl [Ho]; · iexact Ho
    isplitl [H0]; · iexact H0
    isplitl [H1]; · iexact H1
    isplitl [H2]; · iexact H2
    iexists _; iexact H3
  · have hc0 : ¬cond0_0 (grid0.coords t) := fun h => h0 ((hcond0_0 t).mp h)
    have hz : t.val ≠ 0 := fun h => h0 (by rw [h])
    rw [acc0_next V c t h0, PhiS0_pos V c _ _ hz]
    by_cases h1 : t.val % 64 = 63
    · -- a column block ends: the sums over max(count, 1) are stored into the means buffer, which is live here
      have hc1 : cond0_1 (grid0.coords t) := (hcond0_1 t).mpr h1
      rw [show (dat0 V c).leavesExact 3 t = owns (c : Thread nD τ) (ms0_3 t) fullShare (means0 V c t) from by
            unfold Dat.leavesExact; rw [liveAt0_3 t hc1, after0_3]]
      unfold means0; rw [acc0_next V c t h0]
      iintro ⟨⟨⟨HS, Hr⟩, Hg⟩, Ho, ⟨%d0, H0⟩, ⟨%d1, H1⟩, ⟨%d2, H2⟩, ⟨%d3, H3⟩⟩
      iapply (body0_last c Set.univ (grid0.coords t) hc0 hc1 (ms0_0 t) (hs0_0 t) (ms0_1 t) (hs0_1 t) (ms0_2 t) (hs0_2 t)
        (ms0_3 t) (hs0_3 t) scM0 (Memref.isWhole_whole _) (iblk0 V c 0 t) (iblk0 V c 1 t) (iblk0 V c 2 t)
        (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]
          · iexact HS
          · iexact Hr
        · iexact Hg
      isplitl [Ho]; · iexact Ho
      isplitl [H0]; · iexact H0
      isplitl [H1]; · iexact H1
      isplitl [H2]; · iexact H2
      iexact H3
    · -- a middle step: the accumulator is updated and the means buffer is not touched
      have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hr⟩, Hg⟩, Ho, ⟨%d0, H0⟩, ⟨%d1, H1⟩, ⟨%d2, H2⟩, ⟨%d3, H3⟩⟩
      iapply (body0_mid c Set.univ (grid0.coords t) hc0 hc1 (ms0_0 t) (hs0_0 t) (ms0_1 t) (hs0_1 t) (ms0_2 t) (hs0_2 t)
        (ms0_3 t) (hs0_3 t) scM0 (Memref.isWhole_whole _) (iblk0 V c 0 t) (iblk0 V c 1 t) (iblk0 V c 2 t)
        ((dat0 V c).before 3 t d3) (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]
          · iexact HS
          · iexact Hr
        · iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiA0_eq]
  exact PhiS0_forget V c _ _

end Cert.Kernel.Hand

end
-- ==== Proof.K.Body1.lean ====
/-
  The gather-and-loss kernel's body as a triple, one per way its three branches can go. Its inputs' buffers (segment ids
  of the row block, feature block, block of means) are read and left as they were; the target accumulator goes from its
  contents `s` to the update `k1_pay3 i ids means s` (from zero, `k1_pay2`, when the accumulator's reset runs first); the
  loss cell is set to zero (`k1_pay1`) by the very first position's branch, goes from `l` to `k1_pay4 feats targets l`
  where the block's last step adds the block's loss, and is otherwise untouched.
-/
import proofs.«429483_j15710990369513_1_alg».proof.Proof.K.Common
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-! ## Whole-buffer accesses

Every access of the body goes through the rectangle that is the whole buffer, at offsets zero: a load through it reads the
buffer's contents, and after a store through it the buffer holds the stored payload, whatever was stored before. -/

section Whole
variable {κ : Kind} {sp : Space} {S : Shape} {e : EltTy}

/-- The offsets of a whole-buffer access of rank two are the zero function. -/
private theorem off00 : (![0, 0] : Fin 2 → ℕ) = fun _ => 0 := by
  funext a
  match a with
  | ⟨0, _⟩ => rfl
  | ⟨1, _⟩ => rfl

/-- A load of the whole buffer reads the buffer's contents. -/
private theorem readAt_whole (v : View sig κ sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- Every index lies under a list of stores whose last one is a whole-buffer store. -/
private theorem cover_whole {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- After stores whose last one is a whole-buffer store, the buffer reads that store's payload. -/
private theorem read_writes_whole (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (cover_whole h inb w L)).trans (View.canon_cons_unit_zero h inb w L)

/-- A whole-buffer load after such stores reads that payload too. -/
private theorem readCov_whole (v : View sig κ sp S e) {off : Fin S.rank → ℕ}
    (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  (View.readCov_eq_canon_ld v _ _ (cover_whole h inb w L)).trans
    ((congrArg (fun X => View.ld X (Rect.unit off S.size inb)) (View.canon_cons_unit_zero h inb w L)).trans
      (View.ld_unit_zero h inb w))

end Whole

set_option maxHeartbeats 1000000 in
/-- The very first position: both resets run, nothing is added to the loss cell. -/
theorem body1_first (c : Dev nD) (E : Set ℕ) (i : grid1.Coords) (h0 : cond1_0 i) (h1 : cond1_1 i) (h2 : ¬cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg3 fullShare x3 ∗ owns (c : Thread nD τ) arg4 fullShare x4 ∗ owns (c : Thread nD τ) arg5 fullShare x5 ∗ owns (c : Thread nD τ) arg6 fullShare k1_pay1 ∗ owns (c : Thread nD τ) arg7 fullShare (k1_pay3 i x3 x5 k1_pay2)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%d6, %f6, -, H6⟩, ⟨%d7, %f7, -, H7⟩, Hk⟩
  subst hf3; subst hf4; subst hf5
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read_writes_whole arg6.view f6 off00 _ _ _
  iexists _; isplitr
  swap; · iexact H7
  ipureintro
  refine (read_writes_whole arg7.view f7 off00 _ _ _).trans ?_
  sl_unfold_run_names
  rw [readAt_whole arg3.view f3 off00, readAt_whole arg5.view f5 off00, readCov_whole arg7.view off00]

set_option maxHeartbeats 1000000 in
/-- The first segment step of a later block: the accumulator restarts, the loss cell is untouched. -/
theorem body1_start (c : Dev nD) (E : Set ℕ) (i : grid1.Coords) (h0 : ¬cond1_0 i) (h1 : cond1_1 i) (h2 : ¬cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (l : Vec F S1x1 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare l ∗ (∃ d, owns (c : Thread nD τ) arg7 fullShare d)
        ∗ (iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare (k1_pay3 i x3 x5 k1_pay2)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  subst hf3; subst hf4; subst hf5; subst hf6
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_writes_whole arg7.view f7 off00 _ _ _).trans ?_
  sl_unfold_run_names
  rw [readAt_whole arg3.view f3 off00, readAt_whole arg5.view f5 off00, readCov_whole arg7.view off00]

set_option maxHeartbeats 1000000 in
/-- A middle segment step: the accumulator is updated, the loss cell is untouched. -/
theorem body1_mid (c : Dev nD) (E : Set ℕ) (i : grid1.Coords) (h0 : ¬cond1_0 i) (h1 : ¬cond1_1 i) (h2 : ¬cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (l : Vec F S1x1 .f32) (s : Vec F S2048x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare s
        ∗ (iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare (k1_pay3 i x3 x5 s)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_writes_whole arg7.view f7 off00 _ _ _).trans ?_
  rw [readAt_whole arg3.view f3 off00, readAt_whole arg5.view f5 off00, readAt_whole arg7.view f7 off00]

set_option maxHeartbeats 1000000 in
/-- The last segment step of a block: the accumulator is updated and the block's loss is added into the loss cell. -/
theorem body1_last (c : Dev nD) (E : Set ℕ) (i : grid1.Coords) (h0 : ¬cond1_0 i) (h1 : ¬cond1_1 i) (h2 : cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (l : Vec F S1x1 .f32) (s : Vec F S2048x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare s
        ∗ (iprop(owns (c : Thread nD τ) arg3 fullShare x3 ∗ owns (c : Thread nD τ) arg4 fullShare x4 ∗ owns (c : Thread nD τ) arg5 fullShare x5 ∗ owns (c : Thread nD τ) arg6 fullShare (k1_pay4 x4 (k1_pay3 i x3 x5 s) l) ∗ owns (c : Thread nD τ) arg7 fullShare (k1_pay3 i x3 x5 s)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_whole arg6.view f6 off00 _ _ _).trans ?_
    sl_unfold_run_names
    rw [readCov_whole arg7.view off00, readAt_whole arg4.view f4 off00, readAt_whole arg3.view f3 off00,
      readAt_whole arg5.view f5 off00, readAt_whole arg7.view f7 off00, readAt_whole arg6.view f6 off00]
  iexists _; isplitr
  swap; · iexact H7
  ipureintro
  sl_unfold_run_names
  refine (read_writes_whole arg7.view f7 off00 _ _ _).trans ?_
  rw [readAt_whole arg3.view f3 off00, readAt_whole arg5.view f5 off00, readAt_whole arg7.view f7 off00]

end Cert.Kernel.Hand

end
-- ==== Proof.K.Dat1.lean ====
/-
  Region 1's body obligation: at every grid position the gather-and-loss kernel's body, called with the invariant and the windows'
  current buffers as the pipeline's proof data describe them before the position, returns them as the proof data describe
  them after it; and the invariant at the region's two ends is the class's own.
-/
import proofs.«429483_j15710990369513_1_alg».proof.Proof.K.Defs1
import proofs.«429483_j15710990369513_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-! ## What the body finds in the windows' current buffers -/

/-- The segment-id column's current buffer holds the position's block, fetched there or not. -/
theorem before1_0_of (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- So does the feature block's. -/
theorem before1_1_of (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- And the block of means'. -/
theorem before1_2_of (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The loss cell's block is never cut: what the body leaves in its buffer is kept whole. -/
theorem kept1_3 (c : Dev nD) (t : Fin cfg1.N) (d) : (dat1 V c).kept 3 t d = loss1 V c t.val t.isLt := by
  unfold Dat.kept
  rw [Pipeline.fill_of_clip_none 3 _ (fun _ => rfl) d ((dat1 V c).after 3 t), Window.fill_cut, after1_3]

/-- What any position leaves in the loss cell's buffer, for the next to find, is the recursion's value there: a position
    that stores into the cell leaves what it stored; one that does not leaves what it found, which is what the position
    before left (the cell is not written back in between), and there the recursion does not move either. -/
theorem left1_3 (c : Dev nD) : ∀ (n : ℕ) (hn : n < cfg1.N) (d), (dat1 V c).left 3 ⟨n, hn⟩ d = loss1 V c n hn := by
  intro n
  induction n with
  | zero =>
    intro hn d
    unfold Dat.left
    rw [liveAt1_3_first ⟨0, hn⟩ ((hcond1_0 ⟨0, hn⟩).mpr rfl)]
    exact kept1_3 V c ⟨0, hn⟩ d
  | succ n ih =>
    intro hn d
    have hN : n + 1 < 1024 := lt_of_lt_of_eq hn (show cfg1.N = 1024 from N_1)
    unfold Dat.left
    by_cases h2 : (n + 1) % 16 = 15
    · rw [liveAt1_3_last ⟨n + 1, hn⟩ ((hcond1_2 ⟨n + 1, hn⟩).mpr h2)]
      exact kept1_3 V c ⟨n + 1, hn⟩ d
    · rw [idleAt1_3 ⟨n + 1, hn⟩ (fun h => absurd ((hcond1_0 ⟨n + 1, hn⟩).mp h) (Nat.succ_ne_zero n)) (fun h => h2 ((hcond1_2 ⟨n + 1, hn⟩).mp h))]
      dsimp only
      rw [(dat1 V c).before_of_pos 3 ⟨n + 1, hn⟩ (Nat.succ_ne_zero n) ((cfg1.win 3).fetch_out rfl _) d]
      rw [show (cfg1.win 3).flush ⟨(⟨n + 1, hn⟩ : Fin cfg1.N).val - 1, Nat.lt_of_le_of_lt (Nat.sub_le _ _) hn⟩ = false from
        noFlush1_3 ⟨n, Nat.lt_of_succ_lt hn⟩ (by dsimp only; omega)]
      rw [if_neg Bool.false_ne_true]
      refine (ih (Nat.lt_of_succ_lt hn) d).trans ?_
      rw [loss1_succ, if_neg h2]

/-- After the first position the loss cell's buffer holds what the recursion gives at the position before. -/
theorem before1_3_of (c : Dev nD) (t : Fin cfg1.N) (ht : t.val ≠ 0) (d) :
    (dat1 V c).before 3 t d = loss1 V c (t.val - 1) (Nat.lt_of_le_of_lt (Nat.sub_le _ _) t.isLt) := by
  have hN : t.val < 1024 := lt_of_lt_of_eq t.isLt (show cfg1.N = 1024 from N_1)
  rw [(dat1 V c).before_of_pos 3 t ht ((cfg1.win 3).fetch_out rfl _) d]
  rw [noFlush1_3 ⟨t.val - 1, Nat.lt_of_le_of_lt (Nat.sub_le _ _) t.isLt⟩ (by dsimp only; omega), if_neg Bool.false_ne_true]
  exact left1_3 V c _ _ d

/-! ## The recursions, one step at a position -/

/-- Where a block starts the accumulator's update runs on zero. -/
theorem tgt1_at_start (c : Dev nD) (t : Fin cfg1.N) (h1 : t.val % 16 = 0) :
    tgt1 V c t.val t.isLt = k1_pay3 (grid1.coords t) (iblk1 V c 0 t) (iblk1 V c 2 t) k1_pay2 := by
  obtain ⟨n, hn⟩ := t
  cases n with
  | zero => rfl
  | succ n => exact (tgt1_succ V c n hn).trans (by rw [if_pos h1])

/-- Elsewhere it runs on what the position before left. -/
theorem tgt1_at_step (c : Dev nD) (t : Fin cfg1.N) (h1 : ¬t.val % 16 = 0) :
    tgt1 V c t.val t.isLt = k1_pay3 (grid1.coords t) (iblk1 V c 0 t) (iblk1 V c 2 t)
      (tgt1 V c (t.val - 1) (Nat.lt_of_le_of_lt (Nat.sub_le _ _) t.isLt)) := by
  obtain ⟨n, hn⟩ := t
  cases n with
  | zero => exact absurd (Nat.zero_mod _) h1
  | succ n => exact (tgt1_succ V c n hn).trans (by rw [if_neg h1]; rfl)

/-- The loss cell after the first position is zero. -/
theorem loss1_at_first (c : Dev nD) (t : Fin cfg1.N) (hz : t.val = 0) : loss1 V c t.val t.isLt = k1_pay1 := by
  obtain ⟨n, hn⟩ := t
  cases n with
  | zero => rfl
  | succ n => exact absurd hz (Nat.succ_ne_zero n)

/-- After a position that ends a block it is the block's loss added to what the cell held. -/
theorem loss1_at_last (c : Dev nD) (t : Fin cfg1.N) (h2 : t.val % 16 = 15) :
    loss1 V c t.val t.isLt = k1_pay4 (iblk1 V c 1 t) (tgt1 V c t.val t.isLt)
      (loss1 V c (t.val - 1) (Nat.lt_of_le_of_lt (Nat.sub_le _ _) t.isLt)) := by
  obtain ⟨n, hn⟩ := t
  cases n with
  | zero => exact absurd ((Nat.zero_mod 16).symm.trans h2) (by decide)
  | succ n => exact (loss1_succ V c n hn).trans (by rw [if_pos h2]; rfl)

/-! ## The body obligation, at a generic position -/

/-- What the body is called with at position `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any position. The inputs' buffers hold their blocks; the closed forms of the three branch conditions say
    which of the four ways the body runs. At the very first position both the accumulator and the loss cell are handed
    over at anything (the class's invariant; a fresh output buffer) and come back at the recursions' first values. Later
    the invariant hands the accumulator at what the position before left and takes it back at this position's update
    (restarted from zero where a block starts), and the loss cell's buffer holds the recursion's value at the position
    before: where a block ends the body adds the block's loss to it, which is the recursion's value here; elsewhere the
    cell is idle and goes back as found. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0_of, before1_1_of, before1_2_of]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 1024 := lt_of_lt_of_eq t.isLt (show cfg1.N = 1024 from N_1)
  by_cases hz : t.val = 0
  · have hc0 : cond1_0 (grid1.coords t) := (hcond1_0 t).mpr hz
    have h1 : t.val % 16 = 0 := by omega
    have hc1 : cond1_1 (grid1.coords t) := (hcond1_1 t).mpr h1
    have hc2 : ¬cond1_2 (grid1.coords t) := fun h => by have := (hcond1_2 t).mp h; omega
    rw [show (dat1 V c).leavesExact 3 t = owns (c : Thread nD τ) (ms1_3 t) fullShare ((dat1 V c).after 3 t) from by
      unfold Dat.leavesExact; rw [liveAt1_3_first t hc0], after1_3, loss1_at_first V c t hz]
    rw [tgt1_at_start V c t h1]
    rw [PhiS1_castSucc V c t, PhiS1_zero V c _ _ hz, PhiA1_eq]
    simp only [Dat.before_out_reset (dat1 V c) 3 rfl t (.inl hz)]
    unfold withScoped1
    iintro ⟨⟨⟨R1, R2, R3, R4, R5, R6, R7, R8, HS⟩, Hg⟩, Ho, ⟨%d0, H0⟩, ⟨%d1, H1⟩, ⟨%d2, H2⟩, H3⟩
    iapply (body1_first c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) _)
    isplitl [H0]; · iexact H0
    isplitl [H1]; · iexact H1
    isplitl [H2]; · iexact H2
    isplitl [H3]; · iexact H3
    isplitl [HS]; · iexact HS
    iintro ⟨H0, H1, H2, H3, HS⟩
    isplitl [R1 R2 R3 R4 R5 R6 R7 R8 HS Hg]
    · isplitl [R1 R2 R3 R4 R5 R6 R7 R8 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact HS
      iexact Hg
    isplitl [Ho]; · iexact Ho
    isplitl [H0]; · iexact H0
    isplitl [H1]; · iexact H1
    isplitl [H2]; · iexact H2
    iexact H3
  · have hc0 : ¬cond1_0 (grid1.coords t) := fun h => hz ((hcond1_0 t).mp h)
    rw [PhiS1_castSucc V c t, PhiS1_pos V c _ _ hz]
    by_cases h1 : t.val % 16 = 0
    · have hc1 : cond1_1 (grid1.coords t) := (hcond1_1 t).mpr h1
      have hc2 : ¬cond1_2 (grid1.coords t) := fun h => by have := (hcond1_2 t).mp h; omega
      rw [Dat.leavesExact_idle (dat1 V c) 3 t (idleAt1_3 t hc0 hc2) (noFlush1_3 t (by omega))]
      simp only [before1_3_of V c t hz]
      rw [tgt1_at_start V c t h1]
      unfold withScoped1
      iintro ⟨⟨⟨R1, R2, R3, R4, R5, R6, R7, R8, HS⟩, Hg⟩, Ho, ⟨%d0, H0⟩, ⟨%d1, H1⟩, ⟨%d2, H2⟩, ⟨%d3, H3⟩⟩
      iapply (body1_start c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (loss1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3
    · have hc1 : ¬cond1_1 (grid1.coords t) := fun h => h1 ((hcond1_1 t).mp h)
      by_cases h2 : t.val % 16 = 15
      · have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3_last t hc2], after1_3, loss1_at_last V c t h2]
        simp only [before1_3_of V c t hz]
        rw [tgt1_at_step V c t h1]
        unfold withScoped1
        iintro ⟨⟨⟨R1, R2, R3, R4, R5, R6, R7, R8, HS⟩, Hg⟩, Ho, ⟨%d0, H0⟩, ⟨%d1, H1⟩, ⟨%d2, H2⟩, ⟨%d3, H3⟩⟩
        iapply (body1_last c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (loss1 V c (t.val - 1) (Nat.lt_of_le_of_lt (Nat.sub_le _ _) t.isLt)) (tgt1 V c (t.val - 1) (Nat.lt_of_le_of_lt (Nat.sub_le _ _) t.isLt)) _)
        isplitl [H0]; · iexact H0
        isplitl [H1]; · iexact H1
        isplitl [H2]; · iexact H2
        isplitl [H3]; · iexact H3
        isplitl [HS]; · iexact HS
        iintro ⟨H0, H1, H2, H3, HS⟩
        isplitl [R1 R2 R3 R4 R5 R6 R7 R8 HS Hg]
        · isplitl [R1 R2 R3 R4 R5 R6 R7 R8 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        isplitl [H2]; · iexact H2
        iexact H3
      · have hc2 : ¬cond1_2 (grid1.coords t) := fun h => h2 ((hcond1_2 t).mp h)
        rw [Dat.leavesExact_idle (dat1 V c) 3 t (idleAt1_3 t hc0 hc2) (noFlush1_3 t (by omega))]
        simp only [before1_3_of V c t hz]
        rw [tgt1_at_step V c t h1]
        unfold withScoped1
        iintro ⟨⟨⟨R1, R2, R3, R4, R5, R6, R7, R8, HS⟩, Hg⟩, Ho, ⟨%d0, H0⟩, ⟨%d1, H1⟩, ⟨%d2, H2⟩, ⟨%d3, H3⟩⟩
        iapply (body1_mid c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (loss1 V c (t.val - 1) (Nat.lt_of_le_of_lt (Nat.sub_le _ _) t.isLt)) (tgt1 V c (t.val - 1) (Nat.lt_of_le_of_lt (Nat.sub_le _ _) t.isLt)) _)
        isplitl [H0]; · iexact H0
        isplitl [H1]; · iexact H1
        isplitl [H2]; · iexact H2
        isplitl [H3]; · iexact H3
        isplitl [HS]; · iexact HS
        iintro ⟨H0, H1, H2, H3, HS⟩
        isplitl [R1 R2 R3 R4 R5 R6 R7 R8 HS Hg]
        · isplitl [R1 R2 R3 R4 R5 R6 R7 R8 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        isplitl [H2]; · iexact H2
        iexists d3; iexact H3

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives the class's own back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold withScoped1
  iintro ⟨⟨R1, R2, R3, R4, R5, R6, R7, R8, HS⟩, Hg⟩
  isplitl [R1 R2 R3 R4 R5 R6 R7 R8 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

/-- The same after the last position. -/
theorem hout1 (c : Dev nD) : (dat1 V c).Φ (Fin.last cfg1.N) ⊢ Pipeline.ΦA spec1 c :=
  Phi_out1 V c _ (by rw [Fin.val_last]; have : cfg1.N = 1024 := N_1; omega)

end Cert.Kernel.Hand

end
-- ==== Proof.K.Run.lean ====
/-
  The whole program's run: the opening host operations, the two regions one after the other, the closing host operations.
  Every weakly fair execution from a memory with zero counters terminates without a fault, and at its end every unscoped
  buffer of the core holds the contents the boundary valuations name (`W4`).
-/
import proofs.«429483_j15710990369513_1_alg».proof.Proof.K.RunDefs
import proofs.«429483_j15710990369513_1_alg».proof.Proof.K.Dat0
import proofs.«429483_j15710990369513_1_alg».proof.Proof.K.Dat1
import proofs.«429483_j15710990369513_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both pipelines and what rides beside the buffers -/

/-- No pipeline has a prefetched table: the admissible contents are the empty ones. -/
abbrev admH : (p : Fin 2) → (pcfgs (F := F) p).Adm := fun p => (cfgs p).toPCfg_adm

/-- Both pipelines' proof data, each at the contents its region is entered from: region 0 after the opening host
    operations, region 1 after region 0. -/
def pdatsH : (p : Fin 2) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V2 m) c

abbrev 𝒱H : Variants := Variants.none
/-- No core waits for another: no level is assigned. -/
abbrev LH : GSem nD τ sig → Finset Unit := fun _ => ∅
abbrev lvH : GSem nD τ sig → Unit → ℕ := fun _ _ => 0

/-- Beside the buffers through every segment: the generator register at some state, and the core owing nothing. -/
abbrev RH (c : Dev nD) : sProp 𝕄 := iprop((∃ r, prngReg c r) ∗ ∃ W, owes (c : Thread nD τ) (0 : CellTallies nD τ sig Unit) W)

/-- A line of host operations over the unscoped buffers at contents `W`, `RH` riding along: it leaves them at
    `StableHlo.after ops (W c)`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- At region 0's exit every buffer that is none of its arrays holds what it held at entry. -/
theorem hrestH0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at region 1's exit. -/
theorem hrestH1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The last thread state without what the core owes: every unscoped buffer at `W4`, the generator register at some state. -/
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. Its arrays are split out of the unscoped buffers
    at entry and joined back at the exit contents; the generator register goes into the invariant and comes back. -/
def regH0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (V1 m c) (V2 m c) ((pdatsH m 0 c).arrAt · cfg0.N) (fun w => (W2_arr m c w).symm) (hrestH0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`, in the same way. -/
def regH1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (V2 m c) (V3 m c) ((pdatsH m 1 c).arrAt · cfg1.N) (fun w => (W3_arr m c w).symm) (hrestH1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order: the opening host operations from the launch contents, the two regions, the
    closing host operations from region 1's exit contents. -/
abbrev segsH : List (Pipeline.Seg (pcfgs (F := F)) admH (pdatsH m) () defs₀ 𝒱H LH lvH) :=
  [ .host (hsegH hostOps0 hostOps0_sub Gen.hostOps0_fresh (W0 m)),
    .region (regH0 m),
    .region (regH1 m),
    .host (hsegH hostOps2 hostOps2_sub Gen.hostOps2_fresh (W3 m)) ]

/-- The program is the run of its segments. -/
theorem main_runH (c : Dev nD) : main (F := F) c = Pipeline.Seg.run (segsH m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => by
      show iprop(StableHlo.held (c : Thread nD τ) (Pipeline.ucRefs τ sig) (W4 m c) ∗ RH c)
        ⊢ iprop(TnH m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand

end
-- ==== Proof.K.Args.lean ====
/-
  The program's three arguments end as launched: no host operation writes one; the features are read by both regions
  through an input window, whose array the pipeline leaves at its entry contents; the label and camera-id vectors are
  arrays of neither region.
-/
import proofs.«429483_j15710990369513_1_alg».proof.Proof.K.RunDefs
import proofs.«429483_j15710990369513_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ)

theorem W4_keeps_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := (W3_arr m c 1).trans (((dat1 (Hand.V2 m) c).arrAt_in 1 rfl _).trans (A_eq1 (Hand.V2 m) c 1))
    _ = W1 m c (Proc.devRef .tc main_arg0) := (W2_arr m c 1).trans (((dat0 (Hand.V1 m) c).arrAt_in 1 rfl _).trans (A_eq0 (Hand.V1 m) c 1))
    _ = W0 m c (Proc.devRef .tc main_arg0) := StableHlo.after_of_writes_sub hostOps0 _ hostOps0_writes (by decide)
    _ = m ((c : Thread nD τ).loc main_arg0) := rfl

theorem W4_keeps_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_keeps_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

end Cert.Kernel.Hand

end
-- ==== Proof.KI.Common.lean ====
/-
  Shared by both regions of the idealized kernel program: when each branch of the two kernel bodies is taken, as a
  function of the grid position; at which positions the output windows are idle or written back; the names of the
  staging memrefs a body is called with and of the two scratch accumulators; and each region's class invariant
  opened into its scratch accumulator, the other scoped buffers and the generator register.
-/
import proofs.«429483_j15710990369513_1_alg».proof.Proof.Gen.KernelIdeal.Launch
import proofs.«429483_j15710990369513_1_alg».proof.Proof.Gen.KernelIdeal.Skeleton
import proofs.«429483_j15710990369513_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-! ## Region 0 (segment means): grid (d, n) = 16 × 64, position t = 64·d + n -/

/-- The reset branch of the mean kernel: taken at the first row step of each column block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- The finishing branch of the mean kernel: taken at the last row step of each column block. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a finishing step the means block is idle (nothing is stored into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
/-- The segment-sum accumulator of the mean kernel. -/
abbrev scM0 : Memref sig .tc .vmem S8192x128 .f32 := Memref.whole cc0_scratch0

/-- The scoped buffers region 0 neither stages nor accumulates in, each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- Region 0's class invariant: the accumulator at some contents, the other scoped buffers, the generator register. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; try rfl

/-! ## Region 1 (gather and loss): grid (n, d, s) = 8 × 8 × 16, position t = 128·n + 16·d + s -/

/-- The branch that clears the loss cell: taken at the very first position only. -/
abbrev cond1_0 (i : grid1.Coords) : Prop := k1_cond1 i = 1#1
theorem hcond1_0 : ∀ t : Fin cfg1.N, cond1_0 (grid1.coords t) ↔ t.val = 0 :=
  (by decide +kernel : ∀ t : Fin grid1.N, cond1_0 (grid1.coords t) ↔ t.val = 0)
/-- The branch that clears the gathered-target accumulator: taken at the first segment step of each block. -/
abbrev cond1_1 (i : grid1.Coords) : Prop := (Scalar.cmpi .ne (Scalar.extui (Scalar.cmpi .eq (BitVec.ofNat 32 (i 2).val) 0#32)) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)
/-- The branch that adds a block's loss into the loss cell: taken at the last segment step of each block. -/
abbrev cond1_2 (i : grid1.Coords) : Prop := k1_cond3 i = 1#1
theorem hcond1_2 : ∀ t : Fin cfg1.N, cond1_2 (grid1.coords t) ↔ t.val % 16 = 15 :=
  (by decide +kernel : ∀ t : Fin grid1.N, cond1_2 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where neither the clearing nor the adding branch runs the loss cell is idle; it is written back at the last position only. -/
theorem idleAt1_3 : ∀ t : Fin cfg1.N, ¬cond1_0 (grid1.coords t) → ¬cond1_2 (grid1.coords t) → cfg1.idle 3 (grid1.coords t) = true := by decide +kernel
theorem liveAt1_3_first : ∀ t : Fin cfg1.N, cond1_0 (grid1.coords t) → cfg1.idle 3 (grid1.coords t) = false := by decide +kernel
theorem liveAt1_3_last : ∀ t : Fin cfg1.N, cond1_2 (grid1.coords t) → cfg1.idle 3 (grid1.coords t) = false := by decide +kernel
theorem noFlush1_3 : ∀ t : Fin cfg1.N, t.val ≠ 1023 → (cfg1.win 3).flush t = false := by decide +kernel

abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The gathered-target accumulator of the loss kernel. -/
abbrev scM1 : Memref sig .tc .vmem S2048x256 .f32 := Memref.whole cc1_scratch0

/-- The scoped buffers region 1 neither stages nor accumulates in, each whole at some contents, around the accumulator's
    own resource `X` (which comes last among the core's scoped buffers). -/
def withScoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ X)

/-- Region 1's class invariant: the other scoped buffers around the accumulator at some contents, and the generator register. -/
theorem PhiA1_eq (c : Dev nD) :
    (Pipeline.ΦA spec1 c : sProp 𝕄)
      = iprop(withScoped1 (F := F) c (iprop(∃ d, owns (c : Thread nD τ) scM1 fullShare d)) ∗ (∃ r, prngReg c r)) := by
  unfold Pipeline.ΦA withScoped1; rw [scopedRest1_eq]; simp only [scM1, owns_whole]; try rfl

end Cert.KernelIdeal.Hand

end
-- ==== Proof.KI.Defs0.lean ====
/-
  Region 0, the segment means. At grid position t = 64·d + n the body adds, into an accumulator of 8192 × 128 sums kept
  across positions, the product of the indicator matrix [s = seg j] (s a segment, j one of the 256 rows of step n) with the
  128 feature columns of block d; the accumulator restarts from zero whenever n = 0, and at n = 63 the sums divided by
  max(count, 1) are stored as the means block of columns 128·d … 128·d + 127. Here: the blocks the body reads, the
  accumulator after each position as a recursion, and the pipeline's proof data and invariant over them.
-/
import proofs.«429483_j15710990369513_1_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-- Window `w`'s block at position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The segment-sum accumulator after the body at position `n`: the update of the body (indicator matrix of the
    position's segment ids times the position's feature block, added in) applied to zero when `n` starts a column block
    and to what the position before left otherwise. -/
def acc0 (c : Dev nD) : (n : ℕ) → n < cfg0.N → Vec F S8192x128 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 64 = 0 then k0_pay1 else acc0 c n (Nat.lt_of_succ_lt hn))

theorem acc0_zero (c : Dev nD) (hn : 0 < cfg0.N) :
    acc0 V c 0 hn = k0_pay2 (iblk0 V c 0 ⟨0, hn⟩) (iblk0 V c 1 ⟨0, hn⟩) k0_pay1 := rfl
theorem acc0_succ (c : Dev nD) (n : ℕ) (hn : n + 1 < cfg0.N) :
    acc0 V c (n + 1) hn = k0_pay2 (iblk0 V c 0 ⟨n + 1, hn⟩) (iblk0 V c 1 ⟨n + 1, hn⟩)
      (if (n + 1) % 64 = 0 then k0_pay1 else acc0 V c n (Nat.lt_of_succ_lt hn)) := rfl

/-- What a finishing step stores as the means block: the accumulated sums over max(count, 1). -/
def means0 (c : Dev nD) (t : Fin cfg0.N) : Vec F S8192x128 .f32 :=
  k0_pay3 (iblk0 V c 2 t) (acc0 V c t.val t.isLt)

/-- The region's invariant before position `n`: before the first position the class's own (the accumulator at anything);
    afterwards the accumulator at what the position before left, the other scoped buffers, the generator register. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ otherScoped0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ otherScoped0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ otherScoped0 (F := F) c) ∗ (∃ r, prngReg c r)) := by
  cases n with
  | zero => exact absurd rfl hz
  | succ n => rfl

/-- The proof data of pipeline 0 on core `c`: the arrays as the region finds them; after the body each input's buffer at
    its block and the means buffer at what a finishing step stores (consulted only where the step is one); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => means0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = means0 V c t := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.KI.Defs1.lean ====
/-
  Region 1, the gather and the loss. At grid position t = 128·n + 16·d + s the body adds, into an accumulator of 2048 × 256
  targets kept across positions, the product of the indicator matrix [seg i = 512·s + k] (i one of the 2048 rows of block
  n, k one of the 512 segments of step s) with the 512 × 256 block of means at (s, d); the accumulator restarts from zero
  whenever s = 0. At s = 15 the smooth-L1 terms of (features − targets) over the 2048 × 256 block are summed and added
  into a single loss cell, which is cleared at the very first position and written back once, after the last.
  Here: the blocks the body reads, the accumulator and the loss cell after each position as recursions, and the
  pipeline's proof data and invariant over them.
-/
import proofs.«429483_j15710990369513_1_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-- Window `w`'s block at position `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered-target accumulator after the body at position `n`: the body's update (indicator matrix of the block's
    segment ids against the step's 512 segments, times the step's block of means, added in) applied to zero when `n`
    starts a block and to what the position before left otherwise. -/
def tgt1 (c : Dev nD) : (n : ℕ) → n < cfg1.N → Vec F S2048x256 .f32
  | 0, hn => k1_pay3 (grid1.coords ⟨0, hn⟩) (iblk1 V c 0 ⟨0, hn⟩) (iblk1 V c 2 ⟨0, hn⟩) k1_pay2
  | n + 1, hn => k1_pay3 (grid1.coords ⟨n + 1, hn⟩) (iblk1 V c 0 ⟨n + 1, hn⟩) (iblk1 V c 2 ⟨n + 1, hn⟩)
      (if (n + 1) % 16 = 0 then k1_pay2 else tgt1 c n (Nat.lt_of_succ_lt hn))

theorem tgt1_zero (c : Dev nD) (hn : 0 < cfg1.N) :
    tgt1 V c 0 hn = k1_pay3 (grid1.coords ⟨0, hn⟩) (iblk1 V c 0 ⟨0, hn⟩) (iblk1 V c 2 ⟨0, hn⟩) k1_pay2 := rfl
theorem tgt1_succ (c : Dev nD) (n : ℕ) (hn : n + 1 < cfg1.N) :
    tgt1 V c (n + 1) hn = k1_pay3 (grid1.coords ⟨n + 1, hn⟩) (iblk1 V c 0 ⟨n + 1, hn⟩) (iblk1 V c 2 ⟨n + 1, hn⟩)
      (if (n + 1) % 16 = 0 then k1_pay2 else tgt1 V c n (Nat.lt_of_succ_lt hn)) := rfl

/-- The loss cell's buffer after the body at position `n`: zero after the first position; after a position that ends a
    block, the block's loss (over the position's feature block and the finished targets) added to what the cell held;
    unchanged otherwise. -/
def loss1 (c : Dev nD) : (n : ℕ) → n < cfg1.N → Vec F S1x1 .f32
  | 0, _ => k1_pay1
  | n + 1, hn =>
      if (n + 1) % 16 = 15 then k1_pay4 (iblk1 V c 1 ⟨n + 1, hn⟩) (tgt1 V c (n + 1) hn) (loss1 c n (Nat.lt_of_succ_lt hn))
      else loss1 c n (Nat.lt_of_succ_lt hn)

theorem loss1_zero (c : Dev nD) (hn : 0 < cfg1.N) : loss1 V c 0 hn = k1_pay1 := rfl
theorem loss1_succ (c : Dev nD) (n : ℕ) (hn : n + 1 < cfg1.N) :
    loss1 V c (n + 1) hn =
      if (n + 1) % 16 = 15 then k1_pay4 (iblk1 V c 1 ⟨n + 1, hn⟩) (tgt1 V c (n + 1) hn) (loss1 V c n (Nat.lt_of_succ_lt hn))
      else loss1 V c n (Nat.lt_of_succ_lt hn) := rfl

/-- The region's invariant before position `n`: before the first position the class's own (the accumulator at anything);
    afterwards the accumulator at what the position before left, the other scoped buffers, the generator register. -/
def PhiS1 (c : Dev nD) : (n : ℕ) → n ≤ cfg1.N → sProp 𝕄
  | 0, _ => Pipeline.ΦA spec1 c
  | n + 1, hn => iprop(withScoped1 (F := F) c (owns (c : Thread nD τ) scM1 fullShare (tgt1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(withScoped1 (F := F) c (owns (c : Thread nD τ) scM1 fullShare (tgt1 V c n hn)) ∗ (∃ r, prngReg c r)) := rfl
theorem PhiS1_pos (c : Dev nD) (n : ℕ) (h : n ≤ cfg1.N) (hz : n ≠ 0) :
    PhiS1 V c n h = iprop(withScoped1 (F := F) c (owns (c : Thread nD τ) scM1 fullShare (tgt1 V c (n - 1) (by omega))) ∗ (∃ r, prngReg c r)) := by
  cases n with
  | zero => exact absurd rfl hz
  | succ n => rfl

/-- The proof data of pipeline 1 on core `c`: the arrays as the region finds them; after the body each input's buffer at
    its block and the loss cell's buffer at `loss1` (consulted only where the body stores into it); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => loss1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = loss1 V c t.val t.isLt := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.RunDefs.lean ====
/-
  The contents of the core's unscoped buffers at each boundary of the program: at launch; after the host operations that
  build the segment ids and the counts; after region 0, whose arrays hold what its write-backs leave (the means); after
  region 1 (the loss cell); after the closing host operations (the reshape and the division by the number of entries).
-/
import proofs.«429483_j15710990369513_1_alg».proof.Proof.KI.Defs0
import proofs.«429483_j15710990369513_1_alg».proof.Proof.KI.Defs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the opening host operations (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the closing host operations: the contents at the program's end. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

end Cert.KernelIdeal.Hand

end
-- ==== Proof.KI.Body0.lean ====
/-
  The mean kernel's body as a triple, one per way its two branches can go. Its inputs' buffers (segment ids of the step,
  feature block, counts) are read and left as they were; the accumulator goes from its contents `s` to the update
  `k0_pay2 ids feats s` (from zero, `k0_pay1`, when the reset branch runs first); the means buffer is untouched unless
  the finishing branch runs, which stores `k0_pay3 counts (updated accumulator)` into it.
-/
import proofs.«429483_j15710990369513_1_alg».proof.Proof.KI.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-- The zero offsets of a rank-two access, as the constant function. -/
private theorem hz2 : (![0, 0] : Fin 2 → Nat) = fun _ => 0 := by
  funext a; fin_cases a <;> rfl

/-- A load through the whole-shape rectangle at zero offsets reads what the buffer's contents read. -/
private theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- The one piece of a whole-shape store covers every index. -/
private theorem cover_whole {S : Shape} {e : EltTy} {Val : EltTy → Type} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-- After a store of the whole shape (made last), the buffer reads that store's payload, whatever was stored
    before it and whatever the buffer held. -/
private theorem read_store_whole {sg : RefSig} {κ : Kind} {sp : Space} {S : Shape} {e : EltTy} {Val : EltTy → Type}
    [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (cover_whole h inb w L)).trans (View.canon_cons_unit_zero h inb w L)

/-- First step of a column block (reset, no finish). -/
theorem body0_first (c : Dev nD) (E : Set ℕ) (i : grid0.Coords) (h0 : cond0_0 i) (h1 : ¬cond0_1 i) (arg2 : Memref sig .tc .vmem S1x256 .i32) (harg2 : arg2.IsWhole) (arg3 : Memref sig .tc .vmem S256x128 .f32) (harg3 : arg3.IsWhole) (arg4 : Memref sig .tc .vmem S8192x1 .f32) (harg4 : arg4.IsWhole) (arg5 : Memref sig .tc .vmem S8192x128 .f32) (harg5 : arg5.IsWhole) (arg6 : Memref sig .tc .vmem S8192x128 .f32) (harg6 : arg6.IsWhole)
    (x2 : Vec F S1x256 .i32) (x3 : Vec F S256x128 .f32) (x4 : Vec F S8192x1 .f32) (x5 : Vec F S8192x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay2 x2 x3 k0_pay1)) -∗ K ⟨⟩))
      ⊢ wp frame (wpE (defs₀ (F := F)) Variants.none c none) E (cc0__mean_kernel i arg2 harg2 arg3 harg3 arg4 harg4 arg5 harg5 arg6 harg6) K := by
  simp only [cc0__mean_kernel_eq_skeleton]; unfold cc0__mean_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact h0 | exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- the accumulator reads the payload stored last; its load of the accumulator read the zero fill stored first
  sl_unfold_run_names
  refine (read_store_whole _ _ hz2 _ _ _).trans ?_
  rw [readAt_whole _ f2 hz2, readAt_whole _ f3 hz2, View.readCov_unit_zero _ hz2]

/-- A middle step (no reset, no finish). -/
theorem body0_mid (c : Dev nD) (E : Set ℕ) (i : grid0.Coords) (h0 : ¬cond0_0 i) (h1 : ¬cond0_1 i) (arg2 : Memref sig .tc .vmem S1x256 .i32) (harg2 : arg2.IsWhole) (arg3 : Memref sig .tc .vmem S256x128 .f32) (harg3 : arg3.IsWhole) (arg4 : Memref sig .tc .vmem S8192x1 .f32) (harg4 : arg4.IsWhole) (arg5 : Memref sig .tc .vmem S8192x128 .f32) (harg5 : arg5.IsWhole) (arg6 : Memref sig .tc .vmem S8192x128 .f32) (harg6 : arg6.IsWhole)
    (x2 : Vec F S1x256 .i32) (x3 : Vec F S256x128 .f32) (x4 : Vec F S8192x1 .f32) (x5 : Vec F S8192x128 .f32) (s : Vec F S8192x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare s
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay2 x2 x3 s)) -∗ K ⟨⟩))
      ⊢ wp frame (wpE (defs₀ (F := F)) Variants.none c none) E (cc0__mean_kernel i arg2 harg2 arg3 harg3 arg4 harg4 arg5 harg5 arg6 harg6) K := by
  simp only [cc0__mean_kernel_eq_skeleton]; unfold cc0__mean_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact h0 | exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  -- the accumulator reads the one payload stored into it, whose three loads read the buffers' contents
  refine (read_store_whole _ _ hz2 _ _ _).trans ?_
  rw [readAt_whole _ f2 hz2, readAt_whole _ f3 hz2, readAt_whole _ f6 hz2]

/-- Last step of a column block (no reset, finish): the means are stored. -/
theorem body0_last (c : Dev nD) (E : Set ℕ) (i : grid0.Coords) (h0 : ¬cond0_0 i) (h1 : cond0_1 i) (arg2 : Memref sig .tc .vmem S1x256 .i32) (harg2 : arg2.IsWhole) (arg3 : Memref sig .tc .vmem S256x128 .f32) (harg3 : arg3.IsWhole) (arg4 : Memref sig .tc .vmem S8192x1 .f32) (harg4 : arg4.IsWhole) (arg5 : Memref sig .tc .vmem S8192x128 .f32) (harg5 : arg5.IsWhole) (arg6 : Memref sig .tc .vmem S8192x128 .f32) (harg6 : arg6.IsWhole)
    (x2 : Vec F S1x256 .i32) (x3 : Vec F S256x128 .f32) (x4 : Vec F S8192x1 .f32) (s : Vec F S8192x128 .f32) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare s
        ∗ (iprop(owns (c : Thread nD τ) arg2 fullShare x2 ∗ owns (c : Thread nD τ) arg3 fullShare x3 ∗ owns (c : Thread nD τ) arg4 fullShare x4 ∗ owns (c : Thread nD τ) arg5 fullShare (k0_pay3 x4 (k0_pay2 x2 x3 s)) ∗ owns (c : Thread nD τ) arg6 fullShare (k0_pay2 x2 x3 s)) -∗ K ⟨⟩))
      ⊢ wp frame (wpE (defs₀ (F := F)) Variants.none c none) E (cc0__mean_kernel i arg2 harg2 arg3 harg3 arg4 harg4 arg5 harg5 arg6 harg6) K := by
  simp only [cc0__mean_kernel_eq_skeleton]; unfold cc0__mean_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact h0 | exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    -- the means buffer reads the quotient stored into it, whose load of the accumulator read the update just stored
    sl_unfold_run_names
    refine (read_store_whole _ _ hz2 _ _ _).trans ?_
    rw [readAt_whole _ f4 hz2, View.readCov_unit_zero _ hz2, readAt_whole _ f2 hz2, readAt_whole _ f3 hz2,
      readAt_whole _ f6 hz2]
  iexists _; isplitr
  swap; · iexact H6
  ipureintro
  -- the accumulator reads the one payload stored into it
  sl_unfold_run_names
  refine (read_store_whole _ _ hz2 _ _ _).trans ?_
  rw [readAt_whole _ f2 hz2, readAt_whole _ f3 hz2, readAt_whole _ f6 hz2]

end Cert.KernelIdeal.Hand

end
-- ==== Proof.KI.Dat0.lean ====
/-
  Region 0's body obligation: at every grid position the mean kernel's body, called with the invariant and the windows'
  current buffers as the pipeline's proof data describe them before the position, returns them as the proof data describe
  them after it; and the invariant at the region's two ends is the class's own.
-/
import proofs.«429483_j15710990369513_1_alg».proof.Proof.KI.Defs0
import proofs.«429483_j15710990369513_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-! ## What the body finds in the three inputs' buffers

None of the three input windows is ever cut or idle, and the body only reads them, so each holds its array's block
at every position: right after a fetch by the fetch itself, and otherwise because the block index has not moved since
the position before (the counts column, whose index map is constant, is fetched once and stays). -/

theorem before0_0 (c : Dev nD) (t : Fin cfg0.N) (d) : (dat0 V c).before 0 t d = iblk0 V c 0 t := by
  have hkeep : ∀ u, (cfg0.win 0).cut (cfg0.grid.coords u) ((dat0 V c).after 0 u) = (dat0 V c).blockOf 0 u := fun u => by
    rw [after0_0]; unfold Dat.blockOf iblk0; rw [A_eq0]
  refine ((dat0 V c).before_in_eq_fetched 0 rfl (fun _ => rfl) (fun _ _ _ => rfl) hkeep t d).trans ?_
  unfold Dat.fetched Dat.blockOf iblk0; rw [A_eq0]; rfl

theorem before0_1 (c : Dev nD) (t : Fin cfg0.N) (d) : (dat0 V c).before 1 t d = iblk0 V c 1 t := by
  have hkeep : ∀ u, (cfg0.win 1).cut (cfg0.grid.coords u) ((dat0 V c).after 1 u) = (dat0 V c).blockOf 1 u := fun u => by
    rw [after0_1]; unfold Dat.blockOf iblk0; rw [A_eq0]
  refine ((dat0 V c).before_in_eq_fetched 1 rfl (fun _ => rfl) (fun _ _ _ => rfl) hkeep t d).trans ?_
  unfold Dat.fetched Dat.blockOf iblk0; rw [A_eq0]; rfl

theorem before0_2 (c : Dev nD) (t : Fin cfg0.N) (d) : (dat0 V c).before 2 t d = iblk0 V c 2 t := by
  have hkeep : ∀ u, (cfg0.win 2).cut (cfg0.grid.coords u) ((dat0 V c).after 2 u) = (dat0 V c).blockOf 2 u := fun u => by
    rw [after0_2]; unfold Dat.blockOf iblk0; rw [A_eq0]
  refine ((dat0 V c).before_in_eq_fetched 2 rfl (fun _ => rfl) (fun _ _ _ => rfl) hkeep t d).trans ?_
  unfold Dat.fetched Dat.blockOf iblk0; rw [A_eq0]; rfl

/-! ## The accumulator's recursion, read at a grid position -/

/-- At the first row step of a column block the accumulator restarts: the update applied to zero. -/
theorem acc0_first (c : Dev nD) (t : Fin cfg0.N) (h : t.val % 64 = 0) :
    acc0 V c t.val t.isLt = k0_pay2 (iblk0 V c 0 t) (iblk0 V c 1 t) k0_pay1 := by
  obtain ⟨n, hn⟩ := t
  cases n with
  | zero => rfl
  | succ n => exact (acc0_succ V c n hn).trans (by rw [if_pos h])

/-- At any other row step it is the update applied to what the position before left. -/
theorem acc0_next (c : Dev nD) (t : Fin cfg0.N) (h : ¬t.val % 64 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact (acc0_succ V c n hn).trans (by rw [if_neg h]; rfl)

/-- Whatever the position, the invariant there yields the accumulator at some contents, the other scoped buffers and
    the generator register. -/
theorem PhiS0_forget (c : Dev nD) (n : ℕ) (h : n ≤ cfg0.N) :
    PhiS0 V c n h ⊢ iprop(iprop((∃ d, owns (c : Thread nD τ) scM0 fullShare d) ∗ otherScoped0 (F := F) c) ∗ (∃ r, prngReg c r)) := by
  by_cases hz : n = 0
  · rw [PhiS0_zero V c n h hz, PhiA0_eq]
  · rw [PhiS0_pos V c n h hz]
    iintro ⟨⟨HS, Hr⟩, Hg⟩
    isplitr [Hg]
    · isplitl [HS]
      · iexists _; iexact HS
      · iexact Hr
    · iexact Hg

/-! ## The body obligation at one position -/

/-- What the body is called with at position \`t\`: the invariant, nothing owed, and each window's current buffer at what
    the proof data say it holds then. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it returns: the invariant at the next position, nothing owed, each buffer as the proof data say it is left. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc]
  rw [show (dat0 V c).leavesExact 0 t = owns (c : Thread nD τ) (ms0_0 t) fullShare (iblk0 V c 0 t) from by
        unfold Dat.leavesExact; rw [liveAt0_0 t, after0_0],
      show (dat0 V c).leavesExact 1 t = owns (c : Thread nD τ) (ms0_1 t) fullShare (iblk0 V c 1 t) from by
        unfold Dat.leavesExact; rw [liveAt0_1 t, after0_1],
      show (dat0 V c).leavesExact 2 t = owns (c : Thread nD τ) (ms0_2 t) fullShare (iblk0 V c 2 t) from by
        unfold Dat.leavesExact; rw [liveAt0_2 t, after0_2]]
  by_cases h0 : t.val % 64 = 0
  · -- a column block starts: the accumulator is reset, whatever it held, and the means buffer is not touched
    have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1), acc0_first V c t h0]
    refine (sep_mono (PhiS0_forget V c t.val _) .rfl).trans ?_
    iintro ⟨⟨⟨HS, Hr⟩, Hg⟩, Ho, ⟨%d0, H0⟩, ⟨%d1, H1⟩, ⟨%d2, H2⟩, ⟨%d3, H3⟩⟩
    iapply (body0_first c Set.univ (grid0.coords t) hc0 hc1 (ms0_0 t) (hs0_0 t) (ms0_1 t) (hs0_1 t) (ms0_2 t) (hs0_2 t)
      (ms0_3 t) (hs0_3 t) scM0 (Memref.isWhole_whole _) (iblk0 V c 0 t) (iblk0 V c 1 t) (iblk0 V c 2 t)
      ((dat0 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitr [Hg]
      · isplitl [HS]
        · iexact HS
        · iexact Hr
      · iexact Hg
    isplitl [Ho]; · iexact Ho
    isplitl [H0]; · iexact H0
    isplitl [H1]; · iexact H1
    isplitl [H2]; · iexact H2
    iexists _; iexact H3
  · have hc0 : ¬cond0_0 (grid0.coords t) := fun h => h0 ((hcond0_0 t).mp h)
    have hz : t.val ≠ 0 := fun h => h0 (by rw [h])
    rw [acc0_next V c t h0, PhiS0_pos V c _ _ hz]
    by_cases h1 : t.val % 64 = 63
    · -- a column block ends: the sums over max(count, 1) are stored into the means buffer, which is live here
      have hc1 : cond0_1 (grid0.coords t) := (hcond0_1 t).mpr h1
      rw [show (dat0 V c).leavesExact 3 t = owns (c : Thread nD τ) (ms0_3 t) fullShare (means0 V c t) from by
            unfold Dat.leavesExact; rw [liveAt0_3 t hc1, after0_3]]
      unfold means0; rw [acc0_next V c t h0]
      iintro ⟨⟨⟨HS, Hr⟩, Hg⟩, Ho, ⟨%d0, H0⟩, ⟨%d1, H1⟩, ⟨%d2, H2⟩, ⟨%d3, H3⟩⟩
      iapply (body0_last c Set.univ (grid0.coords t) hc0 hc1 (ms0_0 t) (hs0_0 t) (ms0_1 t) (hs0_1 t) (ms0_2 t) (hs0_2 t)
        (ms0_3 t) (hs0_3 t) scM0 (Memref.isWhole_whole _) (iblk0 V c 0 t) (iblk0 V c 1 t) (iblk0 V c 2 t)
        (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]
          · iexact HS
          · iexact Hr
        · iexact Hg
      isplitl [Ho]; · iexact Ho
      isplitl [H0]; · iexact H0
      isplitl [H1]; · iexact H1
      isplitl [H2]; · iexact H2
      iexact H3
    · -- a middle step: the accumulator is updated and the means buffer is not touched
      have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hr⟩, Hg⟩, Ho, ⟨%d0, H0⟩, ⟨%d1, H1⟩, ⟨%d2, H2⟩, ⟨%d3, H3⟩⟩
      iapply (body0_mid c Set.univ (grid0.coords t) hc0 hc1 (ms0_0 t) (hs0_0 t) (ms0_1 t) (hs0_1 t) (ms0_2 t) (hs0_2 t)
        (ms0_3 t) (hs0_3 t) scM0 (Memref.isWhole_whole _) (iblk0 V c 0 t) (iblk0 V c 1 t) (iblk0 V c 2 t)
        ((dat0 V c).before 3 t d3) (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]
          · iexact HS
          · iexact Hr
        · iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiA0_eq]
  exact PhiS0_forget V c _ _

end Cert.KernelIdeal.Hand

end
-- ==== Proof.KI.Body1.lean ====
/-
  The gather-and-loss kernel's body as a triple, one per way its three branches can go. Its inputs' buffers (segment ids
  of the row block, feature block, block of means) are read and left as they were; the target accumulator goes from its
  contents `s` to the update `k1_pay3 i ids means s` (from zero, `k1_pay2`, when the accumulator's reset runs first); the
  loss cell is set to zero (`k1_pay1`) by the very first position's branch, goes from `l` to `k1_pay4 feats targets l`
  where the block's last step adds the block's loss, and is otherwise untouched.
-/
import proofs.«429483_j15710990369513_1_alg».proof.Proof.KI.Common
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-! ## Whole-buffer accesses

Every access of the body goes through the rectangle that is the whole buffer, at offsets zero: a load through it reads the
buffer's contents, and after a store through it the buffer holds the stored payload, whatever was stored before. -/

section Whole
variable {κ : Kind} {sp : Space} {S : Shape} {e : EltTy}

/-- The offsets of a whole-buffer access of rank two are the zero function. -/
private theorem off00 : (![0, 0] : Fin 2 → ℕ) = fun _ => 0 := by
  funext a
  match a with
  | ⟨0, _⟩ => rfl
  | ⟨1, _⟩ => rfl

/-- A load of the whole buffer reads the buffer's contents. -/
private theorem readAt_whole (v : View sig κ sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- Every index lies under a list of stores whose last one is a whole-buffer store. -/
private theorem cover_whole {off : Fin S.rank → ℕ} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- After stores whose last one is a whole-buffer store, the buffer reads that store's payload. -/
private theorem read_writes_whole (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (cover_whole h inb w L)).trans (View.canon_cons_unit_zero h inb w L)

/-- A whole-buffer load after such stores reads that payload too. -/
private theorem readCov_whole (v : View sig κ sp S e) {off : Fin S.rank → ℕ}
    (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  (View.readCov_eq_canon_ld v _ _ (cover_whole h inb w L)).trans
    ((congrArg (fun X => View.ld X (Rect.unit off S.size inb)) (View.canon_cons_unit_zero h inb w L)).trans
      (View.ld_unit_zero h inb w))

end Whole

set_option maxHeartbeats 1000000 in
/-- The very first position: both resets run, nothing is added to the loss cell. -/
theorem body1_first (c : Dev nD) (E : Set ℕ) (i : grid1.Coords) (h0 : cond1_0 i) (h1 : cond1_1 i) (h2 : ¬cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (K : PUnit → sProp 𝕄) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg3 fullShare x3 ∗ owns (c : Thread nD τ) arg4 fullShare x4 ∗ owns (c : Thread nD τ) arg5 fullShare x5 ∗ owns (c : Thread nD τ) arg6 fullShare k1_pay1 ∗ owns (c : Thread nD τ) arg7 fullShare (k1_pay3 i x3 x5 k1_pay2)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%d6, %f6, -, H6⟩, ⟨%d7, %f7, -, H7⟩, Hk⟩
  subst hf3; subst hf4; subst hf5
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact read_writes_whole arg6.view f6 off00 _ _ _
  iexists _; isplitr
  swap; · iexact H7
  ipureintro
  refine (read_writes_whole arg7.view f7 off00 _ _ _).trans ?_
  sl_unfold_run_names
  rw [readAt_whole arg3.view f3 off00, readAt_whole arg5.view f5 off00, readCov_whole arg7.view off00]

set_option maxHeartbeats 1000000 in
/-- The first segment step of a later block: the accumulator restarts, the loss cell is untouched. -/
theorem body1_start (c : Dev nD) (E : Set ℕ) (i : grid1.Coords) (h0 : ¬cond1_0 i) (h1 : cond1_1 i) (h2 : ¬cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (l : Vec F S1x1 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare l ∗ (∃ d, owns (c : Thread nD τ) arg7 fullShare d)
        ∗ (iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare (k1_pay3 i x3 x5 k1_pay2)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  subst hf3; subst hf4; subst hf5; subst hf6
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_writes_whole arg7.view f7 off00 _ _ _).trans ?_
  sl_unfold_run_names
  rw [readAt_whole arg3.view f3 off00, readAt_whole arg5.view f5 off00, readCov_whole arg7.view off00]

set_option maxHeartbeats 1000000 in
/-- A middle segment step: the accumulator is updated, the loss cell is untouched. -/
theorem body1_mid (c : Dev nD) (E : Set ℕ) (i : grid1.Coords) (h0 : ¬cond1_0 i) (h1 : ¬cond1_1 i) (h2 : ¬cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (l : Vec F S1x1 .f32) (s : Vec F S2048x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare s
        ∗ (iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare (k1_pay3 i x3 x5 s)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_writes_whole arg7.view f7 off00 _ _ _).trans ?_
  rw [readAt_whole arg3.view f3 off00, readAt_whole arg5.view f5 off00, readAt_whole arg7.view f7 off00]

set_option maxHeartbeats 1000000 in
/-- The last segment step of a block: the accumulator is updated and the block's loss is added into the loss cell. -/
theorem body1_last (c : Dev nD) (E : Set ℕ) (i : grid1.Coords) (h0 : ¬cond1_0 i) (h1 : ¬cond1_1 i) (h2 : cond1_2 i) (arg3 : Memref sig .tc .vmem S2048x1 .i32) (harg3 : arg3.IsWhole) (arg4 : Memref sig .tc .vmem S2048x256 .f32) (harg4 : arg4.IsWhole) (arg5 : Memref sig .tc .vmem S512x256 .f32) (harg5 : arg5.IsWhole) (arg6 : Memref sig .tc .vmem S1x1 .f32) (harg6 : arg6.IsWhole) (arg7 : Memref sig .tc .vmem S2048x256 .f32) (harg7 : arg7.IsWhole)
    (x3 : Vec F S2048x1 .i32) (x4 : Vec F S2048x256 .f32) (x5 : Vec F S512x256 .f32) (l : Vec F S1x1 .f32) (s : Vec F S2048x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare l ∗ owns (c : Thread nD τ) arg7 fullShare s
        ∗ (iprop(owns (c : Thread nD τ) arg3 fullShare x3 ∗ owns (c : Thread nD τ) arg4 fullShare x4 ∗ owns (c : Thread nD τ) arg5 fullShare x5 ∗ owns (c : Thread nD τ) arg6 fullShare (k1_pay4 x4 (k1_pay3 i x3 x5 s) l) ∗ owns (c : Thread nD τ) arg7 fullShare (k1_pay3 i x3 x5 s)) -∗ K ⟨⟩))
      ⊢ wp frame (wpE (defs₀ (F := F)) Variants.none c none) E (cc1__gather_loss_kernel i arg3 harg3 arg4 harg4 arg5 harg5 arg6 harg6 arg7 harg7) K := by
  simp only [cc1__gather_loss_kernel_eq_skeleton]; unfold cc1__gather_loss_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_whole arg6.view f6 off00 _ _ _).trans ?_
    sl_unfold_run_names
    rw [readCov_whole arg7.view off00, readAt_whole arg4.view f4 off00, readAt_whole arg3.view f3 off00,
      readAt_whole arg5.view f5 off00, readAt_whole arg7.view f7 off00, readAt_whole arg6.view f6 off00]
  iexists _; isplitr
  swap; · iexact H7
  ipureintro
  sl_unfold_run_names
  refine (read_writes_whole arg7.view f7 off00 _ _ _).trans ?_
  rw [readAt_whole arg3.view f3 off00, readAt_whole arg5.view f5 off00, readAt_whole arg7.view f7 off00]

end Cert.KernelIdeal.Hand

end
-- ==== Proof.KI.Dat1.lean ====
/-
  Region 1's body obligation: at every grid position the gather-and-loss kernel's body, called with the invariant and the windows'
  current buffers as the pipeline's proof data describe them before the position, returns them as the proof data describe
  them after it; and the invariant at the region's two ends is the class's own.
-/
import proofs.«429483_j15710990369513_1_alg».proof.Proof.KI.Defs1
import proofs.«429483_j15710990369513_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ
-- the contents of the core's buffers when the region is entered: every definition here is stated at this parameter
variable (V : (c : Dev nD) → (b : Ref sig .tc) → Buf (Elt F) ((c : Thread nD τ).loc b))

/-! ## What the body finds in the windows' current buffers -/

/-- The segment-id column's current buffer holds the position's block, fetched there or not. -/
theorem before1_0_of (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- So does the feature block's. -/
theorem before1_1_of (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- And the block of means'. -/
theorem before1_2_of (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- The loss cell's block is never cut: what the body leaves in its buffer is kept whole. -/
theorem kept1_3 (c : Dev nD) (t : Fin cfg1.N) (d) : (dat1 V c).kept 3 t d = loss1 V c t.val t.isLt := by
  unfold Dat.kept
  rw [Pipeline.fill_of_clip_none 3 _ (fun _ => rfl) d ((dat1 V c).after 3 t), Window.fill_cut, after1_3]

/-- What any position leaves in the loss cell's buffer, for the next to find, is the recursion's value there: a position
    that stores into the cell leaves what it stored; one that does not leaves what it found, which is what the position
    before left (the cell is not written back in between), and there the recursion does not move either. -/
theorem left1_3 (c : Dev nD) : ∀ (n : ℕ) (hn : n < cfg1.N) (d), (dat1 V c).left 3 ⟨n, hn⟩ d = loss1 V c n hn := by
  intro n
  induction n with
  | zero =>
    intro hn d
    unfold Dat.left
    rw [liveAt1_3_first ⟨0, hn⟩ ((hcond1_0 ⟨0, hn⟩).mpr rfl)]
    exact kept1_3 V c ⟨0, hn⟩ d
  | succ n ih =>
    intro hn d
    have hN : n + 1 < 1024 := lt_of_lt_of_eq hn (show cfg1.N = 1024 from N_1)
    unfold Dat.left
    by_cases h2 : (n + 1) % 16 = 15
    · rw [liveAt1_3_last ⟨n + 1, hn⟩ ((hcond1_2 ⟨n + 1, hn⟩).mpr h2)]
      exact kept1_3 V c ⟨n + 1, hn⟩ d
    · rw [idleAt1_3 ⟨n + 1, hn⟩ (fun h => absurd ((hcond1_0 ⟨n + 1, hn⟩).mp h) (Nat.succ_ne_zero n)) (fun h => h2 ((hcond1_2 ⟨n + 1, hn⟩).mp h))]
      dsimp only
      rw [(dat1 V c).before_of_pos 3 ⟨n + 1, hn⟩ (Nat.succ_ne_zero n) ((cfg1.win 3).fetch_out rfl _) d]
      rw [show (cfg1.win 3).flush ⟨(⟨n + 1, hn⟩ : Fin cfg1.N).val - 1, Nat.lt_of_le_of_lt (Nat.sub_le _ _) hn⟩ = false from
        noFlush1_3 ⟨n, Nat.lt_of_succ_lt hn⟩ (by dsimp only; omega)]
      rw [if_neg Bool.false_ne_true]
      refine (ih (Nat.lt_of_succ_lt hn) d).trans ?_
      rw [loss1_succ, if_neg h2]

/-- After the first position the loss cell's buffer holds what the recursion gives at the position before. -/
theorem before1_3_of (c : Dev nD) (t : Fin cfg1.N) (ht : t.val ≠ 0) (d) :
    (dat1 V c).before 3 t d = loss1 V c (t.val - 1) (Nat.lt_of_le_of_lt (Nat.sub_le _ _) t.isLt) := by
  have hN : t.val < 1024 := lt_of_lt_of_eq t.isLt (show cfg1.N = 1024 from N_1)
  rw [(dat1 V c).before_of_pos 3 t ht ((cfg1.win 3).fetch_out rfl _) d]
  rw [noFlush1_3 ⟨t.val - 1, Nat.lt_of_le_of_lt (Nat.sub_le _ _) t.isLt⟩ (by dsimp only; omega), if_neg Bool.false_ne_true]
  exact left1_3 V c _ _ d

/-! ## The recursions, one step at a position -/

/-- Where a block starts the accumulator's update runs on zero. -/
theorem tgt1_at_start (c : Dev nD) (t : Fin cfg1.N) (h1 : t.val % 16 = 0) :
    tgt1 V c t.val t.isLt = k1_pay3 (grid1.coords t) (iblk1 V c 0 t) (iblk1 V c 2 t) k1_pay2 := by
  obtain ⟨n, hn⟩ := t
  cases n with
  | zero => rfl
  | succ n => exact (tgt1_succ V c n hn).trans (by rw [if_pos h1])

/-- Elsewhere it runs on what the position before left. -/
theorem tgt1_at_step (c : Dev nD) (t : Fin cfg1.N) (h1 : ¬t.val % 16 = 0) :
    tgt1 V c t.val t.isLt = k1_pay3 (grid1.coords t) (iblk1 V c 0 t) (iblk1 V c 2 t)
      (tgt1 V c (t.val - 1) (Nat.lt_of_le_of_lt (Nat.sub_le _ _) t.isLt)) := by
  obtain ⟨n, hn⟩ := t
  cases n with
  | zero => exact absurd (Nat.zero_mod _) h1
  | succ n => exact (tgt1_succ V c n hn).trans (by rw [if_neg h1]; rfl)

/-- The loss cell after the first position is zero. -/
theorem loss1_at_first (c : Dev nD) (t : Fin cfg1.N) (hz : t.val = 0) : loss1 V c t.val t.isLt = k1_pay1 := by
  obtain ⟨n, hn⟩ := t
  cases n with
  | zero => rfl
  | succ n => exact absurd hz (Nat.succ_ne_zero n)

/-- After a position that ends a block it is the block's loss added to what the cell held. -/
theorem loss1_at_last (c : Dev nD) (t : Fin cfg1.N) (h2 : t.val % 16 = 15) :
    loss1 V c t.val t.isLt = k1_pay4 (iblk1 V c 1 t) (tgt1 V c t.val t.isLt)
      (loss1 V c (t.val - 1) (Nat.lt_of_le_of_lt (Nat.sub_le _ _) t.isLt)) := by
  obtain ⟨n, hn⟩ := t
  cases n with
  | zero => exact absurd ((Nat.zero_mod 16).symm.trans h2) (by decide)
  | succ n => exact (loss1_succ V c n hn).trans (by rw [if_pos h2]; rfl)

/-! ## The body obligation, at a generic position -/

/-- What the body is called with at position `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any position. The inputs' buffers hold their blocks; the closed forms of the three branch conditions say
    which of the four ways the body runs. At the very first position both the accumulator and the loss cell are handed
    over at anything (the class's invariant; a fresh output buffer) and come back at the recursions' first values. Later
    the invariant hands the accumulator at what the position before left and takes it back at this position's update
    (restarted from zero where a block starts), and the loss cell's buffer holds the recursion's value at the position
    before: where a block ends the body adds the block's loss to it, which is the recursion's value here; elsewhere the
    cell is idle and goes back as found. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0_of, before1_1_of, before1_2_of]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 1024 := lt_of_lt_of_eq t.isLt (show cfg1.N = 1024 from N_1)
  by_cases hz : t.val = 0
  · have hc0 : cond1_0 (grid1.coords t) := (hcond1_0 t).mpr hz
    have h1 : t.val % 16 = 0 := by omega
    have hc1 : cond1_1 (grid1.coords t) := (hcond1_1 t).mpr h1
    have hc2 : ¬cond1_2 (grid1.coords t) := fun h => by have := (hcond1_2 t).mp h; omega
    rw [show (dat1 V c).leavesExact 3 t = owns (c : Thread nD τ) (ms1_3 t) fullShare ((dat1 V c).after 3 t) from by
      unfold Dat.leavesExact; rw [liveAt1_3_first t hc0], after1_3, loss1_at_first V c t hz]
    rw [tgt1_at_start V c t h1]
    rw [PhiS1_castSucc V c t, PhiS1_zero V c _ _ hz, PhiA1_eq]
    simp only [Dat.before_out_reset (dat1 V c) 3 rfl t (.inl hz)]
    unfold withScoped1
    iintro ⟨⟨⟨R1, R2, R3, R4, R5, R6, R7, R8, HS⟩, Hg⟩, Ho, ⟨%d0, H0⟩, ⟨%d1, H1⟩, ⟨%d2, H2⟩, H3⟩
    iapply (body1_first c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) _)
    isplitl [H0]; · iexact H0
    isplitl [H1]; · iexact H1
    isplitl [H2]; · iexact H2
    isplitl [H3]; · iexact H3
    isplitl [HS]; · iexact HS
    iintro ⟨H0, H1, H2, H3, HS⟩
    isplitl [R1 R2 R3 R4 R5 R6 R7 R8 HS Hg]
    · isplitl [R1 R2 R3 R4 R5 R6 R7 R8 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact HS
      iexact Hg
    isplitl [Ho]; · iexact Ho
    isplitl [H0]; · iexact H0
    isplitl [H1]; · iexact H1
    isplitl [H2]; · iexact H2
    iexact H3
  · have hc0 : ¬cond1_0 (grid1.coords t) := fun h => hz ((hcond1_0 t).mp h)
    rw [PhiS1_castSucc V c t, PhiS1_pos V c _ _ hz]
    by_cases h1 : t.val % 16 = 0
    · have hc1 : cond1_1 (grid1.coords t) := (hcond1_1 t).mpr h1
      have hc2 : ¬cond1_2 (grid1.coords t) := fun h => by have := (hcond1_2 t).mp h; omega
      rw [Dat.leavesExact_idle (dat1 V c) 3 t (idleAt1_3 t hc0 hc2) (noFlush1_3 t (by omega))]
      simp only [before1_3_of V c t hz]
      rw [tgt1_at_start V c t h1]
      unfold withScoped1
      iintro ⟨⟨⟨R1, R2, R3, R4, R5, R6, R7, R8, HS⟩, Hg⟩, Ho, ⟨%d0, H0⟩, ⟨%d1, H1⟩, ⟨%d2, H2⟩, ⟨%d3, H3⟩⟩
      iapply (body1_start c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (loss1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3
    · have hc1 : ¬cond1_1 (grid1.coords t) := fun h => h1 ((hcond1_1 t).mp h)
      by_cases h2 : t.val % 16 = 15
      · have hc2 : cond1_2 (grid1.coords t) := (hcond1_2 t).mpr h2
        rw [show (dat1 V c).leavesExact 3 t = owns (c : Thread nD τ) (ms1_3 t) fullShare ((dat1 V c).after 3 t) from by
          unfold Dat.leavesExact; rw [liveAt1_3_last t hc2], after1_3, loss1_at_last V c t h2]
        simp only [before1_3_of V c t hz]
        rw [tgt1_at_step V c t h1]
        unfold withScoped1
        iintro ⟨⟨⟨R1, R2, R3, R4, R5, R6, R7, R8, HS⟩, Hg⟩, Ho, ⟨%d0, H0⟩, ⟨%d1, H1⟩, ⟨%d2, H2⟩, ⟨%d3, H3⟩⟩
        iapply (body1_last c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (loss1 V c (t.val - 1) (Nat.lt_of_le_of_lt (Nat.sub_le _ _) t.isLt)) (tgt1 V c (t.val - 1) (Nat.lt_of_le_of_lt (Nat.sub_le _ _) t.isLt)) _)
        isplitl [H0]; · iexact H0
        isplitl [H1]; · iexact H1
        isplitl [H2]; · iexact H2
        isplitl [H3]; · iexact H3
        isplitl [HS]; · iexact HS
        iintro ⟨H0, H1, H2, H3, HS⟩
        isplitl [R1 R2 R3 R4 R5 R6 R7 R8 HS Hg]
        · isplitl [R1 R2 R3 R4 R5 R6 R7 R8 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        isplitl [H2]; · iexact H2
        iexact H3
      · have hc2 : ¬cond1_2 (grid1.coords t) := fun h => h2 ((hcond1_2 t).mp h)
        rw [Dat.leavesExact_idle (dat1 V c) 3 t (idleAt1_3 t hc0 hc2) (noFlush1_3 t (by omega))]
        simp only [before1_3_of V c t hz]
        rw [tgt1_at_step V c t h1]
        unfold withScoped1
        iintro ⟨⟨⟨R1, R2, R3, R4, R5, R6, R7, R8, HS⟩, Hg⟩, Ho, ⟨%d0, H0⟩, ⟨%d1, H1⟩, ⟨%d2, H2⟩, ⟨%d3, H3⟩⟩
        iapply (body1_mid c Set.univ (grid1.coords t) hc0 hc1 hc2 (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (loss1 V c (t.val - 1) (Nat.lt_of_le_of_lt (Nat.sub_le _ _) t.isLt)) (tgt1 V c (t.val - 1) (Nat.lt_of_le_of_lt (Nat.sub_le _ _) t.isLt)) _)
        isplitl [H0]; · iexact H0
        isplitl [H1]; · iexact H1
        isplitl [H2]; · iexact H2
        isplitl [H3]; · iexact H3
        isplitl [HS]; · iexact HS
        iintro ⟨H0, H1, H2, H3, HS⟩
        isplitl [R1 R2 R3 R4 R5 R6 R7 R8 HS Hg]
        · isplitl [R1 R2 R3 R4 R5 R6 R7 R8 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            iexact HS
          iexact Hg
        isplitl [Ho]; · iexact Ho
        isplitl [H0]; · iexact H0
        isplitl [H1]; · iexact H1
        isplitl [H2]; · iexact H2
        iexists d3; iexact H3

/-- The library's body obligation, at every position. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives the class's own back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold withScoped1
  iintro ⟨⟨R1, R2, R3, R4, R5, R6, R7, R8, HS⟩, Hg⟩
  isplitl [R1 R2 R3 R4 R5 R6 R7 R8 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

/-- The same after the last position. -/
theorem hout1 (c : Dev nD) : (dat1 V c).Φ (Fin.last cfg1.N) ⊢ Pipeline.ΦA spec1 c :=
  Phi_out1 V c _ (by rw [Fin.val_last]; have : cfg1.N = 1024 := N_1; omega)

end Cert.KernelIdeal.Hand

end
-- ==== Proof.KI.Run.lean ====
/-
  The whole program's run: the opening host operations, the two regions one after the other, the closing host operations.
  Every weakly fair execution from a memory with zero counters terminates without a fault, and at its end every unscoped
  buffer of the core holds the contents the boundary valuations name (`W4`).
-/
import proofs.«429483_j15710990369513_1_alg».proof.Proof.KI.RunDefs
import proofs.«429483_j15710990369513_1_alg».proof.Proof.KI.Dat0
import proofs.«429483_j15710990369513_1_alg».proof.Proof.KI.Dat1
import proofs.«429483_j15710990369513_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both pipelines and what rides beside the buffers -/

/-- No pipeline has a prefetched table: the admissible contents are the empty ones. -/
abbrev admH : (p : Fin 2) → (pcfgs (F := F) p).Adm := fun p => (cfgs p).toPCfg_adm

/-- Both pipelines' proof data, each at the contents its region is entered from: region 0 after the opening host
    operations, region 1 after region 0. -/
def pdatsH : (p : Fin 2) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V2 m) c

abbrev 𝒱H : Variants := Variants.none
/-- No core waits for another: no level is assigned. -/
abbrev LH : GSem nD τ sig → Finset Unit := fun _ => ∅
abbrev lvH : GSem nD τ sig → Unit → ℕ := fun _ _ => 0

/-- Beside the buffers through every segment: the generator register at some state, and the core owing nothing. -/
abbrev RH (c : Dev nD) : sProp 𝕄 := iprop((∃ r, prngReg c r) ∗ ∃ W, owes (c : Thread nD τ) (0 : CellTallies nD τ sig Unit) W)

/-- A line of host operations over the unscoped buffers at contents `W`, `RH` riding along: it leaves them at
    `StableHlo.after ops (W c)`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- At region 0's exit every buffer that is none of its arrays holds what it held at entry. -/
theorem hrestH0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same at region 1's exit. -/
theorem hrestH1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- The last thread state without what the core owes: every unscoped buffer at `W4`, the generator register at some state. -/
abbrev TnH (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W1`, left at `W2`. Its arrays are split out of the unscoped buffers
    at entry and joined back at the exit contents; the generator register goes into the invariant and comes back. -/
def regH0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (V1 m c) (V2 m c) ((pdatsH m 0 c).arrAt · cfg0.N) (fun w => (W2_arr m c w).symm) (hrestH0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`, in the same way. -/
def regH1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine BIBase.Entails.trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (V2 m c) (V3 m c) ((pdatsH m 1 c).arrAt · cfg1.N) (fun w => (W3_arr m c w).symm) (hrestH1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's four segments in order: the opening host operations from the launch contents, the two regions, the
    closing host operations from region 1's exit contents. -/
abbrev segsH : List (Pipeline.Seg (pcfgs (F := F)) admH (pdatsH m) () defs₀ 𝒱H LH lvH) :=
  [ .host (hsegH hostOps0 hostOps0_sub Gen.hostOps0_fresh (W0 m)),
    .region (regH0 m),
    .region (regH1 m),
    .host (hsegH hostOps2 hostOps2_sub Gen.hostOps2_fresh (W3 m)) ]

/-- The program is the run of its segments. -/
theorem main_runH (c : Dev nD) : main (F := F) c = Pipeline.Seg.run (segsH m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun c => by
      show iprop(StableHlo.held (c : Thread nD τ) (Pipeline.ucRefs τ sig) (W4 m c) ∗ RH c)
        ⊢ iprop(TnH m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand

end
-- ==== Proof.KI.Args.lean ====
/-
  The program's three arguments end as launched: no host operation writes one; the features are read by both regions
  through an input window, whose array the pipeline leaves at its entry contents; the label and camera-id vectors are
  arrays of neither region.
-/
import proofs.«429483_j15710990369513_1_alg».proof.Proof.KI.RunDefs
import proofs.«429483_j15710990369513_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ)

theorem W4_keeps_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := (W3_arr m c 1).trans (((dat1 (Hand.V2 m) c).arrAt_in 1 rfl _).trans (A_eq1 (Hand.V2 m) c 1))
    _ = W1 m c (Proc.devRef .tc main_arg0) := (W2_arr m c 1).trans (((dat0 (Hand.V1 m) c).arrAt_in 1 rfl _).trans (A_eq0 (Hand.V1 m) c 1))
    _ = W0 m c (Proc.devRef .tc main_arg0) := StableHlo.after_of_writes_sub hostOps0 _ hostOps0_writes (by decide)
    _ = m ((c : Thread nD τ).loc main_arg0) := rfl

theorem W4_keeps_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_keeps_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

end Cert.KernelIdeal.Hand

end
-- ==== Proof.Spec.lean ====
/-
  The mathematics both programs compute, on extended reals.
  For segment ids `seg e` (e one of 16384 rows; a 32-bit word read signed) and features `x e j` (j one of 2048 columns):
  the rows of segment `s` are those whose id is `s`; its count is the number of them, its sum at column `j` the sum of
  `x e j` over them, its mean the sum over max(count, 1). The loss is the sum over all (e, j) of the smooth-L1 term of
  `x e j − mean (seg e) j`, over the number of entries 2^25 (the literals are kept as their words: both programs carry
  the same ones).
-/
import Idealize.ShloMosaic.PureOps.Ideal
import Idealize.ShloMosaic.Lib.ValueIdx

noncomputable section

namespace Cert.Spec

open Idealize.ShloMosaic Idealize.ShloMosaic.ValueIdx

/-- The float words the programs carry: 1, 1/2, 0 and 2^25 (the number of entries). -/
abbrev one : EReal := Ideal.ofBits .f32 0x3F800000#32
abbrev half : EReal := Ideal.ofBits .f32 0x3F000000#32
abbrev zero : EReal := Ideal.ofBits .f32 0x00000000#32
abbrev entries : EReal := Ideal.ofBits .f32 0x4C000000#32

/-- A segment id as the programs compute it from a label and a camera id: `label · 8 + camera`, in 32-bit words. -/
def segW (l cam : IVec ⟨1, ![16384]⟩ 32) (e : Fin 16384) : BitVec 32 := l (ix1 e) * 8#32 + cam (ix1 e)

/-- The rows of segment `s`: those whose id, read signed, is `s`. -/
def rows (seg : Fin 16384 → BitVec 32) (s : Fin 8192) : Finset (Fin 16384) :=
  Finset.univ.filter fun e => (seg e).toInt = (s.val : Int)

/-- The same rows picked out by comparing words, as a kernel does against a counter. -/
def rowsB (seg : Fin 16384 → BitVec 32) (s : Fin 8192) : Finset (Fin 16384) :=
  Finset.univ.filter fun e => seg e = BitVec.ofNat 32 s.val

/-- The indicator of "row `e` belongs to segment `s`", by comparing words. -/
def ind (w : BitVec 32) (s : Fin 8192) : EReal := if w = BitVec.ofNat 32 s.val then 1 else 0

/-- A word is the counter `s < 8192` exactly when its signed reading is `s`. -/
theorem eq_ofNat_iff_toInt (w : BitVec 32) (s : Fin 8192) : w = BitVec.ofNat 32 s.val ↔ w.toInt = (s.val : Int) := by
  have hs := s.isLt
  constructor
  · rintro rfl
    rw [BitVec.toInt_ofNat']
    simp only [Int.bmod]
    omega
  · intro h
    apply BitVec.eq_of_toInt_eq
    rw [h, BitVec.toInt_ofNat']
    simp only [Int.bmod]
    omega

theorem rowsB_eq_rows (seg : Fin 16384 → BitVec 32) (s : Fin 8192) : rowsB seg s = rows seg s := by
  unfold rowsB rows
  exact Finset.filter_congr fun e _ => eq_ofNat_iff_toInt (seg e) s

/-- The number of rows of segment `s`, as a sum of ones. -/
def count (seg : Fin 16384 → BitVec 32) (s : Fin 8192) : EReal := ∑ _e ∈ rows seg s, one

/-- The sum of column `j` over the rows of segment `s`. -/
def segSum (seg : Fin 16384 → BitVec 32) (x : Fin 16384 → Fin 2048 → EReal) (s : Fin 8192) (j : Fin 2048) : EReal :=
  ∑ e ∈ rows seg s, x e j

/-- The mean of column `j` over segment `s`: the sum over max(count, 1). -/
def mean (seg : Fin 16384 → BitVec 32) (x : Fin 16384 → Fin 2048 → EReal) (s : Fin 8192) (j : Fin 2048) : EReal :=
  Ideal.div (segSum seg x s j) (max (count seg s) one)

/-- The smooth-L1 term of a difference `d`: `(d/2)·d` where `|d| < 1`, else `|d| − 1/2`. -/
def huber (d : EReal) : EReal :=
  Scalar.select (FloatOps.cmpf (F := Ideal) (φ := .f32) .olt (FloatOps.absf (F := Ideal) (φ := .f32) d) one)
    ((half * d) * d) (FloatOps.absf (F := Ideal) (φ := .f32) d - half)

/-- The loss: the smooth-L1 terms of (features − the mean of the row's segment) summed over all entries, over their number. -/
def loss (seg : Fin 16384 → BitVec 32) (x : Fin 16384 → Fin 2048 → EReal) (hseg : ∀ e, (seg e).toNat < 8192) : EReal :=
  Ideal.div (∑ e : Fin 16384, ∑ j : Fin 2048, huber (x e j - mean seg x ⟨(seg e).toNat, hseg e⟩ j)) entries

end Cert.Spec

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.KI.Host.lean ====
/-
  The host side of the idealized kernel program, at the ideal instance: what the opening operations put in the arrays the
  regions read (the segment ids as a row and as a column, the counts as a column), what the regions' boundaries keep, what
  the closing operations compute from the loss cell, and what the precondition says of the segment ids.
-/
import proofs.«429483_j15710990369513_1_alg».proof.Proof.KI.RunDefs
import proofs.«429483_j15710990369513_1_alg».proof.Proof.Spec
import proofs.«429483_j15710990369513_1_alg».proof.Proof.LibScatterRows
import proofs.«429483_j15710990369513_1_alg».proof.Defs
import proofs.«429483_j15710990369513_1_alg».proof.Proof.Gen.Pre_finite_inputs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.ReduceAll
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ)

/-- The two integer arguments as vectors of words, and the segment ids computed from them. -/
abbrev lab (c : Dev nD) : IVec ⟨1, ![16384]⟩ 32 := m ((c : Thread nD τ).loc main_arg1)
abbrev cam (c : Dev nD) : IVec ⟨1, ![16384]⟩ 32 := m ((c : Thread nD τ).loc main_arg2)
abbrev segM (c : Dev nD) : Fin 16384 → BitVec 32 := Spec.segW (lab m c) (cam m c)

/-- The opening host operations leave the features alone, lay the segment ids out as a row and as a column, and count
    each segment's rows into a column. -/
theorem V1_arg0 (c : Dev nD) : V1 m c main_arg0 = m ((c : Thread nD τ).loc main_arg0) := by
  show StableHlo.after (hostOps0 (F := Ideal)) _ (Proc.devRef .tc main_arg0) = _
  after_results

/-- The segment-id vector as the host computes it: the labels times the splat of 8, plus the camera ids. -/
private abbrev segV (c : Dev nD) : IVec S16384 32 :=
  addi (muli (lab m c) (broadcastInDim S16384 ![] bcast_S_S16384 (constantI S_ 32 8#32))) (cam m c)

private theorem segV_apply (c : Dev nD) (e : Fin 16384) : segV m c (ix1 e) = segM m c e := rfl

theorem V1_v3 (c : Dev nD) (e : Fin 16384) : (V1 m c main_v3 : IVec S1x16384 32) (ix2 (0 : Fin 1) e) = segM m c e := by
  have h : (V1 m c main_v3 : IVec S1x16384 32) = shapeCast S1x16384 (segV m c) shapeCasts_S16384_S1x16384 := by
    show StableHlo.after (hostOps0 (F := Ideal)) _ (Proc.devRef .tc main_v3) = _
    after_results
    rfl
  rw [h, shapeCast_a_1a_apply]
  exact segV_apply m c e

theorem V1_v4 (c : Dev nD) (e : Fin 16384) : (V1 m c main_v4 : IVec S16384x1 32) (ix2 e (0 : Fin 1)) = segM m c e := by
  have h : (V1 m c main_v4 : IVec S16384x1 32) = shapeCast S16384x1 (segV m c) shapeCasts_S16384_S16384x1 := by
    show StableHlo.after (hostOps0 (F := Ideal)) _ (Proc.devRef .tc main_v4) = _
    after_results
    rfl
  rw [h]
  refine (shapeCast_apply _ _ _ (ix1 e) ?_).trans (segV_apply m c e)
  rw [Shape.rowMajor_val_two, Shape.rowMajor_val_one]
  show e.val = e.val * 1 + 0
  omega

/-- The segment ids broadcast to a column read, at row `e`, the id of row `e`. -/
private theorem segCol_apply (c : Dev nD) (e : Fin 16384) :
    (broadcastInDim S16384x1 ![0] bcast_S16384_S16384x1_0 (segV m c) : IVec S16384x1 32) (ix2 e (0 : Fin 1)) = segM m c e := by
  refine (broadcastInDim_apply _ _ _ _ (ix1 e) ?_).trans (segV_apply m c e)
  intro a
  match a with
  | ⟨0, h0⟩ => exact (if_neg (show ¬ (16384 : ℕ) = 1 by decide)).symm

theorem V1_v9 (c : Dev nD) (s : Fin 8192) : (V1 m c main_v9 : FVec Ideal S8192x1 .f32) (ix2 s (0 : Fin 1)) = Spec.count (segM m c) s := by
  have h : (V1 m c main_v9 : FVec Ideal S8192x1 .f32)
      = shapeCast S8192x1 (Host.scatterAdd (F := Ideal) scatter_S8192_S16384x1_S16384_n_0_0_1
          (broadcastInDim S8192 ![] bcast_S_S8192 (constant (F := Ideal) S_ .f32 0x00000000#32))
          (broadcastInDim S16384x1 ![0] bcast_S16384_S16384x1_0 (segV m c))
          (broadcastInDim S16384 ![] bcast_S_S16384 (constant (F := Ideal) S_ .f32 0x3F800000#32))) shapeCasts_S8192_S8192x1 := by
    show StableHlo.after (hostOps0 (F := Ideal)) _ (Proc.devRef .tc main_v9) = _
    after_results
    rfl
  rw [h]
  refine (shapeCast_apply _ _ _ (ix1 s) ?_).trans ?_
  · rw [Shape.rowMajor_val_two, Shape.rowMajor_val_one]
    show s.val = s.val * 1 + 0
    omega
  refine (SegSum.hostScatterAdd_flat_apply scatter_S8192_S16384x1_S16384_n_0_0_1_wf _ _ _ s).trans ?_
  have hrows : SegSum.rowsOf (N := 8192) (broadcastInDim S16384x1 ![0] bcast_S16384_S16384x1_0 (segV m c) : IVec S16384x1 32) s
      = Spec.rows (segM m c) s := by
    unfold SegSum.rowsOf Spec.rows
    exact Finset.filter_congr fun e _ => by rw [segCol_apply]
  rw [hrows]
  show Ideal.ofBits .f32 0x00000000#32 + ∑ e ∈ Spec.rows (segM m c) s, Spec.one = Spec.count (segM m c) s
  rw [Ideal.ofBits_zero_f32, zero_add]
  rfl

/-- Region 0 changes only the means array: region 1 finds the features and the segment-id column as region 0 did, and the
    means array at what region 0's write-backs leave. -/
theorem V2_arg0 (c : Dev nD) : V2 m c main_arg0 = m ((c : Thread nD τ).loc main_arg0) := by
  have h := W2_arr m c (1 : Fin cfg0.W)
  rw [(dat0 (V1 m) c).arrAt_in (1 : Fin cfg0.W) rfl cfg0.N] at h
  exact h.trans (V1_arg0 m c)
theorem V2_v4 (c : Dev nD) : V2 m c main_v4 = V1 m c main_v4 := by
  refine W2_of_ne m c main_v4 fun w => ?_
  fin_cases w <;> decide
theorem V2_v10 (c : Dev nD) : V2 m c main_v10 = (dat0 (V1 m) c).arrAt 3 cfg0.N :=
  W2_arr m c (3 : Fin cfg0.W)

/-- The closing host operations: the result is the loss cell over the number of entries; the arguments are as launched. -/
theorem W4_v13 (c : Dev nD) :
    (W4 m c (Proc.devRef .tc main_v13) : FVec Ideal S_ .f32)
      = fun _ => Ideal.div (((dat1 (V2 m) c).arrAt 3 cfg1.N : FVec Ideal S1x1 .f32) (ix2 (0 : Fin 1) (0 : Fin 1))) Spec.entries := by
  have h : (W4 m c (Proc.devRef .tc main_v13) : FVec Ideal S_ .f32)
      = Host.divf (F := Ideal) (shapeCast S_ (W3 m c (Proc.devRef .tc main_v11) : FVec Ideal S1x1 .f32) shapeCasts_S1x1_S_)
          (constant (F := Ideal) S_ .f32 0x4C000000#32) := by
    show StableHlo.after (hostOps2 (F := Ideal)) _ (Proc.devRef .tc main_v13) = _
    after_results
    rfl
  rw [h]
  funext j
  show Ideal.div (shapeCast S_ (W3 m c (Proc.devRef .tc main_v11) : FVec Ideal S1x1 .f32) shapeCasts_S1x1_S_ j)
    (Ideal.ofBits .f32 0x4C000000#32) = _
  have hx : shapeCast S_ (W3 m c (Proc.devRef .tc main_v11) : FVec Ideal S1x1 .f32) shapeCasts_S1x1_S_ j
      = ((dat1 (V2 m) c).arrAt 3 cfg1.N : FVec Ideal S1x1 .f32) (ix2 (0 : Fin 1) (0 : Fin 1)) := by
    refine (shapeCast_apply _ _ _ (ix2 (0 : Fin 1) (0 : Fin 1)) ?_).trans ?_
    · have h1 := (S_.rowMajor j).isLt
      have h2 : S_.numel = 1 := by decide
      rw [Shape.rowMajor_val_two]
      show 0 * 1 + 0 = _
      omega
    · exact congrFun (W3_arr m c (3 : Fin cfg1.W)) _
  exact congrArg (fun x => Ideal.div x Spec.entries) hx

theorem W4_arg0 (c : Dev nD) : W4 m c (Proc.devRef .tc main_arg0) = m ((c : Thread nD τ).loc main_arg0) := by
  have h : W4 m c (Proc.devRef .tc main_arg0) = W3 m c (Proc.devRef .tc main_arg0) := by
    show StableHlo.after (hostOps2 (F := Ideal)) _ (Proc.devRef .tc main_arg0) = _
    after_results
  rw [h]
  have h3 := W3_arr m c (1 : Fin cfg1.W)
  rw [(dat1 (V2 m) c).arrAt_in (1 : Fin cfg1.W) rfl cfg1.N] at h3
  exact h3.trans (V2_arg0 m c)

theorem W4_arg1 (c : Dev nD) : W4 m c (Proc.devRef .tc main_arg1) = m ((c : Thread nD τ).loc main_arg1) := by
  have h : W4 m c (Proc.devRef .tc main_arg1) = W3 m c (Proc.devRef .tc main_arg1) := by
    show StableHlo.after (hostOps2 (F := Ideal)) _ (Proc.devRef .tc main_arg1) = _
    after_results
  rw [h, W3_of_ne m c main_arg1 (fun w => by fin_cases w <;> decide),
    W2_of_ne m c main_arg1 (fun w => by fin_cases w <;> decide)]
  show StableHlo.after (hostOps0 (F := Ideal)) _ (Proc.devRef .tc main_arg1) = _
  after_results

theorem W4_arg2 (c : Dev nD) : W4 m c (Proc.devRef .tc main_arg2) = m ((c : Thread nD τ).loc main_arg2) := by
  have h : W4 m c (Proc.devRef .tc main_arg2) = W3 m c (Proc.devRef .tc main_arg2) := by
    show StableHlo.after (hostOps2 (F := Ideal)) _ (Proc.devRef .tc main_arg2) = _
    after_results
  rw [h, W3_of_ne m c main_arg2 (fun w => by fin_cases w <;> decide),
    W2_of_ne m c main_arg2 (fun w => by fin_cases w <;> decide)]
  show StableHlo.after (hostOps0 (F := Ideal)) _ (Proc.devRef .tc main_arg2) = _
  after_results

/-- A word in [0, n) read signed is below n read unsigned. -/
private theorem toNat_lt_of_toInt (w : BitVec 32) (n : ℕ) (h0 : 0 ≤ w.toInt) (h1 : w.toInt < (n : Int)) : w.toNat < n := by
  have hw := w.isLt
  by_cases hc : 2 * w.toNat < 2 ^ 32
  · rw [BitVec.toInt_eq_toNat_cond, if_pos hc] at h1
    omega
  · rw [BitVec.toInt_eq_toNat_cond, if_neg hc] at h0
    omega

/-- Under the precondition (labels in [0, 1024), camera ids in [0, 8)) every segment id is one of the 8192 segments. -/
theorem seg_lt_of_pre [Cert.Pre_finite_inputs.Facts] (hpre : Cert.Pre_KernelIdeal m) (c : Dev nD) (e : Fin 16384) :
    (segM m c e).toNat < 8192 := by
  have h := congrFun (hpre c) ix0
  dsimp only [Cert.Pre_finite_inputs.fn] at h
  -- the conjunction of the two `all`s: keep the one over the integer arguments
  obtain ⟨-, h2⟩ := IntOp.andi_eq_one.1 h
  haveI : Subsingleton Cert.Pre_finite_inputs.S_.Idx := ⟨fun a b => funext fun d => d.elim0⟩
  -- at entry `e` the four comparisons all hold
  have h3 := Host.reduce_andi_all _ _ _ _ _ h2 (ix1 e)
  obtain ⟨h4, hc8⟩ := IntOp.andi_eq_one.1 h3
  obtain ⟨h5, hc0⟩ := IntOp.andi_eq_one.1 h4
  obtain ⟨hl0, hl1024⟩ := IntOp.andi_eq_one.1 h5
  have l0 : (0 : Int) ≤ (lab m c (ix1 e)).toInt := IntOp.cmpi_sge.1 hl0
  have l1 : (lab m c (ix1 e)).toInt < (1024 : Int) := IntOp.cmpi_slt.1 hl1024
  have c0 : (0 : Int) ≤ (cam m c (ix1 e)).toInt := IntOp.cmpi_sge.1 hc0
  have c1 : (cam m c (ix1 e)).toInt < (8 : Int) := IntOp.cmpi_slt.1 hc8
  have hL : (lab m c (ix1 e)).toNat < 1024 := toNat_lt_of_toInt _ 1024 l0 l1
  have hC : (cam m c (ix1 e)).toNat < 8 := toNat_lt_of_toInt _ 8 c0 c1
  show (lab m c (ix1 e) * 8#32 + cam m c (ix1 e)).toNat < 8192
  rw [BitVec.toNat_add, BitVec.toNat_mul]
  show ((lab m c (ix1 e)).toNat * 8 % 2 ^ 32 + (cam m c (ix1 e)).toNat) % 2 ^ 32 < 8192
  omega

end Cert.KernelIdeal.Hand

end
-- ==== Proof.KI.Value0.lean ====
/-
  What region 0 leaves in the means array, at the ideal instance: entry (s, j) is the sum of column j of the features over
  the rows whose segment id is the counter s, over max(count of s, 1) — each column block d accumulates, over its 64 row
  steps, the indicator-matrix products, and the block's finishing step divides and stores.
-/
import proofs.«429483_j15710990369513_1_alg».proof.Proof.KI.Defs0
import proofs.«429483_j15710990369513_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
/-! ## The three payloads read at an entry -/

/-- The zero block a column block's accumulator restarts from. -/
private theorem pay1_apply (i : S8192x128.Idx) : k0_pay1 (F := Ideal) i = 0 := by
  unfold k0_pay1
  simp only [shapeCast_self]
  show Ideal.ofBits .f32 0x00000000#32 = 0
  exact Ideal.ofBits_zero_f32

/-- The finishing step's quotient at (p, q): the accumulated sum over max(count of p, 1). -/
private theorem pay3_apply (v23 : Vec Ideal S8192x1 .f32) (v27 : Vec Ideal S8192x128 .f32) (p : Fin 8192) (q : Fin 128) :
    k0_pay3 (F := Ideal) v23 v27 (ix2 p q) = Ideal.div (v27 (ix2 p q)) (max (v23 (ix2 p (0 : Fin 1))) Spec.one) := by
  unfold k0_pay3
  simp only [shapeCast_self]
  rw [divf_apply]
  refine congrArg (Ideal.div (v27 (ix2 p q))) ?_
  refine (broadcastTo_apply _ broadcasts_S8192x1_S8192x128 (ix2 p q) (ix2 p (0 : Fin 1)) fun ax => ?_).trans ?_
  · match ax with
    | ⟨0, _⟩ => rfl
    | ⟨1, _⟩ => rfl
  · rfl

/-- The dimension numbers of the indicator-matrix product: rows × 256 times 256 × columns. -/
private abbrev D0 := dot_S8192x256_S256x128_S8192x128_1_0_0_1_n_n

private theorem lhs_D0_0 (j : S8192x128.Idx) (k : D0.contr.Idx) : (D0.lhsIdx j k 0 : ℕ) = j 0 := by
  simp [DotDims.lhsIdx, D0, dot_S8192x256_S256x128_S8192x128_1_0_0_1_n_n]; rfl
private theorem lhs_D0_1 (j : S8192x128.Idx) (k : D0.contr.Idx) : (D0.lhsIdx j k 1 : ℕ) = k ⟨0, by decide⟩ := by
  simp [DotDims.lhsIdx, D0, dot_S8192x256_S256x128_S8192x128_1_0_0_1_n_n]; rfl
private theorem rhs_D0_0 (j : S8192x128.Idx) (k : D0.contr.Idx) : (D0.rhsIdx j k 0 : ℕ) = k ⟨0, by decide⟩ := by
  simp [DotDims.rhsIdx, D0, dot_S8192x256_S256x128_S8192x128_1_0_0_1_n_n]; rfl
private theorem rhs_D0_1 (j : S8192x128.Idx) (k : D0.contr.Idx) : (D0.rhsIdx j k 1 : ℕ) = j 1 := by
  simp [DotDims.rhsIdx, D0, dot_S8192x256_S256x128_S8192x128_1_0_0_1_n_n]; rfl

/-- The product's operand indices at output (p, q) and contraction position r: (p, r) and (r, q). -/
private theorem lhs_D0 (p : Fin 8192) (q : Fin 128) (r : Fin 256) :
    D0.lhsIdx (ix2 p q) ((contrEquiv1 D0 256 rfl rfl).symm r) = ix2 p r := by
  apply Shape.idx_ext₂
  · exact lhs_D0_0 _ _
  · exact (lhs_D0_1 _ _).trans (contrEquiv1_symm_val D0 256 rfl rfl r)
private theorem rhs_D0 (p : Fin 8192) (q : Fin 128) (r : Fin 256) :
    D0.rhsIdx (ix2 p q) ((contrEquiv1 D0 256 rfl rfl).symm r) = ix2 r q := by
  apply Shape.idx_ext₂
  · exact (rhs_D0_0 _ _).trans (contrEquiv1_symm_val D0 256 rfl rfl r)
  · exact rhs_D0_1 _ _

/-- A comparison bit, widened and converted, is 1 where the two words agree and 0 where they differ. -/
private theorem ind_word (x y : BitVec 32) :
    (FloatOps.sitofp (F := Ideal) .f32 ((IntOp.cmpi .eq x y).setWidth 32) : EReal) = if y = x then 1 else 0 := by
  show (((((IntOp.cmpi .eq x y).setWidth 32).toInt : ℝ)) : EReal) = _
  by_cases h : y = x
  · subst h; simp [IntOp.cmpi]
  · have h' : ¬ x = y := fun e => h e.symm
    have hb : (x == y) = false := by simpa using h'
    simp [IntOp.cmpi, hb, h]

/-- The accumulating step at (p, q): what was there plus the sum over the step's 256 rows of [id of row r is p] times
    the row's feature at column q. -/
private theorem pay2_apply (v3 : Vec Ideal S1x256 .i32) (v12 : Vec Ideal S256x128 .f32) (v15 : Vec Ideal S8192x128 .f32) (p : Fin 8192) (q : Fin 128) :
    k0_pay2 (F := Ideal) v3 v12 v15 (ix2 p q) = v15 (ix2 p q) + ∑ r : Fin 256, Spec.ind (v3 (ix2 (0 : Fin 1) r)) p * v12 (ix2 r q) := by
  unfold k0_pay2
  simp only [shapeCast_self]
  rw [addf_apply]
  refine congrArg (v15 (ix2 p q) + ·) ?_
  simp only [matmul]
  rw [Ideal.matmul_constant_zero_apply, ← Equiv.sum_comp (contrEquiv1 D0 256 rfl rfl).symm]
  refine Finset.sum_congr rfl fun r _ => ?_
  rw [lhs_D0 p q r, rhs_D0 p q r, truncf_apply, truncf_apply, sitofp_apply, extui_apply]
  refine congrArg (· * v12 (ix2 r q)) ?_
  show (FloatOps.sitofp (F := Ideal) .f32 ((IntOp.cmpi .eq (iota .tc S8192x256 32 [0] iota_S8192x256_d0_w32 (ix2 p r)) (broadcastTo S8192x256 v3 broadcasts_S1x256_S8192x256 (ix2 p r))).setWidth 32) : EReal) = _
  rw [ind_word, iota_single_apply, broadcastTo_1b_ab_apply]
  rfl

-- the contents of the core's buffers when the region is entered
variable (V : (c : Dev nD) → (b : Ref sig .tc) → Buf (Elt Ideal) ((c : Thread nD τ).loc b))

/-- The segment ids as region 0 reads them (a [1, 16384] row), the features, the counts (an [8192, 1] column). -/
def segRow0 (c : Dev nD) : Fin 16384 → BitVec 32 := fun e => (V c main_v3 : IVec S1x16384 32) (ix2 (0 : Fin 1) e)
def feats0 (c : Dev nD) : Fin 16384 → Fin 2048 → EReal := fun e j => (V c main_arg0 : FVec Ideal S16384x2048 .f32) (ix2 e j)
def cnt0 (c : Dev nD) : Fin 8192 → EReal := fun s => (V c main_v9 : FVec Ideal S8192x1 .f32) (ix2 s (0 : Fin 1))

/-! ## The blocks the body reads at a position -/

/-- The printed index maps over the grid: at position t = 64·d + n the id row's block is column block n, the feature
    block is (n, d), the counts block is the whole column, the means block is column block d. -/
private theorem idx_facts0 : ∀ t : Fin cfg0.N,
    win0_0.index t (0 : Fin 2) = 0 ∧ win0_0.index t (1 : Fin 2) = t.val % 64
    ∧ win0_1.index t (0 : Fin 2) = t.val % 64 ∧ win0_1.index t (1 : Fin 2) = t.val / 64
    ∧ win0_2.index t (0 : Fin 2) = 0 ∧ win0_2.index t (1 : Fin 2) = 0
    ∧ win0_3.index t (0 : Fin 2) = 0 ∧ win0_3.index t (1 : Fin 2) = t.val / 64 :=
  (by decide +kernel : ∀ t : Fin grid0.N, _)

/-- The id block at position t, entry r: the id of row 256·(t mod 64) + r. -/
private theorem blk0_apply (c : Dev nD) (t : Fin cfg0.N) (r : Fin 256) (e : Fin 16384) (he : e.val = 256 * (t.val % 64) + r.val) :
    (iblk0 (F := Ideal) V c 0 t : Vec Ideal S1x256 .i32) (ix2 (0 : Fin 1) r) = segRow0 V c e := by
  obtain ⟨h0, h1, -⟩ := idx_facts0 t
  unfold iblk0 segRow0
  rw [View.read_apply]
  show V c main_v3 _ = V c main_v3 _
  congr 1
  funext a
  apply Fin.ext
  match a with
  | ⟨0, _⟩ => show win0_0.index t (0 : Fin 2) * 1 + 1 * 0 = 0; rw [h0]
  | ⟨1, _⟩ => show win0_0.index t (1 : Fin 2) * 256 + 1 * r.val = e.val; rw [h1, he]; omega

/-- The feature block at position t, entry (r, q): the feature of row 256·(t mod 64) + r at column 128·(t / 64) + q. -/
private theorem blk1_apply (c : Dev nD) (t : Fin cfg0.N) (r : Fin 256) (q : Fin 128) (e : Fin 16384) (j : Fin 2048)
    (he : e.val = 256 * (t.val % 64) + r.val) (hj : j.val = 128 * (t.val / 64) + q.val) :
    (iblk0 (F := Ideal) V c 1 t : Vec Ideal S256x128 .f32) (ix2 r q) = feats0 V c e j := by
  obtain ⟨-, -, h0, h1, -⟩ := idx_facts0 t
  unfold iblk0 feats0
  rw [View.read_apply]
  show V c main_arg0 _ = V c main_arg0 _
  congr 1
  funext a
  apply Fin.ext
  match a with
  | ⟨0, _⟩ => show win0_1.index t (0 : Fin 2) * 256 + 1 * r.val = e.val; rw [h0, he]; omega
  | ⟨1, _⟩ => show win0_1.index t (1 : Fin 2) * 128 + 1 * q.val = j.val; rw [h1, hj]; omega

/-- The counts block at any position is the whole counts column. -/
private theorem blk2_apply (c : Dev nD) (t : Fin cfg0.N) (p : Fin 8192) :
    (iblk0 (F := Ideal) V c 2 t : Vec Ideal S8192x1 .f32) (ix2 p (0 : Fin 1)) = cnt0 V c p := by
  obtain ⟨-, -, -, -, h0, h1, -⟩ := idx_facts0 t
  unfold iblk0 cnt0
  rw [View.read_apply]
  show V c main_v9 _ = V c main_v9 _
  congr 1
  funext a
  apply Fin.ext
  match a with
  | ⟨0, _⟩ => show win0_2.index t (0 : Fin 2) * 8192 + 1 * p.val = p.val; rw [h0]; omega
  | ⟨1, _⟩ => show win0_2.index t (1 : Fin 2) * 1 + 1 * 0 = 0; rw [h1]

/-! ## The accumulator after each position, in closed form -/

/-- Row step s of column block d, at (p, q): the sum over the step's 256 rows of [id of the row is p] times the row's
    feature at column 128·d + q. -/
private def stepSum (c : Dev nD) (d : Fin 16) (s : Fin 64) (p : Fin 8192) (q : Fin 128) : EReal :=
  ∑ r : Fin 256, Spec.ind (segRow0 V c ⟨256 * s.val + r.val, by omega⟩) p
    * feats0 V c ⟨256 * s.val + r.val, by omega⟩ ⟨128 * d.val + q.val, by omega⟩

/-- The accumulator after position t, at (p, q): what it restarted from or what the position before left, plus the
    position's step sum. -/
private theorem acc0_step (c : Dev nD) (t : ℕ) (ht : t < cfg0.N) (d : Fin 16) (s : Fin 64) (hts : t = 64 * d.val + s.val)
    (p : Fin 8192) (q : Fin 128) :
    acc0 (F := Ideal) V c t ht (ix2 p q)
      = (if t % 64 = 0 then 0 else acc0 (F := Ideal) V c (t - 1) (by omega) (ix2 p q)) + stepSum V c d s p q := by
  have hsum : ∀ (ht' : t < cfg0.N), (∑ r : Fin 256, Spec.ind ((iblk0 (F := Ideal) V c 0 ⟨t, ht'⟩ : Vec Ideal S1x256 .i32) (ix2 (0 : Fin 1) r)) p
        * (iblk0 (F := Ideal) V c 1 ⟨t, ht'⟩ : Vec Ideal S256x128 .f32) (ix2 r q)) = stepSum V c d s p q := by
    intro ht'
    unfold stepSum
    refine Finset.sum_congr rfl fun r _ => ?_
    have hs := s.isLt
    have hd := d.isLt
    rw [blk0_apply V c ⟨t, ht'⟩ r ⟨256 * s.val + r.val, by omega⟩ (by show 256 * s.val + r.val = 256 * (t % 64) + r.val; omega),
      blk1_apply V c ⟨t, ht'⟩ r q ⟨256 * s.val + r.val, by omega⟩ ⟨128 * d.val + q.val, by omega⟩
        (by show 256 * s.val + r.val = 256 * (t % 64) + r.val; omega) (by show 128 * d.val + q.val = 128 * (t / 64) + q.val; omega)]
  cases t with
  | zero =>
    rw [acc0_zero, pay2_apply, pay1_apply, if_pos (by rfl), hsum]
  | succ n =>
    rw [acc0_succ, pay2_apply, hsum]
    by_cases h : (n + 1) % 64 = 0
    · rw [if_pos h, if_pos h, pay1_apply]
    · rw [if_neg h, if_neg h]; rfl

/-- The accumulator after row step n of column block d, at (p, q): the sum of the step sums of steps 0 … n. -/
private theorem acc0_closed (c : Dev nD) (d : Fin 16) (p : Fin 8192) (q : Fin 128) :
    ∀ (n : ℕ) (hn : n < 64) (h : 64 * d.val + n < cfg0.N),
      acc0 (F := Ideal) V c (64 * d.val + n) h (ix2 p q) = ∑ s : Fin (n + 1), stepSum V c d ⟨s.val, by omega⟩ p q
  | 0, hn, h => by
    rw [acc0_step V c _ h d ⟨0, hn⟩ rfl, if_pos (by omega), zero_add, Fin.sum_univ_one]
    rfl
  | n + 1, hn, h => by
    rw [acc0_step V c _ h d ⟨n + 1, hn⟩ rfl, if_neg (by omega), Fin.sum_univ_castSucc]
    refine congrArg₂ (· + ·) ?_ rfl
    exact acc0_closed c d p q n (by omega) (by omega)

/-! ## The finishing steps' write-backs cover the means array -/

/-- The 16384 rows are the 64 row steps of 256 rows each: row 256·s + r is row r of step s. -/
private def rowEquiv : Fin 64 × Fin 256 ≃ Fin 16384 := (finProdFinEquiv : Fin 64 × Fin 256 ≃ Fin (64 * 256))

private theorem rowEquiv_apply (s : Fin 64) (r : Fin 256) : rowEquiv (s, r) = ⟨256 * s.val + r.val, by omega⟩ :=
  Fin.ext (by show r.val + 256 * s.val = 256 * s.val + r.val; omega)

/-- The step sums of a column block's 64 row steps add up to the sum of the column over the rows of segment p. -/
private theorem sum_steps (c : Dev nD) (d : Fin 16) (p : Fin 8192) (q : Fin 128) :
    ∑ s : Fin 64, stepSum V c d s p q
      = ∑ e ∈ Spec.rowsB (segRow0 V c) p, feats0 V c e ⟨128 * d.val + q.val, by omega⟩ := by
  unfold Spec.rowsB
  rw [Finset.sum_filter, ← Equiv.sum_comp rowEquiv, Fintype.sum_prod_type]
  refine Finset.sum_congr rfl fun s _ => ?_
  unfold stepSum
  refine Finset.sum_congr rfl fun r _ => ?_
  rw [rowEquiv_apply]
  unfold Spec.ind
  split
  · rw [one_mul]
  · rw [zero_mul]

/-- What the means array ends holding: entry (s, j) is the sum of column j over the rows of segment s, over
    max(count of s, 1). -/
private def meansG (c : Dev nD) : FVec Ideal S8192x2048 .f32 := fun i =>
  Ideal.div (∑ e ∈ Spec.rowsB (segRow0 V c) (i 0), feats0 V c e (i 1)) (max (cnt0 V c (i 0)) Spec.one)

/-- What a finishing step writes back is its column block of that array. -/
private theorem flushed0_eq (c : Dev nD) (t : Fin cfg0.N) (hf : (cfg0.win 3).flush t = true) :
    (dat0 (F := Ideal) V c).flushed 3 t = ((cfg0.win 3).blk t).view.read (Elt Ideal) (meansG V c) := by
  have h63 : t.val % 64 = 63 := (flush0_3 t).mp hf
  have hN : cfg0.N = 1024 := N_0
  have htN : t.val < 1024 := hN ▸ t.isLt
  obtain ⟨-, -, -, -, -, -, h0, h1⟩ := idx_facts0 t
  show (cfg0.win 3).cut (grid0.coords t) ((dat0 (F := Ideal) V c).after 3 t) = _
  rw [after0_3]
  funext y
  obtain ⟨p, q, rfl⟩ : ∃ (p : Fin 8192) (q : Fin 128), y = ix2 p q := ⟨y 0, y 1, eq_ix2 y⟩
  rw [View.read_apply]
  show means0 (F := Ideal) V c t (ix2 p q) = meansG V c (((cfg0.win 3).blk t).view.emb (ix2 p q))
  have hd : t.val / 64 < 16 := by omega
  have hemb : ((cfg0.win 3).blk t).view.emb (ix2 p q) = ix2 p (⟨128 * (t.val / 64) + q.val, by omega⟩ : Fin 2048) := by
    funext a
    apply Fin.ext
    match a with
    | ⟨0, _⟩ => show win0_3.index t (0 : Fin 2) * 8192 + 1 * p.val = p.val; rw [h0]; omega
    | ⟨1, _⟩ => show win0_3.index t (1 : Fin 2) * 128 + 1 * q.val = 128 * (t.val / 64) + q.val; rw [h1]; omega
  rw [hemb]
  unfold means0 meansG
  rw [pay3_apply, blk2_apply]
  have same : ∀ (u : ℕ) (hu : u < cfg0.N), u = t.val → acc0 (F := Ideal) V c u hu = acc0 (F := Ideal) V c t.val t.isLt :=
    fun u hu e => by subst e; rfl
  rw [← same (64 * (⟨t.val / 64, hd⟩ : Fin 16).val + 63) (by have := t.isLt; show 64 * (t.val / 64) + 63 < cfg0.N; omega)
      (by show 64 * (t.val / 64) + 63 = t.val; omega),
    acc0_closed V c ⟨t.val / 64, hd⟩ p q 63 (by omega)]
  refine congrArg (fun x => Ideal.div x _) ?_
  exact sum_steps V c ⟨t.val / 64, hd⟩ p q

/-- Every entry of the means array lies in the column block some finishing step writes back. -/
private theorem cover0 (i : S8192x2048.Idx) :
    ∃ t : Fin cfg0.N, (cfg0.win 3).flush t = true ∧ i ∈ ((cfg0.win 3).blk t).view.set := by
  have hi0 : (i 0).val < 8192 := idx2_lt0 i
  have hi1 : (i 1).val < 2048 := idx2_lt1 i
  have hN : cfg0.N = 1024 := N_0
  have ht : 64 * ((i 1).val / 128) + 63 < cfg0.N := by rw [hN]; omega
  refine ⟨⟨64 * ((i 1).val / 128) + 63, ht⟩, (flush0_3 _).mpr (by show (64 * ((i 1).val / 128) + 63) % 64 = 63; omega), ?_⟩
  obtain ⟨-, -, -, -, -, -, h0, h1⟩ := idx_facts0 ⟨64 * ((i 1).val / 128) + 63, ht⟩
  have h1' : win0_3.index ⟨64 * ((i 1).val / 128) + 63, ht⟩ (1 : Fin 2) = (i 1).val / 128 := by
    rw [h1]; show (64 * ((i 1).val / 128) + 63) / 64 = (i 1).val / 128; omega
  show i ∈ ((View.whole main_v10).slice (win0_3.rect ⟨64 * ((i 1).val / 128) + 63, ht⟩)).set
  rw [View.set_slice_whole, Rect.mem_set_unit]
  intro a
  match a with
  | ⟨0, _⟩ =>
    show win0_3.index ⟨64 * ((i 1).val / 128) + 63, ht⟩ (0 : Fin 2) * 8192 ≤ (i 0).val
      ∧ (i 0).val < win0_3.index ⟨64 * ((i 1).val / 128) + 63, ht⟩ (0 : Fin 2) * 8192 + 8192
    rw [h0]; omega
  | ⟨1, _⟩ =>
    show win0_3.index ⟨64 * ((i 1).val / 128) + 63, ht⟩ (1 : Fin 2) * 128 ≤ (i 1).val
      ∧ (i 1).val < win0_3.index ⟨64 * ((i 1).val / 128) + 63, ht⟩ (1 : Fin 2) * 128 + 128
    rw [h1']; omega

/-- So the means array ends holding the segment means. -/
private theorem means_final (c : Dev nD) : (dat0 (F := Ideal) V c).arrAt 3 cfg0.N = meansG V c :=
  (dat0 (F := Ideal) V c).arrAt_eq_of_cover 3 (meansG V c) (flushed0_eq V c) cover0

theorem means_value (c : Dev nD) (s : Fin 8192) (j : Fin 2048) :
    ((dat0 (F := Ideal) V c).arrAt 3 cfg0.N : FVec Ideal S8192x2048 .f32) (ix2 s j)
      = Ideal.div (∑ e ∈ Spec.rowsB (segRow0 V c) s, feats0 V c e j) (max (cnt0 V c s) Spec.one) := by
  rw [means_final]
  rfl

end Cert.KernelIdeal.Hand

end
-- ==== Proof.KI.Value1.lean ====
/-
  What region 1 leaves in the loss cell, at the ideal instance: the sum over all entries (e, j) of the smooth-L1 term of the
  feature minus the row's target, the target being the sum over the 8192 segment counters s of [seg e = s] · means (s, j)
  — each block accumulates its targets over 16 segment steps, its last step adds the block's loss into the cell.
-/
import proofs.«429483_j15710990369513_1_alg».proof.Proof.KI.Defs1
import proofs.«429483_j15710990369513_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-! ## Sums regrouped: pure facts about finite sums -/

section Sums
variable {β : Type*} [AddCommMonoid β]

/-- A sum over the numbers below N·K is the double sum over quotient and remainder. -/
private theorem sum_fin_mul (N K M : ℕ) (h : N * K = M) (f : ℕ → β) :
    ∑ i : Fin M, f i.val = ∑ a : Fin N, ∑ b : Fin K, f (K * a.val + b.val) := by
  subst h
  rw [← Equiv.sum_comp finProdFinEquiv (fun i : Fin (N * K) => f i.val), Fintype.sum_prod_type]
  refine Finset.sum_congr rfl fun a _ => Finset.sum_congr rfl fun b _ => ?_
  show f (b.val + K * a.val) = _
  rw [Nat.add_comm]

/-- Of the 1024 positions only the last of each run of 16 contributes: one term per block. -/
private theorem sum_block_ends (G : ℕ → β) :
    ∑ m ∈ Finset.range 1024, (if m % 16 = 15 then G m else 0) = ∑ b : Fin 64, G (16 * b.val + 15) := by
  rw [Finset.sum_range, sum_fin_mul 64 16 1024 rfl (fun m => if m % 16 = 15 then G m else 0)]
  refine Finset.sum_congr rfl fun b _ => ?_
  rw [Finset.sum_eq_single (15 : Fin 16)]
  · exact if_pos (by show (16 * b.val + 15) % 16 = 15; omega)
  · intro s _ hs
    refine if_neg fun h => hs (Fin.ext ?_)
    have := s.isLt
    show s.val = 15
    omega
  · intro h; exact absurd (Finset.mem_univ _) h

end Sums

/-- The indicator of "the id word is the counter n". -/
private def indN (w : BitVec 32) (n : ℕ) : EReal := if w = BitVec.ofNat 32 n then 1 else 0

/-- Blocks to entries: the sum over the 64 blocks (n, d) of the sums over a block's 2048 × 256 entries, each entry's
    target summed over 16 steps of 512 counters, is the sum over all 16384 × 2048 entries with the target summed over
    all 8192 counters. -/
private theorem regroup (X : ℕ → ℕ → EReal) (W : ℕ → BitVec 32) (Y : ℕ → ℕ → EReal) :
    ∑ b : Fin 64, ∑ p : Fin 2048, ∑ q : Fin 256,
        Spec.huber (X (2048 * (b.val / 8) + p.val) (256 * (b.val % 8) + q.val)
          - ∑ s' : Fin 16, ∑ k : Fin 512,
              indN (W (2048 * (b.val / 8) + p.val)) (512 * s'.val + k.val) * Y (512 * s'.val + k.val) (256 * (b.val % 8) + q.val))
      = ∑ e : Fin 16384, ∑ j : Fin 2048, Spec.huber (X e.val j.val - ∑ s : Fin 8192, indN (W e.val) s.val * Y s.val j.val) := by
  have hS : ∀ (w : BitVec 32) (j : ℕ), ∑ s : Fin 8192, indN w s.val * Y s.val j
      = ∑ s' : Fin 16, ∑ k : Fin 512, indN w (512 * s'.val + k.val) * Y (512 * s'.val + k.val) j :=
    fun w j => sum_fin_mul 16 512 8192 rfl (fun s => indN w s * Y s j)
  have hJ : ∀ e : ℕ, ∑ j : Fin 2048, Spec.huber (X e j.val - ∑ s : Fin 8192, indN (W e) s.val * Y s.val j.val)
      = ∑ d : Fin 8, ∑ q : Fin 256, Spec.huber (X e (256 * d.val + q.val) - ∑ s : Fin 8192, indN (W e) s.val * Y s.val (256 * d.val + q.val)) :=
    fun e => sum_fin_mul 8 256 2048 rfl (fun j => Spec.huber (X e j - ∑ s : Fin 8192, indN (W e) s.val * Y s.val j))
  rw [sum_fin_mul 8 2048 16384 rfl (fun e => ∑ j : Fin 2048, Spec.huber (X e j.val - ∑ s : Fin 8192, indN (W e) s.val * Y s.val j.val)),
    sum_fin_mul 8 8 64 rfl (fun b => ∑ p : Fin 2048, ∑ q : Fin 256,
        Spec.huber (X (2048 * (b / 8) + p.val) (256 * (b % 8) + q.val)
          - ∑ s' : Fin 16, ∑ k : Fin 512,
              indN (W (2048 * (b / 8) + p.val)) (512 * s'.val + k.val) * Y (512 * s'.val + k.val) (256 * (b % 8) + q.val)))]
  beta_reduce
  refine Finset.sum_congr rfl fun n _ => ?_
  rw [Finset.sum_comm]
  refine Finset.sum_congr rfl fun p _ => ?_
  rw [hJ]
  refine Finset.sum_congr rfl fun d _ => ?_
  have h1 : (8 * n.val + d.val) / 8 = n.val := by omega
  have h2 : (8 * n.val + d.val) % 8 = d.val := by omega
  rw [h1, h2]
  refine Finset.sum_congr rfl fun q _ => ?_
  rw [hS]

/-- The zero word the cell and the accumulator are cleared with is the number 0. -/
private theorem pay1_apply (j : S1x1.Idx) : (k1_pay1 (F := Ideal)) j = 0 := by
  unfold k1_pay1
  exact Ideal.ofBits_zero_f32

private theorem pay2_apply (j : S2048x256.Idx) : (k1_pay2 (F := Ideal)) j = 0 := by
  unfold k1_pay2
  simp only [shapeCast_self]
  exact Ideal.ofBits_zero_f32

private theorem lhs_D1_0 (j : S2048x256.Idx) (k : dot_S2048x512_S512x256_S2048x256_1_0_0_1_n_n.contr.Idx) : (dot_S2048x512_S512x256_S2048x256_1_0_0_1_n_n.lhsIdx j k 0).val = (j 0).val := rfl
private theorem lhs_D1_1 (j : S2048x256.Idx) (k : dot_S2048x512_S512x256_S2048x256_1_0_0_1_n_n.contr.Idx) : (dot_S2048x512_S512x256_S2048x256_1_0_0_1_n_n.lhsIdx j k 1).val = (k ⟨0, by decide⟩).val :=
  dot_S2048x512_S512x256_S2048x256_1_0_0_1_n_n.lhsIdx_val_of_single rfl j k
private theorem rhs_D1_0 (j : S2048x256.Idx) (k : dot_S2048x512_S512x256_S2048x256_1_0_0_1_n_n.contr.Idx) : (dot_S2048x512_S512x256_S2048x256_1_0_0_1_n_n.rhsIdx j k 0).val = (k ⟨0, by decide⟩).val :=
  dot_S2048x512_S512x256_S2048x256_1_0_0_1_n_n.rhsIdx_val_of_single rfl j k
private theorem rhs_D1_1 (j : S2048x256.Idx) (k : dot_S2048x512_S512x256_S2048x256_1_0_0_1_n_n.contr.Idx) : (dot_S2048x512_S512x256_S2048x256_1_0_0_1_n_n.rhsIdx j k 1).val = (j 1).val := rfl

/-- The indicator-by-means product into the zero accumulator, read at an entry: the sum over the step's 512 segment
    counters of the products of the entries. -/
private theorem matmul_D1_apply (A : FVec Ideal S2048x512 .bf16) (B : FVec Ideal S512x256 .bf16) (p : Fin 2048) (q : Fin 256) :
    matmul dot_S2048x512_S512x256_S2048x256_1_0_0_1_n_n none A B (constant S2048x256 .f32 0x00000000#32) (ix2 p q) = ∑ k : Fin 512, A (ix2 p k) * B (ix2 k q) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have ck := contrEquiv1_symm_val dot_S2048x512_S512x256_S2048x256_1_0_0_1_n_n 512 rfl rfl k
  have l2 : dot_S2048x512_S512x256_S2048x256_1_0_0_1_n_n.lhsIdx (ix2 p q) ((contrEquiv1 dot_S2048x512_S512x256_S2048x256_1_0_0_1_n_n 512 rfl rfl).symm k) = ix2 p k := by
    funext ax; apply Fin.ext
    match ax with
    | ⟨0, _⟩ => exact lhs_D1_0 _ _
    | ⟨1, _⟩ => exact (lhs_D1_1 _ _).trans ck
  have r2 : dot_S2048x512_S512x256_S2048x256_1_0_0_1_n_n.rhsIdx (ix2 p q) ((contrEquiv1 dot_S2048x512_S512x256_S2048x256_1_0_0_1_n_n 512 rfl rfl).symm k) = ix2 k q := by
    funext ax; apply Fin.ext
    match ax with
    | ⟨0, _⟩ => exact (rhs_D1_0 _ _).trans ck
    | ⟨1, _⟩ => exact rhs_D1_1 _ _
  rw [l2, r2]

/-- A column broadcast along the rows: an [a, 1] array broadcast to [a, b] reads, at (p, c), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator entry as the kernel computes it: the id word compared with the counter word (lane number plus the
    step's offset, in 32-bit words), the bit widened and converted, is 1 where the id is the counter and 0 elsewhere. -/
private theorem ind_word (w : BitVec 32) (s k : ℕ) :
    FloatOps.sitofp (F := Ideal) .f32
        ((IntOp.cmpi .eq w (IntOp.addi (BitVec.ofNat 32 k) (Scalar.muli (BitVec.ofNat 32 s) 512#32))).setWidth 32)
      = if w = BitVec.ofNat 32 (512 * s + k) then (1 : EReal) else 0 := by
  have hw : IntOp.addi (BitVec.ofNat 32 k) (Scalar.muli (BitVec.ofNat 32 s) 512#32) = BitVec.ofNat 32 (512 * s + k) := by
    show BitVec.ofNat 32 k + BitVec.ofNat 32 s * BitVec.ofNat 32 512 = _
    rw [← BitVec.ofNat_mul, ← BitVec.ofNat_add]
    congr 1
    omega
  rw [hw]
  by_cases h : w = BitVec.ofNat 32 (512 * s + k)
  · rw [if_pos h]
    have hc : IntOp.cmpi CmpIPredicate.eq w (BitVec.ofNat 32 (512 * s + k)) = 1#1 := by simp [IntOp.cmpi, h]
    rw [hc]
    show (((BitVec.setWidth 32 1#1).toInt : ℝ) : EReal) = 1
    rw [show (BitVec.setWidth 32 1#1).toInt = 1 from by decide]
    simp
  · rw [if_neg h]
    have hc : IntOp.cmpi CmpIPredicate.eq w (BitVec.ofNat 32 (512 * s + k)) = 0#1 := by
      show BitVec.ofBool (w == BitVec.ofNat 32 (512 * s + k)) = 0#1
      rw [beq_eq_false_iff_ne.mpr h]
      rfl
    rw [hc]
    show (((BitVec.setWidth 32 0#1).toInt : ℝ) : EReal) = 0
    rw [show (BitVec.setWidth 32 0#1).toInt = 0 from by decide]
    simp

/-- The accumulator update read at an entry (p, q): what was carried plus, over the step's 512 segment counters, the
    indicator that row p's id is the counter times the means block's entry. -/
private theorem pay3_apply (i : grid1.Coords) (v11 : Vec Ideal S2048x1 .i32) (v21 : Vec Ideal S512x256 .f32) (v25 : Vec Ideal S2048x256 .f32)
    (p : Fin 2048) (q : Fin 256) :
    k1_pay3 (F := Ideal) i v11 v21 v25 (ix2 p q)
      = v25 (ix2 p q) + ∑ k : Fin 512,
          (if v11 (ix2 p (0 : Fin 1)) = BitVec.ofNat 32 (512 * (i 2).val + k.val) then (1 : EReal) else 0) * v21 (ix2 k q) := by
  unfold k1_pay3
  simp only [shapeCast_self]
  rw [addf_apply, matmul_D1_apply]
  refine congrArg (v25 (ix2 p q) + ·) (Finset.sum_congr rfl fun k _ => ?_)
  rw [truncf_apply, truncf_apply, sitofp_apply, extui_apply]
  congr 1
  show FloatOps.sitofp .f32 ((IntOp.cmpi .eq (broadcastTo S2048x512 v11 broadcasts_S2048x1_S2048x512 (ix2 p k))
      (IntOp.addi (iota .tc S2048x512 32 [1] iota_S2048x512_d1_w32 (ix2 p k)) (Scalar.muli (BitVec.ofNat 32 (i 2).val) 512#32))).setWidth 32) = _
  rw [broadcastTo_a1_ab_apply, iota_single_apply]
  exact ind_word _ _ _

private theorem lift_S1x256 (k : Fin 256) : reduces_S1x256_S1.lift (ix1 (0 : Fin 1)) k = ix2 (0 : Fin 1) k := by
  funext ax; apply Fin.ext
  match ax with
  | ⟨0, _⟩ => rfl
  | ⟨1, _⟩ => rfl

private theorem lift_S2048x256 (q : Fin 256) (p : Fin 2048) : reduces_S2048x256_S256.lift (ix1 q) p = ix2 p q := by
  funext ax; apply Fin.ext
  match ax with
  | ⟨0, _⟩ => rfl
  | ⟨1, _⟩ => rfl

/-- The loss cell's update read at its one entry: what the cell held plus the smooth-L1 terms of (features − targets)
    summed over the block. -/
private theorem pay4_apply (x4 tg : Vec Ideal S2048x256 .f32) (l : Vec Ideal S1x1 .f32) :
    k1_pay4 (F := Ideal) x4 tg l (ix2 (0 : Fin 1) (0 : Fin 1))
      = l (ix2 (0 : Fin 1) (0 : Fin 1)) + ∑ p : Fin 2048, ∑ q : Fin 256, Spec.huber (x4 (ix2 p q) - tg (ix2 p q)) := by
  unfold k1_pay4
  simp only [shapeCast_self]
  rw [addf_apply]
  congr 1
  rw [shapeCast_a_1a_apply, Finset.sum_comm]
  refine (Ideal.multiReduction_add_single _ _ reduces_S1x256_S1 _ _ (ix1 (0 : Fin 1))).trans ?_
  refine Finset.sum_congr rfl fun q _ => ?_
  refine (congrArg _ (lift_S1x256 q)).trans ?_
  refine (shapeCast_a_1a_apply _ _ _ _).trans ?_
  refine (Ideal.multiReduction_add_single _ _ reduces_S2048x256_S256 _ _ (ix1 q)).trans ?_
  refine Finset.sum_congr rfl fun p _ => ?_
  refine (congrArg _ (lift_S2048x256 q p)).trans ?_
  rfl

-- the contents of the core's buffers when the region is entered
variable (V : (c : Dev nD) → (b : Ref sig .tc) → Buf (Elt Ideal) ((c : Thread nD τ).loc b))

/-- The segment ids as region 1 reads them (a [16384, 1] column), the features, the means. -/
def segCol1 (c : Dev nD) : Fin 16384 → BitVec 32 := fun e => (V c main_v4 : IVec S16384x1 32) (ix2 e (0 : Fin 1))
def feats1 (c : Dev nD) : Fin 16384 → Fin 2048 → EReal := fun e j => (V c main_arg0 : FVec Ideal S16384x2048 .f32) (ix2 e j)
def means1 (c : Dev nD) : Fin 8192 → Fin 2048 → EReal := fun s j => (V c main_v10 : FVec Ideal S8192x2048 .f32) (ix2 s j)

/-- The same three read at natural-number coordinates (zero past the arrays' extents, where nothing is ever read). -/
private def segN (c : Dev nD) (e : ℕ) : BitVec 32 := if h : e < 16384 then segCol1 V c ⟨e, h⟩ else 0
private def featN (c : Dev nD) (e j : ℕ) : EReal := if h : e < 16384 ∧ j < 2048 then feats1 V c ⟨e, h.1⟩ ⟨j, h.2⟩ else 0
private def meanN (c : Dev nD) (s j : ℕ) : EReal := if h : s < 8192 ∧ j < 2048 then means1 V c ⟨s, h.1⟩ ⟨j, h.2⟩ else 0

private theorem segN_fin (c : Dev nD) (e : Fin 16384) : segN V c e.val = segCol1 V c e := by
  unfold segN; rw [dif_pos e.isLt]
private theorem featN_fin (c : Dev nD) (e : Fin 16384) (j : Fin 2048) : featN V c e.val j.val = feats1 V c e j := by
  unfold featN; rw [dif_pos ⟨e.isLt, j.isLt⟩]
private theorem meanN_fin (c : Dev nD) (s : Fin 8192) (j : Fin 2048) : meanN V c s.val j.val = means1 V c s j := by
  unfold meanN; rw [dif_pos ⟨s.isLt, j.isLt⟩]

/-- The block indices of the three input windows and the step coordinate at position t = 128·n + 16·d + s. -/
private theorem idx1_0 : ∀ t : Fin cfg1.N, win1_0.index t 0 = t.val / 128 ∧ win1_0.index t 1 = 0 :=
  (by decide +kernel : ∀ t : Fin grid1.N, win1_0.index t 0 = t.val / 128 ∧ win1_0.index t 1 = 0)
private theorem idx1_1 : ∀ t : Fin cfg1.N, win1_1.index t 0 = t.val / 128 ∧ win1_1.index t 1 = t.val / 16 % 8 :=
  (by decide +kernel : ∀ t : Fin grid1.N, win1_1.index t 0 = t.val / 128 ∧ win1_1.index t 1 = t.val / 16 % 8)
private theorem idx1_2 : ∀ t : Fin cfg1.N, win1_2.index t 0 = t.val % 16 ∧ win1_2.index t 1 = t.val / 16 % 8 :=
  (by decide +kernel : ∀ t : Fin grid1.N, win1_2.index t 0 = t.val % 16 ∧ win1_2.index t 1 = t.val / 16 % 8)
private theorem coord1_2 : ∀ t : Fin cfg1.N, ((grid1.coords t) 2).val = t.val % 16 :=
  (by decide +kernel : ∀ t : Fin grid1.N, ((grid1.coords t) 2).val = t.val % 16)

/-- Window 0's block at position t: rows 2048·n … of the id column. -/
private theorem iblk1_seg (c : Dev nD) (t : Fin cfg1.N) (p : Fin 2048) :
    (iblk1 V c 0 t : Vec Ideal S2048x1 .i32) (ix2 p (0 : Fin 1)) = segN V c (2048 * (t.val / 128) + p.val) := by
  have ht : t.val < 1024 := lt_of_lt_of_eq t.isLt (show cfg1.N = 1024 from N_1)
  have hb : 2048 * (t.val / 128) + p.val < 16384 := by omega
  unfold segN
  rw [dif_pos hb]
  unfold iblk1 segCol1
  rw [View.read_apply]
  show V c main_v4 _ = V c main_v4 _
  congr 1
  funext a
  apply Fin.ext
  match a with
  | ⟨0, _⟩ => show win1_0.index t 0 * 2048 + 1 * p.val = 2048 * (t.val / 128) + p.val; rw [(idx1_0 t).1]; omega
  | ⟨1, _⟩ => show win1_0.index t 1 * 1 + 1 * 0 = 0; rw [(idx1_0 t).2]

/-- Window 1's block at position t: rows 2048·n …, columns 256·d … of the features. -/
private theorem iblk1_feat (c : Dev nD) (t : Fin cfg1.N) (p : Fin 2048) (q : Fin 256) :
    (iblk1 V c 1 t : Vec Ideal S2048x256 .f32) (ix2 p q) = featN V c (2048 * (t.val / 128) + p.val) (256 * (t.val / 16 % 8) + q.val) := by
  have ht : t.val < 1024 := lt_of_lt_of_eq t.isLt (show cfg1.N = 1024 from N_1)
  have hb : 2048 * (t.val / 128) + p.val < 16384 ∧ 256 * (t.val / 16 % 8) + q.val < 2048 := by omega
  unfold featN
  rw [dif_pos hb]
  unfold iblk1 feats1
  rw [View.read_apply]
  show V c main_arg0 _ = V c main_arg0 _
  congr 1
  funext a
  apply Fin.ext
  match a with
  | ⟨0, _⟩ => show win1_1.index t 0 * 2048 + 1 * p.val = 2048 * (t.val / 128) + p.val; rw [(idx1_1 t).1]; omega
  | ⟨1, _⟩ => show win1_1.index t 1 * 256 + 1 * q.val = 256 * (t.val / 16 % 8) + q.val; rw [(idx1_1 t).2]; omega

/-- Window 2's block at position t: rows 512·s …, columns 256·d … of the means. -/
private theorem iblk1_mean (c : Dev nD) (t : Fin cfg1.N) (k : Fin 512) (q : Fin 256) :
    (iblk1 V c 2 t : Vec Ideal S512x256 .f32) (ix2 k q) = meanN V c (512 * (t.val % 16) + k.val) (256 * (t.val / 16 % 8) + q.val) := by
  have ht : t.val < 1024 := lt_of_lt_of_eq t.isLt (show cfg1.N = 1024 from N_1)
  have hb : 512 * (t.val % 16) + k.val < 8192 ∧ 256 * (t.val / 16 % 8) + q.val < 2048 := by omega
  unfold meanN
  rw [dif_pos hb]
  unfold iblk1 means1
  rw [View.read_apply]
  show V c main_v10 _ = V c main_v10 _
  congr 1
  funext a
  apply Fin.ext
  match a with
  | ⟨0, _⟩ => show win1_2.index t 0 * 512 + 1 * k.val = 512 * (t.val % 16) + k.val; rw [(idx1_2 t).1]; omega
  | ⟨1, _⟩ => show win1_2.index t 1 * 256 + 1 * q.val = 256 * (t.val / 16 % 8) + q.val; rw [(idx1_2 t).2]; omega

/-! ## The target accumulator in closed form -/

/-- What position m adds to the target accumulator at (p, q): over the step's 512 counters, the indicator that the
    row's id is the counter times the mean at (counter, column). -/
private def addend (c : Dev nD) (m p q : ℕ) : EReal :=
  ∑ k : Fin 512, indN (segN V c (2048 * (m / 128) + p)) (512 * (m % 16) + k.val)
    * meanN V c (512 * (m % 16) + k.val) (256 * (m / 16 % 8) + q)

/-- One position's update of an accumulator, read at (p, q). -/
private theorem tgt1_step (c : Dev nD) (n : ℕ) (hn : n < cfg1.N) (acc : Vec Ideal S2048x256 .f32) (p : Fin 2048) (q : Fin 256) :
    k1_pay3 (F := Ideal) (grid1.coords ⟨n, hn⟩) (iblk1 V c 0 ⟨n, hn⟩) (iblk1 V c 2 ⟨n, hn⟩) acc (ix2 p q)
      = acc (ix2 p q) + addend V c n p.val q.val := by
  rw [pay3_apply]
  unfold addend
  refine congrArg (acc (ix2 p q) + ·) (Finset.sum_congr rfl fun k _ => ?_)
  rw [iblk1_seg V c ⟨n, hn⟩ p, iblk1_mean V c ⟨n, hn⟩ k q, coord1_2 ⟨n, hn⟩]
  rfl

/-- Where a block starts the accumulator restarts from zero; elsewhere it carries on from the position before. -/
private theorem tgt1_reset (c : Dev nD) : ∀ (n : ℕ) (h : n < cfg1.N), n % 16 = 0 →
    tgt1 V c n h = k1_pay3 (grid1.coords ⟨n, h⟩) (iblk1 V c 0 ⟨n, h⟩) (iblk1 V c 2 ⟨n, h⟩) (k1_pay2 (F := Ideal))
  | 0, h, _ => tgt1_zero V c h
  | n + 1, h, hm => by rw [tgt1_succ, if_pos hm]

private theorem tgt1_carry (c : Dev nD) (n : ℕ) (h : n + 1 < cfg1.N) (hm : ¬(n + 1) % 16 = 0) :
    tgt1 V c (n + 1) h = k1_pay3 (grid1.coords ⟨n + 1, h⟩) (iblk1 V c 0 ⟨n + 1, h⟩) (iblk1 V c 2 ⟨n + 1, h⟩)
      (tgt1 V c n (Nat.lt_of_succ_lt h)) := by
  rw [tgt1_succ, if_neg hm]

/-- After step s of block b the accumulator holds, at (p, q), the addends of the block's steps up to s. -/
private theorem tgt1_block (c : Dev nD) (b : ℕ) : ∀ (s : ℕ) (hs : s < 16) (h : 16 * b + s < cfg1.N) (p : Fin 2048) (q : Fin 256),
    tgt1 V c (16 * b + s) h (ix2 p q) = ∑ s' ∈ Finset.range (s + 1), addend V c (16 * b + s') p.val q.val
  | 0, _, h, p, q => by
    rw [tgt1_reset V c (16 * b + 0) h (by omega), tgt1_step, pay2_apply, zero_add, Finset.sum_range_one]
  | s + 1, hs, h, p, q => by
    rw [Finset.sum_range_succ, ← tgt1_block c b s (by omega) (Nat.lt_of_succ_lt h) p q]
    show tgt1 V c (16 * b + s + 1) h (ix2 p q) = _
    rw [tgt1_carry V c (16 * b + s) h (by omega), tgt1_step]
    rfl

/-- The same at any position t, named by itself. -/
private theorem tgt1_closed (c : Dev nD) (t : ℕ) (ht : t < cfg1.N) (p : Fin 2048) (q : Fin 256) :
    tgt1 V c t ht (ix2 p q) = ∑ s' ∈ Finset.range (t % 16 + 1), addend V c (16 * (t / 16) + s') p.val q.val := by
  have same : ∀ (u : ℕ) (hu : u < cfg1.N), u = t → tgt1 V c u hu = tgt1 V c t ht := fun u hu e => by subst e; rfl
  have h' : 16 * (t / 16) + t % 16 < cfg1.N := by rw [Nat.div_add_mod]; exact ht
  rw [← same _ h' (Nat.div_add_mod t 16)]
  exact tgt1_block V c (t / 16) (t % 16) (Nat.mod_lt t (by decide)) h' p q

/-! ## The loss cell in closed form -/

/-- The loss of the block that ends at position m: the smooth-L1 terms of (feature − target) over its 2048 × 256 entries. -/
private def blockLoss (c : Dev nD) (m : ℕ) : EReal :=
  ∑ p : Fin 2048, ∑ q : Fin 256,
    Spec.huber (featN V c (2048 * (m / 128) + p.val) (256 * (m / 16 % 8) + q.val)
      - ∑ s' ∈ Finset.range 16, addend V c (16 * (m / 16) + s') p.val q.val)

/-- After position n the loss cell holds the losses of the blocks that ended at or before n. -/
private theorem loss1_closed (c : Dev nD) : ∀ (n : ℕ) (h : n < cfg1.N),
    loss1 V c n h (ix2 (0 : Fin 1) (0 : Fin 1)) = ∑ m ∈ Finset.range (n + 1), (if m % 16 = 15 then blockLoss V c m else 0)
  | 0, h => by rw [loss1_zero, pay1_apply, Finset.sum_range_one, if_neg (by decide)]
  | n + 1, h => by
    rw [Finset.sum_range_succ, ← loss1_closed c n (Nat.lt_of_succ_lt h), loss1_succ]
    by_cases hm : (n + 1) % 16 = 15
    · rw [if_pos hm, if_pos hm, pay4_apply]
      refine congrArg (loss1 V c n (Nat.lt_of_succ_lt h) (ix2 (0 : Fin 1) (0 : Fin 1)) + ·) ?_
      unfold blockLoss
      refine Finset.sum_congr rfl fun p _ => Finset.sum_congr rfl fun q _ => ?_
      rw [iblk1_feat V c ⟨n + 1, h⟩ p q, tgt1_closed V c (n + 1) h p q, hm]
    · rw [if_neg hm, if_neg hm, add_zero]

/-! ## The write-back and the array it leaves -/

/-- The last position: the only one after which the loss cell is written back. -/
private abbrev tLast : Fin cfg1.N := ⟨1023, by rw [show cfg1.N = 1024 from N_1]; decide⟩

/-- What the loss cell's array ends holding: the cell after the last position. -/
private abbrev lossEnd (c : Dev nD) : Buf (Elt Ideal) ((c : Thread nD τ).loc main_v11) := loss1 V c tLast.val tLast.isLt

/-- The one write-back writes it: the cell's block is the whole [1, 1] array, read through zero offsets. -/
private theorem flushed_loss (c : Dev nD) (t : Fin cfg1.N) (hf : (cfg1.win 3).flush t = true) :
    (dat1 V c).flushed 3 t = ((cfg1.win 3).blk t).view.read (Elt Ideal) (lossEnd V c) := by
  have hN : cfg1.N = 1024 := N_1
  have h3 : t.val = 1023 := by have := (flush1_3 t).mp hf; have := t.isLt; omega
  obtain rfl : t = tLast := Fin.ext h3
  show (cfg1.win 3).cut (grid1.coords tLast) ((dat1 V c).after 3 tLast) = _
  rw [after1_3]
  have hz : (fun a => win1_3.index tLast a * main_v11.ty.shape.size a) = fun _ => 0 :=
    funext fun a => by fin_cases a <;> decide +kernel
  exact (Memref.read_access_unit_zero (Elt Ideal) main_v11 hz (fun a => by rw [congrFun hz a]; simp) (lossEnd V c)).symm

/-- So the array ends holding the cell after the last position: that block covers its one entry. -/
private theorem final_loss (c : Dev nD) : (dat1 V c).arrAt 3 cfg1.N = lossEnd V c :=
  (dat1 V c).arrAt_eq_of_cover 3 (lossEnd V c) (flushed_loss V c) fun i => by
    refine ⟨tLast, (flush1_3 tLast).mpr rfl, ?_⟩
    show i ∈ ((View.whole main_v11).slice (win1_3.rect tLast)).set
    rw [View.set_slice_whole, Rect.mem_set_unit]
    have h0 : (i 0 : Nat) < 1 := (i 0).isLt
    have h1 : (i 1 : Nat) < 1 := (i 1).isLt
    have o0 : win1_3.index tLast 0 * win1_3.size 0 = 0 := by decide +kernel
    have o1 : win1_3.index tLast 1 * win1_3.size 1 = 0 := by decide +kernel
    have x0 : win1_3.xsize (grid1.coords tLast) 0 = 1 := by decide +kernel
    have x1 : win1_3.xsize (grid1.coords tLast) 1 = 1 := by decide +kernel
    intro a
    match a with
    | ⟨0, _⟩ =>
      show win1_3.index tLast 0 * win1_3.size 0 ≤ (i 0 : Nat)
        ∧ (i 0 : Nat) < win1_3.index tLast 0 * win1_3.size 0 + win1_3.xsize (grid1.coords tLast) 0
      rw [o0, x0]; omega
    | ⟨1, _⟩ =>
      show win1_3.index tLast 1 * win1_3.size 1 ≤ (i 1 : Nat)
        ∧ (i 1 : Nat) < win1_3.index tLast 1 * win1_3.size 1 + win1_3.xsize (grid1.coords tLast) 1
      rw [o1, x1]; omega

/-! ## The loss cell's value -/

/-- A block's loss with its position written out by the block number b = 8·n + d. -/
private theorem blockLoss_block (c : Dev nD) (b : Fin 64) :
    blockLoss V c (16 * b.val + 15)
      = ∑ p : Fin 2048, ∑ q : Fin 256,
          Spec.huber (featN V c (2048 * (b.val / 8) + p.val) (256 * (b.val % 8) + q.val)
            - ∑ s' : Fin 16, ∑ k : Fin 512,
                indN (segN V c (2048 * (b.val / 8) + p.val)) (512 * s'.val + k.val)
                  * meanN V c (512 * s'.val + k.val) (256 * (b.val % 8) + q.val)) := by
  unfold blockLoss
  have hb := b.isLt
  have e1 : (16 * b.val + 15) / 128 = b.val / 8 := by omega
  have e2 : (16 * b.val + 15) / 16 % 8 = b.val % 8 := by omega
  have e3 : 16 * ((16 * b.val + 15) / 16) = 16 * b.val := by omega
  rw [e1, e2, e3]
  refine Finset.sum_congr rfl fun p _ => Finset.sum_congr rfl fun q _ => ?_
  rw [Finset.sum_range]
  refine congrArg (fun x => Spec.huber (_ - x)) (Finset.sum_congr rfl fun s' _ => ?_)
  unfold addend
  have hs := s'.isLt
  have f1 : (16 * b.val + s'.val) / 128 = b.val / 8 := by omega
  have f2 : (16 * b.val + s'.val) % 16 = s'.val := by omega
  have f3 : (16 * b.val + s'.val) / 16 % 8 = b.val % 8 := by omega
  rw [f1, f2, f3]

theorem loss_value (c : Dev nD) :
    ((dat1 (F := Ideal) V c).arrAt 3 cfg1.N : FVec Ideal S1x1 .f32) (ix2 (0 : Fin 1) (0 : Fin 1))
      = ∑ e : Fin 16384, ∑ j : Fin 2048,
          Spec.huber (feats1 V c e j - ∑ s : Fin 8192, Spec.ind (segCol1 V c e) s * means1 V c s j) := by
  rw [final_loss V c]
  show loss1 V c tLast.val tLast.isLt (ix2 (0 : Fin 1) (0 : Fin 1)) = _
  rw [loss1_closed V c tLast.val tLast.isLt]
  show ∑ m ∈ Finset.range 1024, (if m % 16 = 15 then blockLoss V c m else 0) = _
  rw [sum_block_ends, Finset.sum_congr rfl fun b _ => blockLoss_block V c b,
    regroup (featN V c) (segN V c) (meanN V c)]
  refine Finset.sum_congr rfl fun e _ => Finset.sum_congr rfl fun j _ => ?_
  rw [featN_fin, segN_fin]
  refine congrArg (fun x => Spec.huber (_ - x)) (Finset.sum_congr rfl fun s _ => ?_)
  rw [meanN_fin]
  rfl

end Cert.KernelIdeal.Hand

end
-- ==== Proof.KI.Bridge.lean ====
/-
  The idealized kernel program's result is the specification's loss. Region 0's means array holds the specification's
  means (its indicator-matrix sums are the sums over each segment's rows; its counts column is the specification's count);
  region 1's target for a row — the sum over all segment counters of the indicator times the mean — is the mean of the
  row's own segment, since the row's id is exactly one of the counters; and the closing host operations divide the loss
  cell by the number of entries.
-/
import proofs.«429483_j15710990369513_1_alg».proof.Proof.KI.Host
import proofs.«429483_j15710990369513_1_alg».proof.Proof.KI.Value0
import proofs.«429483_j15710990369513_1_alg».proof.Proof.KI.Value1
import proofs.«429483_j15710990369513_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ)

/-- The features argument, entry by entry. -/
abbrev featM (c : Dev nD) : Fin 16384 → Fin 2048 → EReal :=
  fun e j => (m ((c : Thread nD τ).loc main_arg0) : FVec Ideal S16384x2048 .f32) (ix2 e j)

/-- Summing, over all segment counters, the indicator of "the word is this counter" times a value picks the value at the
    word's own counter, when the word is one. -/
theorem sum_ind_mul (w : BitVec 32) (hw : w.toNat < 8192) (f : Fin 8192 → EReal) :
    ∑ s : Fin 8192, Spec.ind w s * f s = f ⟨w.toNat, hw⟩ := by
  rw [Finset.sum_eq_single (⟨w.toNat, hw⟩ : Fin 8192)]
  · unfold Spec.ind
    rw [if_pos (by simp only [BitVec.ofNat_toNat, BitVec.setWidth_eq]), one_mul]
  · intro s _ hs
    unfold Spec.ind
    rw [if_neg, zero_mul]
    intro h
    apply hs
    apply Fin.ext
    subst h
    have := s.isLt
    simp only [BitVec.toNat_ofNat]
    omega
  · intro h
    exact absurd (Finset.mem_univ _) h

/-- Region 1 finds in the means array the specification's means. -/
theorem means1_eq (c : Dev nD) (s : Fin 8192) (j : Fin 2048) :
    means1 (V2 m) c s j = Spec.mean (segM m c) (featM m c) s j := by
  have h0 : means1 (V2 m) c s j = ((dat0 (F := Ideal) (V1 m) c).arrAt 3 cfg0.N : FVec Ideal S8192x2048 .f32) (ix2 s j) := by
    unfold means1; rw [V2_v10]
  rw [h0, means_value (V1 m) c s j]
  have h1 : segRow0 (V1 m) c = segM m c := funext fun e => V1_v3 m c e
  have h2 : feats0 (V1 m) c = featM m c := by
    funext e j; unfold feats0; rw [V1_arg0]
  have h3 : cnt0 (V1 m) c s = Spec.count (segM m c) s := V1_v9 m c s
  rw [h1, h2, h3, Spec.rowsB_eq_rows]
  rfl

/-- THE KERNEL'S VALUE: the result buffer at the program's end holds the specification's loss. -/
theorem kernel_value (hseg : ∀ c e, (segM m c e).toNat < 8192) (c : Dev nD) :
    (W4 m c (Proc.devRef .tc main_v13) : FVec Ideal S_ .f32)
      = fun _ => Spec.loss (segM m c) (featM m c) (hseg c) := by
  rw [W4_v13]
  funext _
  unfold Spec.loss
  rw [loss_value (V2 m) c]
  refine congrArg (fun z => Ideal.div z Spec.entries) ?_
  refine Finset.sum_congr rfl fun e _ => Finset.sum_congr rfl fun j _ => ?_
  have hx : feats1 (V2 m) c e j = featM m c e j := by
    unfold feats1; rw [V2_arg0]
  have hs : segCol1 (V2 m) c e = segM m c e := by
    unfold segCol1; rw [V2_v4]; exact V1_v4 m c e
  rw [hx, hs]
  refine congrArg (fun z => Spec.huber (featM m c e j - z)) ?_
  simp only [means1_eq]
  exact sum_ind_mul _ (hseg c e) _

end Cert.KernelIdeal.Hand

end
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.Ref.lean ====
/-
  The reference program's result, read off its run: the segment sums and counts as sums over each segment's rows, the
  means, each row's mean gathered back by its segment id, the smooth-L1 terms summed over all entries and divided by
  their number.
-/
import proofs.«429483_j15710990369513_1_alg».proof.Defs
import proofs.«429483_j15710990369513_1_alg».proof.Proof.Gen.ReferenceIdeal.Run
import proofs.«429483_j15710990369513_1_alg».proof.Proof.Gen.ReferenceIdeal.Read
import proofs.«429483_j15710990369513_1_alg».proof.Proof.Spec
import proofs.«429483_j15710990369513_1_alg».proof.Proof.LibScatterRows
import proofs.«429483_j15710990369513_1_alg».proof.Proof.LibGatherRows

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value

/-! ## The index column: every `[16384, 1]` column of ids read at `(e, 0)` reads the id vector at `e` -/

private theorem idx4_row (e : Fin 16384) : Read.idx_main_v4 (ix2 e (0 : Fin 1)) = ix1 e :=
  funext fun a => match a with | ⟨0, _⟩ => rfl

private theorem idx8_row (e : Fin 16384) : Read.idx_main_v8 (ix2 e (0 : Fin 1)) = ix1 e :=
  funext fun a => match a with | ⟨0, _⟩ => rfl

private theorem idx20_row (e : Fin 16384) : Read.idx_main_v20 (ix2 e (0 : Fin 1)) = ix1 e :=
  funext fun a => match a with | ⟨0, _⟩ => rfl

/-- The divisor's two broadcasts, `[8192] → [8192, 1] → [8192, 2048]`, read at `(s, j)` read the vector at `s`. -/
private theorem idx13_row (s : Fin 8192) (j : Fin 2048) : Read.idx_main_v12 (Read.idx_main_v13 (ix2 s j)) = ix1 s :=
  funext fun a => match a with | ⟨0, _⟩ => rfl

section
variable (x0 : (⟨S16384x2048, .f32⟩ : BufTy).Contents (Elt Ideal)) (x1 x2 : (⟨S16384, .i32⟩ : BufTy).Contents (Elt Ideal))

/-- The id the reference computes at row `e`, `label · 8 + camera` in 32-bit words, is the specification's word. -/
private theorem seg_read (e : Fin 16384) : Read.val_main_v2 (F := Ideal) x1 x2 (ix1 e) = Spec.segW x1 x2 e := by
  rw [Read.val_main_v2_apply, Read.val_main_v1_apply, Read.val_main_v0_apply, Read.val_main_c_apply]
  rfl

/-- The rows the sums' scatter lands on segment `s` are the specification's rows of `s`. -/
private theorem rows_v4 (s : Fin 8192) :
    SegSum.rowsOf (N := 8192) (E := 16384) (w := 32) (Read.val_main_v4 (F := Ideal) x1 x2) s = Spec.rows (Spec.segW x1 x2) s := by
  unfold SegSum.rowsOf Spec.rows
  refine Finset.filter_congr fun e _ => ?_
  rw [Read.val_main_v4_apply, idx4_row, seg_read]

/-- The same for the counts' scatter. -/
private theorem rows_v8 (s : Fin 8192) :
    SegSum.rowsOf (N := 8192) (E := 16384) (w := 32) (Read.val_main_v8 (F := Ideal) x1 x2) s = Spec.rows (Spec.segW x1 x2) s := by
  unfold SegSum.rowsOf Spec.rows
  refine Finset.filter_congr fun e _ => ?_
  rw [Read.val_main_v8_apply, idx8_row, seg_read]

/-- The scattered sums at `(s, j)`: column `j` summed over the rows of segment `s` (onto zero). -/
private theorem sums_read (s : Fin 8192) (j : Fin 2048) :
    Read.val_main_v5 (F := Ideal) x0 x1 x2 (ix2 s j) = Spec.segSum (Spec.segW x1 x2) (fun e j => x0 (ix2 e j)) s j := by
  unfold Read.val_main_v5 Host.scatterAdd
  rw [Ideal.hostScatterAdd_def]
  refine (SegSum.hostScatterAdd_rows_apply (N := 8192) (E := 16384) (C := 2048) (w := 32)
    scatter_S8192x2048_S16384x1_S16384x2048_1_0_0_1_wf _ _ _ s j).trans ?_
  rw [Read.val_main_v3_apply, Read.val_main_cst_apply, Ideal.ofBits_def, Ideal.ofBits_zero_f32, zero_add, rows_v4]
  rfl

/-- The scattered counts at `s`: a one for each row of segment `s` (onto zero). -/
private theorem count_read (s : Fin 8192) :
    Read.val_main_v9 (F := Ideal) x1 x2 (ix1 s) = Spec.count (Spec.segW x1 x2) s := by
  unfold Read.val_main_v9 Host.scatterAdd
  rw [Ideal.hostScatterAdd_def]
  refine (SegSum.hostScatterAdd_flat_apply (N := 8192) (E := 16384) (w := 32)
    scatter_S8192_S16384x1_S16384_n_0_0_1_wf _ _ _ s).trans ?_
  rw [Read.val_main_v7_apply, Read.val_main_cst_1_apply, Ideal.ofBits_def, Ideal.ofBits_zero_f32, zero_add, rows_v8]
  unfold Spec.count
  refine Finset.sum_congr rfl fun e _ => ?_
  rw [Read.val_main_v6_apply, Read.val_main_cst_0_apply]
  rfl

/-- The divisor at `(s, j)`: the larger of the count of `s` and one. -/
private theorem denom_read (s : Fin 8192) (j : Fin 2048) :
    Read.val_main_v13 (F := Ideal) x1 x2 (ix2 s j) = max (Spec.count (Spec.segW x1 x2) s) Spec.one := by
  rw [Read.val_main_v13_apply, Read.val_main_v12_apply, idx13_row, Read.val_main_v11_apply, count_read,
    Read.val_main_v10_apply, Read.val_main_cst_2_apply]
  rfl

/-- The means at `(s, j)`. -/
private theorem mean_read (s : Fin 8192) (j : Fin 2048) :
    Read.val_main_v14 (F := Ideal) x0 x1 x2 (ix2 s j) = Spec.mean (Spec.segW x1 x2) (fun e j => x0 (ix2 e j)) s j := by
  rw [Read.val_main_v14_apply, Ideal.hostDivf_def, sums_read, denom_read]
  rfl

/-- A word below 8192 read signed is its unsigned reading. -/
private theorem toInt_of_lt (w : BitVec 32) (h : w.toNat < 8192) : w.toInt = (w.toNat : Int) := by
  rw [BitVec.toInt_eq_toNat_cond]
  split <;> omega

/-- The gather's index at row `e`: the id wrapped as `id < 0 ? id + 8192 : id`, which on a segment's id is the id. -/
private theorem wrap_read (e : Fin 16384) (h : (Spec.segW x1 x2 e).toNat < 8192) :
    Read.val_main_v19 (F := Ideal) x1 x2 (ix1 e) = Spec.segW x1 x2 e := by
  rw [Read.val_main_v19_apply, Read.val_main_v16_apply, Read.val_main_v15_apply, Read.val_main_c_3_apply, seg_read]
  have hs : (Spec.segW x1 x2 e).slt 0#32 = false := by
    rw [BitVec.slt_eq_decide]
    refine decide_eq_false ?_
    rw [toInt_of_lt _ h]
    have : (0#32 : BitVec 32).toInt = 0 := by decide
    omega
  show (if BitVec.ofBool ((Spec.segW x1 x2 e).slt 0#32) = 1 then _ else _) = _
  rw [hs]
  rfl

/-- The gathered target at `(e, j)`: the mean of row `e`'s segment at column `j`. -/
private theorem tgt_read (hseg : ∀ e, (Spec.segW x1 x2 e).toNat < 8192) (e : Fin 16384) (j : Fin 2048) :
    Read.val_main_v21 (F := Ideal) x0 x1 x2 (ix2 e j)
      = Spec.mean (Spec.segW x1 x2) (fun e j => x0 (ix2 e j)) ⟨(Spec.segW x1 x2 e).toNat, hseg e⟩ j := by
  unfold Read.val_main_v21
  refine (RowGather.gather_rows_apply (N := 8192) (C := 2048) (E := 16384) (w := 32) (by decide)
    gather_S8192x2048_S16384x1_S16384x2048_1_0_n_n_0_1_12048_wf _ _ e j).trans ?_
  rw [Read.val_main_v20_apply, idx20_row, wrap_read x1 x2 e (hseg e)]
  have hrow : RowGather.clampRow 8192 (by decide) (Spec.segW x1 x2 e) = ⟨(Spec.segW x1 x2 e).toNat, hseg e⟩ := by
    refine Fin.ext ?_
    show min (Spec.segW x1 x2 e).toInt.toNat (8192 - 1) = (Spec.segW x1 x2 e).toNat
    rw [toInt_of_lt _ (hseg e)]
    have := hseg e
    omega
  rw [hrow, mean_read]

/-- The smooth-L1 term at `(e, j)`. -/
private theorem term_read (hseg : ∀ e, (Spec.segW x1 x2 e).toNat < 8192) (e : Fin 16384) (j : Fin 2048) :
    Read.val_main_v31 (F := Ideal) x0 x1 x2 (ix2 e j)
      = Spec.huber (x0 (ix2 e j)
          - Spec.mean (Spec.segW x1 x2) (fun e j => x0 (ix2 e j)) ⟨(Spec.segW x1 x2 e).toNat, hseg e⟩ j) := by
  have hd : Read.val_main_v22 (F := Ideal) x0 x1 x2 (ix2 e j) = x0 (ix2 e j)
      - Spec.mean (Spec.segW x1 x2) (fun e j => x0 (ix2 e j)) ⟨(Spec.segW x1 x2 e).toNat, hseg e⟩ j := by
    rw [Read.val_main_v22_apply, tgt_read x0 x1 x2 hseg]
    rfl
  rw [Read.val_main_v31_apply, Read.val_main_v25_apply, Read.val_main_v28_apply, Read.val_main_v30_apply,
    Read.val_main_v27_apply, Read.val_main_v23_apply, Read.val_main_v24_apply, Read.val_main_cst_5_apply,
    Read.val_main_v26_apply, Read.val_main_cst_6_apply, Read.val_main_v29_apply, Read.val_main_cst_7_apply, hd]
  rfl

end

/-- The reference's result, as a function of its three arguments, is the specification's loss, provided every segment id
    is a segment (which the precondition gives). -/
theorem ref_value (x0 : (⟨S16384x2048, .f32⟩ : BufTy).Contents (Elt Ideal)) (x1 x2 : (⟨S16384, .i32⟩ : BufTy).Contents (Elt Ideal))
    (hseg : ∀ e, (Spec.segW x1 x2 e).toNat < 8192) :
    Cert.ReferenceIdeal.Read.val_main_v33 (F := Ideal) x0 x1 x2
      = fun _ => Spec.loss (Spec.segW x1 x2) (fun e j => x0 (ix2 e j)) hseg := by
  funext i
  rw [Read.val_main_v33_apply, Read.val_main_v32_apply, Read.val_main_cst_8_apply, Read.val_main_cst_9_apply,
    Ideal.hostDivf_def, Ideal.ofBits_def, Ideal.ofBits_zero_f32, zero_add, sum_idx2]
  unfold Spec.loss
  refine congrArg (fun t => Ideal.div t Spec.entries) ?_
  exact Finset.sum_congr rfl fun e _ => Finset.sum_congr rfl fun j _ => term_read x0 x1 x2 hseg e j

end Cert.ReferenceIdeal.RefValue

end
-- ==== Proof.lean ====
/-
  The certificate's five claims.
  Both kernel programs (the word-level one and its idealization, one text at two instances) run the same way: the opening
  host operations build the segment ids and the per-segment counts; region 0 accumulates, per block of 128 feature columns,
  the indicator-matrix products over 64 row steps and stores the sums over max(count, 1) as the means; region 1 accumulates,
  per block of 2048 rows and 256 columns, each row's target as indicator-matrix products with the means over 16 segment
  steps and adds the block's smooth-L1 sum into one cell; the closing operations divide the cell by the number of entries.
  From that run: every execution terminates without a fault and leaves the three arguments as launched (the two frames).
  The reference's frame is its run with the result dropped. The idealization rewrote no operation (`preserves` is `True`).
  At the ideal instance the kernel's result is the specification's loss (the indicator sums are the sums over each
  segment's rows, and a row's target is the mean of the row's own segment, its id being a segment by the precondition),
  and so is the reference's (its scatters, its gather and its sum read at an index): equal results.
-/
import proofs.«429483_j15710990369513_1_alg».proof.Defs
import proofs.«429483_j15710990369513_1_alg».proof.Proof.Gen.Kernel
import proofs.«429483_j15710990369513_1_alg».proof.Proof.Gen.KernelIdeal
import proofs.«429483_j15710990369513_1_alg».proof.Proof.Gen.ReferenceIdeal
import proofs.«429483_j15710990369513_1_alg».proof.Proof.Gen.Pre_finite_inputs
import proofs.«429483_j15710990369513_1_alg».proof.Proof.K.Run
import proofs.«429483_j15710990369513_1_alg».proof.Proof.K.Args
import proofs.«429483_j15710990369513_1_alg».proof.Proof.KI.Run
import proofs.«429483_j15710990369513_1_alg».proof.Proof.KI.Args
import proofs.«429483_j15710990369513_1_alg».proof.Proof.KI.Bridge
import proofs.«429483_j15710990369513_1_alg».proof.Proof.Ref
import Idealize.ShloMosaic.Adequacy
import Idealize.ShloMosaic.Init

noncomputable section

namespace Cert.Proof

open Idealize.ShloMosaic Idealize.ShloMosaic.TcCoe Idealize.SL.Sem

/-- An unscoped TensorCore buffer of the word-level program is among those its run's end state is read at. -/
theorem mem_ucK (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
/-- The same for the idealized program. -/
theorem mem_ucKI (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The word-level kernel program terminates, faults nowhere, and leaves its arguments as launched. -/
theorem frame_k : Cert.frame_Kernel := fun m ρ _ =>
  (θ_run Cert.Kernel.defs _ _).mono (fun _ h c =>
    ⟨(h c _ (mem_ucK Cert.Kernel.main_arg0 (by decide))).trans (Cert.Kernel.Hand.W4_keeps_arg0 m c),
     (h c _ (mem_ucK Cert.Kernel.main_arg1 (by decide))).trans (Cert.Kernel.Hand.W4_keeps_arg1 m c),
     (h c _ (mem_ucK Cert.Kernel.main_arg2 (by decide))).trans (Cert.Kernel.Hand.W4_keeps_arg2 m c)⟩)
    (Cert.Kernel.Hand.run_all (F := Bits) m ρ)

/-- So does its idealization. -/
theorem frame_ki : Cert.frame_KernelIdeal := fun m ρ _ =>
  (θ_run Cert.KernelIdeal.defs _ _).mono (fun _ h c =>
    ⟨(h c _ (mem_ucKI Cert.KernelIdeal.main_arg0 (by decide))).trans (Cert.KernelIdeal.Hand.W4_keeps_arg0 m c),
     (h c _ (mem_ucKI Cert.KernelIdeal.main_arg1 (by decide))).trans (Cert.KernelIdeal.Hand.W4_keeps_arg1 m c),
     (h c _ (mem_ucKI Cert.KernelIdeal.main_arg2 (by decide))).trans (Cert.KernelIdeal.Hand.W4_keeps_arg2 m c)⟩)
    (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end with the specification's loss of the (shared) arguments. -/
theorem algebraic : Cert.algebraic_KernelIdeal_ReferenceIdeal := by
  intro m ρ m' ρ' hpre hagree
  have hseg : ∀ c e, (Cert.KernelIdeal.Hand.segM m c e).toNat < 8192 :=
    fun c e => Cert.KernelIdeal.Hand.seg_lt_of_pre m hpre c e
  refine ⟨fun c => (fun _ => Cert.Spec.loss (Cert.KernelIdeal.Hand.segM m c) (Cert.KernelIdeal.Hand.featM m c) (hseg c)), ?_, ?_⟩
  · exact (θ_run Cert.KernelIdeal.defs _ _).mono (fun _ h c =>
      ⟨(h c _ (mem_ucKI Cert.KernelIdeal.main_v13 (by decide))).trans (Cert.KernelIdeal.Hand.kernel_value m hseg c),
       (h c _ (mem_ucKI Cert.KernelIdeal.main_arg0 (by decide))).trans (Cert.KernelIdeal.Hand.W4_keeps_arg0 m c),
       (h c _ (mem_ucKI Cert.KernelIdeal.main_arg1 (by decide))).trans (Cert.KernelIdeal.Hand.W4_keeps_arg1 m c),
       (h c _ (mem_ucKI Cert.KernelIdeal.main_arg2 (by decide))).trans (Cert.KernelIdeal.Hand.W4_keeps_arg2 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2]
    exact Cert.ReferenceIdeal.RefValue.ref_value _ _ _ (hseg c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
